-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S8192x1 : Shape := ⟨2, ![8192, 1]⟩
abbrev S1024x128 : Shape := ⟨2, ![1024, 128]⟩
abbrev S512x128 : Shape := ⟨2, ![512, 128]⟩
abbrev S1024x1 : Shape := ⟨2, ![1024, 1]⟩
abbrev S1024 : Shape := ⟨1, ![1024]⟩
abbrev S512 : Shape := ⟨1, ![512]⟩
abbrev S512x1 : Shape := ⟨2, ![512, 1]⟩
abbrev S128x512 : Shape := ⟨2, ![128, 512]⟩
abbrev S1024x512 : Shape := ⟨2, ![1024, 512]⟩
abbrev S1x512 : Shape := ⟨2, ![1, 512]⟩
abbrev S8192 : Shape := ⟨1, ![8192]⟩
abbrev S_ : Shape := ⟨0, ![]⟩

abbrev nBuf : Space → Nat
  | .hbm => 13
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x1, .f32⟩
  | .hbm, ⟨3, _⟩ => ⟨S8192, .f32⟩
  | .hbm, ⟨4, _⟩ => ⟨S8192x1, .f32⟩
  | .hbm, ⟨5, _⟩ => ⟨S8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S512x128, .f32⟩
  | .local _ .vmem, ⟨3, _⟩ => ⟨S512x128, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x128, .f32⟩
  | .local _ .vmem, ⟨8, _⟩ => ⟨S1024x128, .f32⟩
  | .local _ .vmem, ⟨9, _⟩ => ⟨S512x128, .f32⟩
  | .local _ .vmem, ⟨10, _⟩ => ⟨S512x128, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_13 : BitVec 32 := 0#32
  let v34 : BitVec 1 := Scalar.cmpi .ne v33 c0_i32_13
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_13 : BitVec 32 := 0#32
  let v34 : BitVec 1 := Scalar.cmpi .ne v33 c0_i32_13
  v34

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  inb_S512x128_S512x128_0_0 : ∀ a, (![0, 0] : Fin 2 → Nat) a + S512x128.size a ≤ S512x128.size a
  h_S512x128 : 0 < S512x128.numel
  reduces_S1024x128_S1024 : S1024x128.Reduces [1] S1024
  shapeCasts_S1024_S1024x1 : S1024.ShapeCasts S1024x1
  reduces_S512x128_S512 : S512x128.Reduces [1] S512
  shapeCasts_S512_S512x1 : S512.ShapeCasts S512x1
  bitsLt_bf16_f32 : FTy.bits .bf16 < FTy.bits .f32
  transposes_S512x128_p1_0_S128x512 : S512x128.Transposes [1, 0] S128x512
  transposes_S512x1_p1_0_S1x512 : S512x1.Transposes [1, 0] S1x512
  broadcasts_S1024x1_S1024x512 : S1024x1.Broadcasts S1024x512
  broadcasts_S1x512_S1024x512 : S1x512.Broadcasts S1024x512
  reduces_S1024x512_S1024 : S1024x512.Reduces [1] S1024
  shapeCasts_S8192x1_S8192 : S8192x1.ShapeCasts S8192
  reducesTo_S8192_S_d0 : S8192.ReducesTo [0] S_
  h_S_ : 0 < S_.numel
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S8192x128.size a
  hwx1_1 : ∀ i : grid1.Coords, EltTy.bits .f32 = 32 ∨ (Rect.block (s := S8192x128) S512x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 33
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  reducesTo_S8192x8192_S8192_d0 : S8192x8192.ReducesTo [0] S8192
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.K.Body0.lean ====
/-
  The kernel body of the first pallas_call at one grid point, run symbolically in its three cases (first point of a
  grid row, a middle point, the last point of a row): what it leaves in its scratch buffer and in the output block,
  as the skeleton's payloads of the two input blocks and of what the scratch held.
-/
import proofs.«179447_j18872086299275_1_alg».proof.Proof.Gen.Kernel.Launch
import proofs.«179447_j18872086299275_1_alg».proof.Proof.Gen.Kernel.Skeleton
import proofs.«179447_j18872086299275_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body of pallas_call 0 at one grid point

The body keeps a running minimum in its scratch buffer: at the first point of a row of the grid (second coordinate 0) it
resets the scratch to +∞, at every point it replaces the scratch by the elementwise minimum of the scratch and this
tile's row minima, and at the last point of the row (second coordinate 15) it copies the scratch into the output block.
Three cases by the second grid coordinate; in each the body runs from the four buffers held whole to the same buffers,
the scratch at the new running minimum (the payload `k0_pay2` of the two input blocks and of what the scratch held —
the reset value `k0_pay1` at a first point), the output block untouched except at a last point. -/

/-- The first `scf.if`'s condition (the second grid coordinate is 0), as the kernel computes it. -/
abbrev first0 (i : grid0.Coords) : Prop := (Scalar.cmpi .ne (Scalar.extui (Scalar.cmpi .eq (BitVec.ofNat 32 (i 1).val) 0#32)) 0#32) = 1#1
/-- The second's (the second grid coordinate is 15). -/
abbrev last0 (i : grid0.Coords) : Prop := k0_cond2 i = 1#1

private theorem zeros2 : (![0, 0] : Fin 2 → ℕ) = fun _ => 0 := by funext a; fin_cases a <;> rfl

set_option maxHeartbeats 2000000 in
/-- A middle point: neither reset nor copy-out. -/
theorem run0_mid (c : Dev nD) (E : Set ℕ) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .f32) (harg4 : arg4.IsWhole) (arg5 : Memref sig .tc .vmem S1024x1 .f32) (harg5 : arg5.IsWhole)
    (hc0 : ¬first0 i) (hc1 : ¬last0 i)
    (x : Vec F S1024x128 .f32) (y : Vec F S512x128 .f32) (o s : Vec F S1024x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare s
        ∗ (iprop(owns (c : Thread nD τ) arg2 fullShare x ∗ owns (c : Thread nD τ) arg3 fullShare y ∗ owns (c : Thread nD τ) arg4 fullShare o
            ∗ owns (c : Thread nD τ) arg5 fullShare (k0_pay2 x y s)) -∗ K ⟨⟩))
      ⊢ wp frame (wpE (defs₀ (F := F)) Variants.none c none) E (cc0__min_dist_kernel i arg2 harg2 arg3 harg3 arg4 harg4 arg5 harg5) K := by
  simp only [cc0__min_dist_kernel_eq_skeleton]; unfold cc0__min_dist_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  iexists _; isplitr
  swap; · iexact H5
  ipureintro
  rw [View.read_writes_eq_canon _ _ _ (fun y => ⟨_, List.mem_singleton_self _, View.mem_set_unit_zero zeros2 Facts₀.inb_S1024x1_S1024x1_0_0 y⟩),
    View.canon_unit_zero zeros2]
  simp only [View.readAt_eq_ld, harg2.read_unread, harg3.read_unread, harg5.read_unread,
    View.ld_unit_zero (S := S1024x128) zeros2, View.ld_unit_zero (S := S512x128) zeros2, View.ld_unit_zero (S := S1024x1) zeros2]

set_option maxHeartbeats 2000000 in
/-- A first point: the scratch, whatever it held, is reset and then updated. -/
theorem run0_first (c : Dev nD) (E : Set ℕ) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .f32) (harg4 : arg4.IsWhole) (arg5 : Memref sig .tc .vmem S1024x1 .f32) (harg5 : arg5.IsWhole)
    (hc0 : first0 i) (hc1 : ¬last0 i)
    (x : Vec F S1024x128 .f32) (y : Vec F S512x128 .f32) (o s : Vec F S1024x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare s
        ∗ (iprop(owns (c : Thread nD τ) arg2 fullShare x ∗ owns (c : Thread nD τ) arg3 fullShare y ∗ owns (c : Thread nD τ) arg4 fullShare o
            ∗ owns (c : Thread nD τ) arg5 fullShare (k0_pay2 x y (k0_pay1 (F := F)))) -∗ K ⟨⟩))
      ⊢ wp frame (wpE (defs₀ (F := F)) Variants.none c none) E (cc0__min_dist_kernel i arg2 harg2 arg3 harg3 arg4 harg4 arg5 harg5) K := by
  simp only [cc0__min_dist_kernel_eq_skeleton]; unfold cc0__min_dist_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  iexists _; isplitr
  swap; · iexact H5
  ipureintro
  rw [View.read_writes_eq_canon _ _ _ (fun y => ⟨_, List.mem_cons_self .., View.mem_set_unit_zero zeros2 Facts₀.inb_S1024x1_S1024x1_0_0 y⟩),
    View.canon_cons_unit_zero zeros2]
  sl_unfold_words
  simp only [View.readAt_eq_ld, harg2.read_unread, harg3.read_unread, harg5.read_unread,
    View.ld_unit_zero (S := S1024x128) zeros2, View.ld_unit_zero (S := S512x128) zeros2, View.ld_unit_zero (S := S1024x1) zeros2,
    View.readCov_unit_zero (S := S1024x1) _ zeros2]

set_option maxHeartbeats 4000000 in
/-- A last point: the scratch is updated and copied into the output block. -/
theorem run0_last (c : Dev nD) (E : Set ℕ) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .f32) (harg4 : arg4.IsWhole) (arg5 : Memref sig .tc .vmem S1024x1 .f32) (harg5 : arg5.IsWhole)
    (hc0 : ¬first0 i) (hc1 : last0 i)
    (x : Vec F S1024x128 .f32) (y : Vec F S512x128 .f32) (o s : Vec F S1024x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare s
        ∗ (iprop(owns (c : Thread nD τ) arg2 fullShare x ∗ owns (c : Thread nD τ) arg3 fullShare y ∗ owns (c : Thread nD τ) arg4 fullShare (k0_pay2 x y s)
            ∗ owns (c : Thread nD τ) arg5 fullShare (k0_pay2 x y s)) -∗ K ⟨⟩))
      ⊢ wp frame (wpE (defs₀ (F := F)) Variants.none c none) E (cc0__min_dist_kernel i arg2 harg2 arg3 harg3 arg4 harg4 arg5 harg5) K := by
  simp only [cc0__min_dist_kernel_eq_skeleton]; unfold cc0__min_dist_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr
    · ipureintro; exact hf2
    · iexact H2
  isplitl [H3]
  · iexists _; isplitr
    · ipureintro; exact hf3
    · iexact H3
  isplitl [H4]
  · iexists _; isplitr
    swap; · iexact H4
    ipureintro
    rw [View.read_writes_eq_canon _ _ _ (fun y => ⟨_, List.mem_singleton_self _, View.mem_set_unit_zero zeros2 Facts₀.inb_S1024x1_S1024x1_0_0 y⟩),
      View.canon_unit_zero zeros2]
    sl_unfold_words
    simp only [View.readAt_eq_ld, harg2.read_unread, harg3.read_unread, harg5.read_unread,
      View.ld_unit_zero (S := S1024x128) zeros2, View.ld_unit_zero (S := S512x128) zeros2, View.ld_unit_zero (S := S1024x1) zeros2,
      View.readCov_unit_zero (S := S1024x1) _ zeros2]
  iexists _; isplitr
  swap; · iexact H5
  ipureintro
  sl_unfold_words
  rw [View.read_writes_eq_canon _ _ _ (fun y => ⟨_, List.mem_singleton_self _, View.mem_set_unit_zero zeros2 Facts₀.inb_S1024x1_S1024x1_0_0 y⟩),
    View.canon_unit_zero zeros2]
  simp only [View.readAt_eq_ld, harg2.read_unread, harg3.read_unread, harg5.read_unread,
    View.ld_unit_zero (S := S1024x128) zeros2, View.ld_unit_zero (S := S512x128) zeros2, View.ld_unit_zero (S := S1024x1) zeros2]

end Cert.Kernel.Hand

end
-- ==== Proof.K.Dat0.lean ====
/-
  The first pallas_call's proof data: the windows' blocks, the running minimum its scratch buffer carries from grid point
  to grid point (reset at the first point of each grid row, written to the output block at the last), the region's
  invariant, and the body obligation at every point, from the three runs of the body.
-/
import proofs.«179447_j18872086299275_1_alg».proof.Proof.Gen.Kernel.Launch
import proofs.«179447_j18872086299275_1_alg».proof.Proof.Gen.Kernel.Skeleton
import proofs.«179447_j18872086299275_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Pipeline.Value
import Idealize.ShloMosaic.Lib.Tactic
import proofs.«179447_j18872086299275_1_alg».proof.Proof.K.Body0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Pallas_call 0: the blocks, the running minimum point by point, the proof data

Everything here is stated at a PARAMETER `V`: the TensorCore's buffer contents when the region is entered. -/

section Region
variable (V : (c : Dev nD) → (b : Ref sig .tc) → Buf (Elt F) ((c : Thread nD τ).loc b))

/-- Window `w`'s block at point `t`, read off its array as the region finds it. -/
def iblkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (between two
    fetches the block index has not moved), for any proof data over these arrays whose body leaves the block in place. -/
theorem beforeR0_0_of {c : Dev nD} (dat : Dat τ (Elt F) Unit ℕ (UR sig nD τ) ℕ cfg0 c) (hA : dat.A 0 = V c (Pipeline.arrRef spec0 0))
    (hafter : ∀ t, dat.after 0 t = iblkR0 V c 0 t) (t : Fin cfg0.N) (d) : dat.before 0 t d = iblkR0 V c 0 t :=
  (dat.before_in_eq_fetched 0 rfl (fun _ => rfl) (fun _ _ _ => rfl) (fun t => by rw [hafter]; unfold Dat.blockOf iblkR0; rw [hA]; try rfl) t d).trans
    (by unfold Dat.fetched Dat.blockOf iblkR0; rw [hA]; try rfl)
theorem beforeR0_1_of {c : Dev nD} (dat : Dat τ (Elt F) Unit ℕ (UR sig nD τ) ℕ cfg0 c) (hA : dat.A 1 = V c (Pipeline.arrRef spec0 1))
    (hafter : ∀ t, dat.after 1 t = iblkR0 V c 1 t) (t : Fin cfg0.N) (d) : dat.before 1 t d = iblkR0 V c 1 t :=
  (dat.before_in_eq_fetched 1 rfl (fun _ => rfl) (fun _ _ _ => rfl) (fun t => by rw [hafter]; unfold Dat.blockOf iblkR0; rw [hA]; try rfl) t d).trans
    (by unfold Dat.fetched Dat.blockOf iblkR0; rw [hA]; try rfl)

/-- The two input blocks at a point, at their literal types. -/
abbrev xblkR0 (c : Dev nD) (t : Fin cfg0.N) : Vec F S1024x128 .f32 := iblkR0 V c 0 t
abbrev yblkR0 (c : Dev nD) (t : Fin cfg0.N) : Vec F S512x128 .f32 := iblkR0 V c 1 t

/-- THE RUNNING MINIMUM after the body at position `n`: at the first point of a grid row (`n` a multiple of 16) the
    update of the reset value, at any other the update of what the point before left. -/
def accR0 (c : Dev nD) : (n : ℕ) → n < cfg0.N → Vec F S1024x1 .f32
  | 0, hn => k0_pay2 (xblkR0 V c ⟨0, hn⟩) (yblkR0 V c ⟨0, hn⟩) (k0_pay1 (F := F))
  | n + 1, hn =>
    if (n + 1) % 16 = 0 then k0_pay2 (xblkR0 V c ⟨n + 1, hn⟩) (yblkR0 V c ⟨n + 1, hn⟩) (k0_pay1 (F := F))
    else k0_pay2 (xblkR0 V c ⟨n + 1, hn⟩) (yblkR0 V c ⟨n + 1, hn⟩) (accR0 c n (Nat.lt_of_succ_lt hn))

theorem accR0_first (c : Dev nD) (t : Fin cfg0.N) (h : t.val % 16 = 0) :
    accR0 V c t.val t.isLt = k0_pay2 (xblkR0 V c t) (yblkR0 V c t) (k0_pay1 (F := F)) := by
  obtain ⟨n, hn⟩ := t
  cases n with
  | zero => rfl
  | succ n => exact if_pos h

theorem accR0_next (c : Dev nD) (t : Fin cfg0.N) (h : ¬t.val % 16 = 0) :
    accR0 V c t.val t.isLt = k0_pay2 (xblkR0 V c t) (yblkR0 V c t)
      (accR0 V c (t.val - 1) (Nat.lt_of_le_of_lt (Nat.sub_le _ _) t.isLt)) := by
  obtain ⟨n, hn⟩ := t
  cases n with
  | zero => exact absurd (Nat.zero_mod _) h
  | succ n => exact if_neg h

/-- The kernel's scratch operand. -/
abbrev scMR0 : Memref sig .tc .vmem S1024x1 .f32 := Memref.whole cc0_scratch0

/-- The other scoped buffers (the other call's staging buffers and scratch), each at some contents. -/
abbrev restR0 (c : Dev nD) : sProp 𝕄 :=
  Pipeline.scopedRestBut (Ix := Unit) (Name := ℕ) (U := UR sig nD τ) (Lvl := ℕ) (Val := Elt F) spec0 c [cc0_scratch0]

/-- What the region's invariant `ΦA` is made of: the scratch at some contents, the other scoped buffers, the generator register. -/
theorem PhiAR0_eq (c : Dev nD) :
    (Pipeline.ΦA spec0 c : sProp 𝕄)
      = iprop(((∃ d, owns (c : Thread nD τ) scMR0 fullShare d) ∗ restR0 c) ∗ (∃ r, prngReg c r)) := by
  unfold Pipeline.ΦA
  rw [Pipeline.scopedRest_split_of_list spec0 c [cc0_scratch0] (by decide) (by decide)]
  simp only [scMR0, owns_whole, bigSepL]
  try rfl

/-- THE INVARIANT before position `n`: before the first point the region's own (the scratch at anything); afterwards the
    scratch at the running minimum the point before left, the other scoped buffers and the generator register as they were. -/
def PhiR0 (c : Dev nD) : (n : ℕ) → n ≤ cfg0.N → sProp 𝕄
  | 0, _ => Pipeline.ΦA spec0 c
  | n + 1, hn => iprop((owns (c : Thread nD τ) scMR0 fullShare (accR0 V c n hn) ∗ restR0 c) ∗ (∃ r, prngReg c r))

theorem PhiR0_zero (c : Dev nD) (n : ℕ) (h : n ≤ cfg0.N) (hz : n = 0) : PhiR0 V c n h = Pipeline.ΦA spec0 c := by
  subst hz; rfl
theorem PhiR0_succ (c : Dev nD) (n : ℕ) (hn : n < cfg0.N) :
    PhiR0 V c (n + 1) hn = iprop((owns (c : Thread nD τ) scMR0 fullShare (accR0 V c n hn) ∗ restR0 c) ∗ (∃ r, prngReg c r)) := rfl
theorem PhiR0_pos (c : Dev nD) (n : ℕ) (h : n ≤ cfg0.N) (hz : n ≠ 0) :
    PhiR0 V c n h = iprop((owns (c : Thread nD τ) scMR0 fullShare (accR0 V c (n - 1) (by omega)) ∗ restR0 c) ∗ (∃ r, prngReg c r)) := by
  cases n with
  | zero => exact absurd rfl hz
  | succ n => rfl

/-- THE PROOF DATA of the pipeline on core `c`: the arrays as the region finds them; after the body each input's buffer at
    its block and the output's at the running minimum (read only where the block is written back: the last point of
    a grid row); the invariant above; nothing owed; full shares. -/
def datR0 (c : Dev nD) : Dat τ (Elt F) Unit ℕ (UR sig nD τ) ℕ cfg0 c where
  A w := V c (Pipeline.arrRef spec0 w)
  after w t := match w with
    | ⟨0, _⟩ => iblkR0 V c 0 t
    | ⟨1, _⟩ => iblkR0 V c 1 t
    | ⟨2, _⟩ => accR0 V c t.val t.isLt
  Φ t := PhiR0 V c t.val (Nat.le_of_lt_succ t.isLt)
  q _ := fullShare
  owed _ := 0

theorem AR0_eq (c : Dev nD) (w : Fin cfg0.W) : (datR0 V c).A w = V c (Pipeline.arrRef spec0 w) := by
  dsimp only [datR0]
theorem PhiR0_castSucc (c : Dev nD) (t : Fin cfg0.N) :
    (datR0 V c).Φ t.castSucc = PhiR0 V c t.val (Nat.le_of_lt t.isLt) := by
  dsimp only [datR0]; simp only [Fin.coe_castSucc]
theorem afterR0_0 (c : Dev nD) (t : Fin cfg0.N) : (datR0 V c).after 0 t = iblkR0 V c 0 t := by dsimp only [datR0]
theorem afterR0_1 (c : Dev nD) (t : Fin cfg0.N) : (datR0 V c).after 1 t = iblkR0 V c 1 t := by dsimp only [datR0]
theorem afterR0_2 (c : Dev nD) (t : Fin cfg0.N) : (datR0 V c).after 2 t = accR0 V c t.val t.isLt := by dsimp only [datR0]

theorem beforeR0_0 (c : Dev nD) (t : Fin cfg0.N) (d) : (datR0 V c).before 0 t d = iblkR0 V c 0 t :=
  beforeR0_0_of V (datR0 V c) (AR0_eq V c 0) (afterR0_0 V c) t d
theorem beforeR0_1 (c : Dev nD) (t : Fin cfg0.N) (d) : (datR0 V c).before 1 t d = iblkR0 V c 1 t :=
  beforeR0_1_of V (datR0 V c) (AR0_eq V c 1) (afterR0_1 V c) t d

/-! ### The branch conditions and the output window's idle points, decided over the grid -/

theorem hfirst0 : ∀ t : Fin cfg0.N, first0 (grid0.coords t) ↔ t.val % 16 = 0 :=
  (by decide +kernel : ∀ t : Fin grid0.N, first0 (grid0.coords t) ↔ t.val % 16 = 0)
theorem hlast0 : ∀ t : Fin cfg0.N, last0 (grid0.coords t) ↔ t.val % 16 = 15 :=
  (by decide +kernel : ∀ t : Fin grid0.N, last0 (grid0.coords t) ↔ t.val % 16 = 15)
theorem liveR0_0 : ∀ t : Fin cfg0.N, cfg0.idle 0 (grid0.coords t) = false := by decide +kernel
theorem liveR0_1 : ∀ t : Fin cfg0.N, cfg0.idle 1 (grid0.coords t) = false := by decide +kernel
theorem idleR0_2 : ∀ t : Fin cfg0.N, ¬last0 (grid0.coords t) → cfg0.idle 2 (grid0.coords t) = true := by decide +kernel
theorem noFlushR0_2 : ∀ t : Fin cfg0.N, ¬last0 (grid0.coords t) → (cfg0.win 2).flush t = false := by decide +kernel
theorem liveR0_2 : ∀ t : Fin cfg0.N, last0 (grid0.coords t) → cfg0.idle 2 (grid0.coords t) = false := by decide +kernel

/-- Each window's current staging memref at point `t`, as the pipeline passes it, and its wholeness. -/
abbrev msR0_0 (t : Fin cfg0.N) : Memref sig .tc .vmem S1024x128 .f32 := win0_0.stage (cfg0.slots t 0)
abbrev hsR0_0 (t : Fin cfg0.N) : (msR0_0 t).IsWhole := hstage0_0 ((cfg0.slots t 0).cast nbuf0_0)
abbrev msR0_1 (t : Fin cfg0.N) : Memref sig .tc .vmem S512x128 .f32 := win0_1.stage (cfg0.slots t 1)
abbrev hsR0_1 (t : Fin cfg0.N) : (msR0_1 t).IsWhole := hstage0_1 ((cfg0.slots t 1).cast nbuf0_1)
abbrev msR0_2 (t : Fin cfg0.N) : Memref sig .tc .vmem S1024x1 .f32 := win0_2.stage (cfg0.slots t 2)
abbrev hsR0_2 (t : Fin cfg0.N) : (msR0_2 t).IsWhole := hstage0_2 ((cfg0.slots t 2).cast nbuf0_2)

/-! ### The body obligation -/

def bodyPreR0 (c : Dev nD) (t : Fin cfg0.N) : sProp 𝕄 :=
  iprop((datR0 V c).Φ t.castSucc ∗ (datR0 V c).owesAt () t.castSucc
    ∗ (∃ d, owns (c : Thread nD τ) (msR0_0 t) fullShare ((datR0 V c).before 0 t d))
    ∗ (∃ d, owns (c : Thread nD τ) (msR0_1 t) fullShare ((datR0 V c).before 1 t d))
    ∗ (∃ d, owns (c : Thread nD τ) (msR0_2 t) fullShare ((datR0 V c).before 2 t d)))

def bodyPostR0 (c : Dev nD) (t : Fin cfg0.N) : sProp 𝕄 :=
  iprop((datR0 V c).Φ t.succ ∗ (datR0 V c).owesAt () t.succ
    ∗ (datR0 V c).leavesExact 0 t
    ∗ (datR0 V c).leavesExact 1 t
    ∗ (datR0 V c).leavesExact 2 t)

set_option maxHeartbeats 4000000 in
/-- The body at any point, by the case the point is in: the inputs' buffers hold their blocks; the invariant hands the
    scratch over at what the point before left (at anything before the first point) and takes it back at this point's
    running minimum; the output's buffer is handed back as found except at a last point, where it holds that minimum. -/
theorem sound_bodyR0 (c : Dev nD) (t : Fin cfg0.N) :
    bodyPreR0 V c t ⊢ wp frame (wpE (defs₀ (F := F)) Variants.none c none) Set.univ (bodyAt0 t) (fun _ => bodyPostR0 V c t) := by
  unfold bodyPreR0 bodyPostR0 bodyAt0
  simp only [beforeR0_0, beforeR0_1]
  rw [show (datR0 V c).owesAt () t.succ = (datR0 V c).owesAt () t.castSucc from rfl]
  rw [show (datR0 V c).Φ t.succ = PhiR0 V c (t.val + 1) t.isLt from rfl, PhiR0_succ]
  rw [show (datR0 V c).leavesExact 0 t = owns (c : Thread nD τ) (msR0_0 t) fullShare ((datR0 V c).after 0 t) from by
    unfold Dat.leavesExact; rw [liveR0_0 t], afterR0_0]
  rw [show (datR0 V c).leavesExact 1 t = owns (c : Thread nD τ) (msR0_1 t) fullShare ((datR0 V c).after 1 t) from by
    unfold Dat.leavesExact; rw [liveR0_1 t], afterR0_1]
  have hN : t.val < 128 := lt_of_lt_of_eq t.isLt (show cfg0.N = 128 from N_0)
  by_cases h0 : t.val % 16 = 0
  · have hl : ¬last0 (grid0.coords t) := fun h => by have := (hlast0 t).mp h; omega
    rw [Dat.leavesExact_idle (datR0 V c) 2 t (idleR0_2 t hl) (noFlushR0_2 t hl)]
    rw [accR0_first V c t h0]
    by_cases hz : t.val = 0
    · rw [PhiR0_castSucc V c t, PhiR0_zero V c _ _ hz, PhiAR0_eq]
      iintro ⟨⟨⟨⟨%s, HS⟩, Hrest⟩, Hg⟩, Ho, ⟨%d0, H0⟩, ⟨%d1, H1⟩, ⟨%d2, H2⟩⟩
      iapply (run0_first c Set.univ (grid0.coords t) _ (hsR0_0 t) _ (hsR0_1 t) _ (hsR0_2 t) scMR0 (Memref.isWhole_whole _)
        ((hfirst0 t).mpr h0) hl (xblkR0 V c t) (yblkR0 V c t) _ s _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiR0_castSucc V c t, PhiR0_pos V c _ _ hz]
      iintro ⟨⟨⟨HS, Hrest⟩, Hg⟩, Ho, ⟨%d0, H0⟩, ⟨%d1, H1⟩, ⟨%d2, H2⟩⟩
      iapply (run0_first c Set.univ (grid0.coords t) _ (hsR0_0 t) _ (hsR0_1 t) _ (hsR0_2 t) scMR0 (Memref.isWhole_whole _)
        ((hfirst0 t).mpr h0) hl (xblkR0 V c t) (yblkR0 V c t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    have hf : ¬first0 (grid0.coords t) := fun h => h0 ((hfirst0 t).mp h)
    rw [accR0_next V c t h0]
    rw [PhiR0_castSucc V c t, PhiR0_pos V c _ _ hz]
    by_cases h1 : t.val % 16 = 15
    · have hl : last0 (grid0.coords t) := (hlast0 t).mpr h1
      rw [show (datR0 V c).leavesExact 2 t = owns (c : Thread nD τ) (msR0_2 t) fullShare ((datR0 V c).after 2 t) from by
        unfold Dat.leavesExact; rw [liveR0_2 t hl], afterR0_2, accR0_next V c t h0]
      iintro ⟨⟨⟨HS, Hrest⟩, Hg⟩, Ho, ⟨%d0, H0⟩, ⟨%d1, H1⟩, ⟨%d2, H2⟩⟩
      iapply (run0_last c Set.univ (grid0.coords t) _ (hsR0_0 t) _ (hsR0_1 t) _ (hsR0_2 t) scMR0 (Memref.isWhole_whole _)
        hf hl (xblkR0 V c t) (yblkR0 V c t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · have hl : ¬last0 (grid0.coords t) := fun h => h1 ((hlast0 t).mp h)
      rw [Dat.leavesExact_idle (datR0 V c) 2 t (idleR0_2 t hl) (noFlushR0_2 t hl)]
      iintro ⟨⟨⟨HS, Hrest⟩, Hg⟩, Ho, ⟨%d0, H0⟩, ⟨%d1, H1⟩, ⟨%d2, H2⟩⟩
      iapply (run0_mid c Set.univ (grid0.coords t) _ (hsR0_0 t) _ (hsR0_1 t) _ (hsR0_2 t) scMR0 (Memref.isWhole_whole _)
        hf hl (xblkR0 V c t) (yblkR0 V c t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligationR0 (c : Dev nD) : BodyObligation (datR0 (F := F) V c) (defs₀ (F := F)) Variants.none () Set.univ := fun t => by
  rw [bigSep_W0, bigSep_W0]
  exact sound_bodyR0 V c t

/-- What the region hands the kernel is the invariant before the first point, -/
theorem hinR0 (c : Dev nD) : Pipeline.ΦA spec0 c ⊢ (datR0 V c).Φ 0 := by
  rw [show (datR0 V c).Φ 0 = PhiR0 V c 0 (Nat.zero_le _) from rfl, PhiR0_zero V c 0 _ rfl]
  try exact Idealize.SL.BI.Entails.refl _

/-- and the invariant after the last point gives it back, the scratch's contents forgotten. -/
theorem houtR0 (c : Dev nD) : (datR0 V c).Φ (Fin.last cfg0.N) ⊢ Pipeline.ΦA spec0 c := by
  rw [show (datR0 V c).Φ (Fin.last cfg0.N) = PhiR0 V c (Fin.last cfg0.N).val (Nat.le_of_lt_succ (Fin.last cfg0.N).isLt) from rfl,
    PhiR0_pos V c _ _ (by rw [Fin.val_last]; have : cfg0.N = 128 := N_0; omega), PhiAR0_eq]
  iintro ⟨⟨HS, Hrest⟩, Hg⟩
  isplitl [HS Hrest]
  · isplitl [HS]
    · iexists _; iexact HS
    iexact Hrest
  iexact Hg

end Region

end Cert.Kernel.Hand

end
-- ==== Proof.K.Body1.lean ====
/-
  The kernel body of the second pallas_call at one grid point, run symbolically in its three cases (first point of a
  grid row, a middle point, the last point of a row): what it leaves in its scratch buffer and in the output block,
  as the skeleton's payloads of the two input blocks and of what the scratch held.
-/
import proofs.«179447_j18872086299275_1_alg».proof.Proof.Gen.Kernel.Launch
import proofs.«179447_j18872086299275_1_alg».proof.Proof.Gen.Kernel.Skeleton
import proofs.«179447_j18872086299275_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body of pallas_call 0 at one grid point

The body keeps a running minimum in its scratch buffer: at the first point of a row of the grid (second coordinate 0) it
resets the scratch to +∞, at every point it replaces the scratch by the elementwise minimum of the scratch and this
tile's row minima, and at the last point of the row (second coordinate 15) it copies the scratch into the output block.
Three cases by the second grid coordinate; in each the body runs from the four buffers held whole to the same buffers,
the scratch at the new running minimum (the payload `k1_pay2` of the two input blocks and of what the scratch held —
the reset value `k1_pay1` at a first point), the output block untouched except at a last point. -/

/-- The first `scf.if`'s condition (the second grid coordinate is 0), as the kernel computes it. -/
abbrev first1 (i : grid1.Coords) : Prop := (Scalar.cmpi .ne (Scalar.extui (Scalar.cmpi .eq (BitVec.ofNat 32 (i 1).val) 0#32)) 0#32) = 1#1
/-- The second's (the second grid coordinate is 15). -/
abbrev last1 (i : grid1.Coords) : Prop := k1_cond2 i = 1#1

private theorem zeros2 : (![0, 0] : Fin 2 → ℕ) = fun _ => 0 := by funext a; fin_cases a <;> rfl

set_option maxHeartbeats 2000000 in
/-- A middle point: neither reset nor copy-out. -/
theorem run1_mid (c : Dev nD) (E : Set ℕ) (i : grid1.Coords)
    (arg2 : Memref sig .tc .vmem S1024x128 .f32) (harg2 : arg2.IsWhole) (arg3 : Memref sig .tc .vmem S512x128 .f32) (harg3 : arg3.IsWhole)
    (arg4 : Memref sig .tc .vmem S1024x1 .f32) (harg4 : arg4.IsWhole) (arg5 : Memref sig .tc .vmem S1024x1 .f32) (harg5 : arg5.IsWhole)
    (hc0 : ¬first1 i) (hc1 : ¬last1 i)
    (x : Vec F S1024x128 .f32) (y : Vec F S512x128 .f32) (o s : Vec F S1024x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare s
        ∗ (iprop(owns (c : Thread nD τ) arg2 fullShare x ∗ owns (c : Thread nD τ) arg3 fullShare y ∗ owns (c : Thread nD τ) arg4 fullShare o
            ∗ owns (c : Thread nD τ) arg5 fullShare (k1_pay2 x y s)) -∗ K ⟨⟩))
      ⊢ wp frame (wpE (defs₀ (F := F)) Variants.none c none) E (cc1__min_dist_kernel i arg2 harg2 arg3 harg3 arg4 harg4 arg5 harg5) K := by
  simp only [cc1__min_dist_kernel_eq_skeleton]; unfold cc1__min_dist_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  iexists _; isplitr
  swap; · iexact H5
  ipureintro
  rw [View.read_writes_eq_canon _ _ _ (fun y => ⟨_, List.mem_singleton_self _, View.mem_set_unit_zero zeros2 Facts₀.inb_S1024x1_S1024x1_0_0 y⟩),
    View.canon_unit_zero zeros2]
  simp only [View.readAt_eq_ld, harg2.read_unread, harg3.read_unread, harg5.read_unread,
    View.ld_unit_zero (S := S1024x128) zeros2, View.ld_unit_zero (S := S512x128) zeros2, View.ld_unit_zero (S := S1024x1) zeros2]

set_option maxHeartbeats 2000000 in
/-- A first point: the scratch, whatever it held, is reset and then updated. -/
theorem run1_first (c : Dev nD) (E : Set ℕ) (i : grid1.Coords)
    (arg2 : Memref sig .tc .vmem S1024x128 .f32) (harg2 : arg2.IsWhole) (arg3 : Memref sig .tc .vmem S512x128 .f32) (harg3 : arg3.IsWhole)
    (arg4 : Memref sig .tc .vmem S1024x1 .f32) (harg4 : arg4.IsWhole) (arg5 : Memref sig .tc .vmem S1024x1 .f32) (harg5 : arg5.IsWhole)
    (hc0 : first1 i) (hc1 : ¬last1 i)
    (x : Vec F S1024x128 .f32) (y : Vec F S512x128 .f32) (o s : Vec F S1024x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare s
        ∗ (iprop(owns (c : Thread nD τ) arg2 fullShare x ∗ owns (c : Thread nD τ) arg3 fullShare y ∗ owns (c : Thread nD τ) arg4 fullShare o
            ∗ owns (c : Thread nD τ) arg5 fullShare (k1_pay2 x y (k1_pay1 (F := F)))) -∗ K ⟨⟩))
      ⊢ wp frame (wpE (defs₀ (F := F)) Variants.none c none) E (cc1__min_dist_kernel i arg2 harg2 arg3 harg3 arg4 harg4 arg5 harg5) K := by
  simp only [cc1__min_dist_kernel_eq_skeleton]; unfold cc1__min_dist_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  iexists _; isplitr
  swap; · iexact H5
  ipureintro
  rw [View.read_writes_eq_canon _ _ _ (fun y => ⟨_, List.mem_cons_self .., View.mem_set_unit_zero zeros2 Facts₀.inb_S1024x1_S1024x1_0_0 y⟩),
    View.canon_cons_unit_zero zeros2]
  sl_unfold_words
  simp only [View.readAt_eq_ld, harg2.read_unread, harg3.read_unread, harg5.read_unread,
    View.ld_unit_zero (S := S1024x128) zeros2, View.ld_unit_zero (S := S512x128) zeros2, View.ld_unit_zero (S := S1024x1) zeros2,
    View.readCov_unit_zero (S := S1024x1) _ zeros2]

set_option maxHeartbeats 4000000 in
/-- A last point: the scratch is updated and copied into the output block. -/
theorem run1_last (c : Dev nD) (E : Set ℕ) (i : grid1.Coords)
    (arg2 : Memref sig .tc .vmem S1024x128 .f32) (harg2 : arg2.IsWhole) (arg3 : Memref sig .tc .vmem S512x128 .f32) (harg3 : arg3.IsWhole)
    (arg4 : Memref sig .tc .vmem S1024x1 .f32) (harg4 : arg4.IsWhole) (arg5 : Memref sig .tc .vmem S1024x1 .f32) (harg5 : arg5.IsWhole)
    (hc0 : ¬first1 i) (hc1 : last1 i)
    (x : Vec F S1024x128 .f32) (y : Vec F S512x128 .f32) (o s : Vec F S1024x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare s
        ∗ (iprop(owns (c : Thread nD τ) arg2 fullShare x ∗ owns (c : Thread nD τ) arg3 fullShare y ∗ owns (c : Thread nD τ) arg4 fullShare (k1_pay2 x y s)
            ∗ owns (c : Thread nD τ) arg5 fullShare (k1_pay2 x y s)) -∗ K ⟨⟩))
      ⊢ wp frame (wpE (defs₀ (F := F)) Variants.none c none) E (cc1__min_dist_kernel i arg2 harg2 arg3 harg3 arg4 harg4 arg5 harg5) K := by
  simp only [cc1__min_dist_kernel_eq_skeleton]; unfold cc1__min_dist_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr
    · ipureintro; exact hf2
    · iexact H2
  isplitl [H3]
  · iexists _; isplitr
    · ipureintro; exact hf3
    · iexact H3
  isplitl [H4]
  · iexists _; isplitr
    swap; · iexact H4
    ipureintro
    rw [View.read_writes_eq_canon _ _ _ (fun y => ⟨_, List.mem_singleton_self _, View.mem_set_unit_zero zeros2 Facts₀.inb_S1024x1_S1024x1_0_0 y⟩),
      View.canon_unit_zero zeros2]
    sl_unfold_words
    simp only [View.readAt_eq_ld, harg2.read_unread, harg3.read_unread, harg5.read_unread,
      View.ld_unit_zero (S := S1024x128) zeros2, View.ld_unit_zero (S := S512x128) zeros2, View.ld_unit_zero (S := S1024x1) zeros2,
      View.readCov_unit_zero (S := S1024x1) _ zeros2]
  iexists _; isplitr
  swap; · iexact H5
  ipureintro
  sl_unfold_words
  rw [View.read_writes_eq_canon _ _ _ (fun y => ⟨_, List.mem_singleton_self _, View.mem_set_unit_zero zeros2 Facts₀.inb_S1024x1_S1024x1_0_0 y⟩),
    View.canon_unit_zero zeros2]
  simp only [View.readAt_eq_ld, harg2.read_unread, harg3.read_unread, harg5.read_unread,
    View.ld_unit_zero (S := S1024x128) zeros2, View.ld_unit_zero (S := S512x128) zeros2, View.ld_unit_zero (S := S1024x1) zeros2]

end Cert.Kernel.Hand

end
-- ==== Proof.K.Dat1.lean ====
/-
  The second pallas_call's proof data: the windows' blocks, the running minimum its scratch buffer carries from grid point
  to grid point (reset at the first point of each grid row, written to the output block at the last), the region's
  invariant, and the body obligation at every point, from the three runs of the body.
-/
import proofs.«179447_j18872086299275_1_alg».proof.Proof.Gen.Kernel.Launch
import proofs.«179447_j18872086299275_1_alg».proof.Proof.Gen.Kernel.Skeleton
import proofs.«179447_j18872086299275_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Pipeline.Value
import Idealize.ShloMosaic.Lib.Tactic
import proofs.«179447_j18872086299275_1_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Pallas_call 0: the blocks, the running minimum point by point, the proof data

Everything here is stated at a PARAMETER `V`: the TensorCore's buffer contents when the region is entered. -/

section Region
variable (V : (c : Dev nD) → (b : Ref sig .tc) → Buf (Elt F) ((c : Thread nD τ).loc b))

/-- Window `w`'s block at point `t`, read off its array as the region finds it. -/
def iblkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (between two
    fetches the block index has not moved), for any proof data over these arrays whose body leaves the block in place. -/
theorem beforeR1_0_of {c : Dev nD} (dat : Dat τ (Elt F) Unit ℕ (UR sig nD τ) ℕ cfg1 c) (hA : dat.A 0 = V c (Pipeline.arrRef spec1 0))
    (hafter : ∀ t, dat.after 0 t = iblkR1 V c 0 t) (t : Fin cfg1.N) (d) : dat.before 0 t d = iblkR1 V c 0 t :=
  (dat.before_in_eq_fetched 0 rfl (fun _ => rfl) (fun _ _ _ => rfl) (fun t => by rw [hafter]; unfold Dat.blockOf iblkR1; rw [hA]; try rfl) t d).trans
    (by unfold Dat.fetched Dat.blockOf iblkR1; rw [hA]; try rfl)
theorem beforeR1_1_of {c : Dev nD} (dat : Dat τ (Elt F) Unit ℕ (UR sig nD τ) ℕ cfg1 c) (hA : dat.A 1 = V c (Pipeline.arrRef spec1 1))
    (hafter : ∀ t, dat.after 1 t = iblkR1 V c 1 t) (t : Fin cfg1.N) (d) : dat.before 1 t d = iblkR1 V c 1 t :=
  (dat.before_in_eq_fetched 1 rfl (fun _ => rfl) (fun _ _ _ => rfl) (fun t => by rw [hafter]; unfold Dat.blockOf iblkR1; rw [hA]; try rfl) t d).trans
    (by unfold Dat.fetched Dat.blockOf iblkR1; rw [hA]; try rfl)

/-- The two input blocks at a point, at their literal types. -/
abbrev xblkR1 (c : Dev nD) (t : Fin cfg1.N) : Vec F S1024x128 .f32 := iblkR1 V c 0 t
abbrev yblkR1 (c : Dev nD) (t : Fin cfg1.N) : Vec F S512x128 .f32 := iblkR1 V c 1 t

/-- THE RUNNING MINIMUM after the body at position `n`: at the first point of a grid row (`n` a multiple of 16) the
    update of the reset value, at any other the update of what the point before left. -/
def accR1 (c : Dev nD) : (n : ℕ) → n < cfg1.N → Vec F S1024x1 .f32
  | 0, hn => k1_pay2 (xblkR1 V c ⟨0, hn⟩) (yblkR1 V c ⟨0, hn⟩) (k1_pay1 (F := F))
  | n + 1, hn =>
    if (n + 1) % 16 = 0 then k1_pay2 (xblkR1 V c ⟨n + 1, hn⟩) (yblkR1 V c ⟨n + 1, hn⟩) (k1_pay1 (F := F))
    else k1_pay2 (xblkR1 V c ⟨n + 1, hn⟩) (yblkR1 V c ⟨n + 1, hn⟩) (accR1 c n (Nat.lt_of_succ_lt hn))

theorem accR1_first (c : Dev nD) (t : Fin cfg1.N) (h : t.val % 16 = 0) :
    accR1 V c t.val t.isLt = k1_pay2 (xblkR1 V c t) (yblkR1 V c t) (k1_pay1 (F := F)) := by
  obtain ⟨n, hn⟩ := t
  cases n with
  | zero => rfl
  | succ n => exact if_pos h

theorem accR1_next (c : Dev nD) (t : Fin cfg1.N) (h : ¬t.val % 16 = 0) :
    accR1 V c t.val t.isLt = k1_pay2 (xblkR1 V c t) (yblkR1 V c t)
      (accR1 V c (t.val - 1) (Nat.lt_of_le_of_lt (Nat.sub_le _ _) t.isLt)) := by
  obtain ⟨n, hn⟩ := t
  cases n with
  | zero => exact absurd (Nat.zero_mod _) h
  | succ n => exact if_neg h

/-- The kernel's scratch operand. -/
abbrev scMR1 : Memref sig .tc .vmem S1024x1 .f32 := Memref.whole cc1_scratch0

/-- The other scoped buffers (the other call's staging buffers and scratch), each at some contents. -/
abbrev restR1 (c : Dev nD) : sProp 𝕄 :=
  Pipeline.scopedRestBut (Ix := Unit) (Name := ℕ) (U := UR sig nD τ) (Lvl := ℕ) (Val := Elt F) spec1 c [cc1_scratch0]

/-- What the region's invariant `ΦA` is made of: the scratch at some contents, the other scoped buffers, the generator register. -/
theorem PhiAR1_eq (c : Dev nD) :
    (Pipeline.ΦA spec1 c : sProp 𝕄)
      = iprop(((∃ d, owns (c : Thread nD τ) scMR1 fullShare d) ∗ restR1 c) ∗ (∃ r, prngReg c r)) := by
  unfold Pipeline.ΦA
  rw [Pipeline.scopedRest_split_of_list spec1 c [cc1_scratch0] (by decide) (by decide)]
  simp only [scMR1, owns_whole, bigSepL]
  try rfl

/-- THE INVARIANT before position `n`: before the first point the region's own (the scratch at anything); afterwards the
    scratch at the running minimum the point before left, the other scoped buffers and the generator register as they were. -/
def PhiR1 (c : Dev nD) : (n : ℕ) → n ≤ cfg1.N → sProp 𝕄
  | 0, _ => Pipeline.ΦA spec1 c
  | n + 1, hn => iprop((owns (c : Thread nD τ) scMR1 fullShare (accR1 V c n hn) ∗ restR1 c) ∗ (∃ r, prngReg c r))

theorem PhiR1_zero (c : Dev nD) (n : ℕ) (h : n ≤ cfg1.N) (hz : n = 0) : PhiR1 V c n h = Pipeline.ΦA spec1 c := by
  subst hz; rfl
theorem PhiR1_succ (c : Dev nD) (n : ℕ) (hn : n < cfg1.N) :
    PhiR1 V c (n + 1) hn = iprop((owns (c : Thread nD τ) scMR1 fullShare (accR1 V c n hn) ∗ restR1 c) ∗ (∃ r, prngReg c r)) := rfl
theorem PhiR1_pos (c : Dev nD) (n : ℕ) (h : n ≤ cfg1.N) (hz : n ≠ 0) :
    PhiR1 V c n h = iprop((owns (c : Thread nD τ) scMR1 fullShare (accR1 V c (n - 1) (by omega)) ∗ restR1 c) ∗ (∃ r, prngReg c r)) := by
  cases n with
  | zero => exact absurd rfl hz
  | succ n => rfl

/-- THE PROOF DATA of the pipeline on core `c`: the arrays as the region finds them; after the body each input's buffer at
    its block and the output's at the running minimum (read only where the block is written back: the last point of
    a grid row); the invariant above; nothing owed; full shares. -/
def datR1 (c : Dev nD) : Dat τ (Elt F) Unit ℕ (UR sig nD τ) ℕ cfg1 c where
  A w := V c (Pipeline.arrRef spec1 w)
  after w t := match w with
    | ⟨0, _⟩ => iblkR1 V c 0 t
    | ⟨1, _⟩ => iblkR1 V c 1 t
    | ⟨2, _⟩ => accR1 V c t.val t.isLt
  Φ t := PhiR1 V c t.val (Nat.le_of_lt_succ t.isLt)
  q _ := fullShare
  owed _ := 0

theorem AR1_eq (c : Dev nD) (w : Fin cfg1.W) : (datR1 V c).A w = V c (Pipeline.arrRef spec1 w) := by
  dsimp only [datR1]
theorem PhiR1_castSucc (c : Dev nD) (t : Fin cfg1.N) :
    (datR1 V c).Φ t.castSucc = PhiR1 V c t.val (Nat.le_of_lt t.isLt) := by
  dsimp only [datR1]; simp only [Fin.coe_castSucc]
theorem afterR1_0 (c : Dev nD) (t : Fin cfg1.N) : (datR1 V c).after 0 t = iblkR1 V c 0 t := by dsimp only [datR1]
theorem afterR1_1 (c : Dev nD) (t : Fin cfg1.N) : (datR1 V c).after 1 t = iblkR1 V c 1 t := by dsimp only [datR1]
theorem afterR1_2 (c : Dev nD) (t : Fin cfg1.N) : (datR1 V c).after 2 t = accR1 V c t.val t.isLt := by dsimp only [datR1]

theorem beforeR1_0 (c : Dev nD) (t : Fin cfg1.N) (d) : (datR1 V c).before 0 t d = iblkR1 V c 0 t :=
  beforeR1_0_of V (datR1 V c) (AR1_eq V c 0) (afterR1_0 V c) t d
theorem beforeR1_1 (c : Dev nD) (t : Fin cfg1.N) (d) : (datR1 V c).before 1 t d = iblkR1 V c 1 t :=
  beforeR1_1_of V (datR1 V c) (AR1_eq V c 1) (afterR1_1 V c) t d

/-! ### The branch conditions and the output window's idle points, decided over the grid -/

theorem hfirst1 : ∀ t : Fin cfg1.N, first1 (grid1.coords t) ↔ t.val % 16 = 0 :=
  (by decide +kernel : ∀ t : Fin grid1.N, first1 (grid1.coords t) ↔ t.val % 16 = 0)
theorem hlast1 : ∀ t : Fin cfg1.N, last1 (grid1.coords t) ↔ t.val % 16 = 15 :=
  (by decide +kernel : ∀ t : Fin grid1.N, last1 (grid1.coords t) ↔ t.val % 16 = 15)
theorem liveR1_0 : ∀ t : Fin cfg1.N, cfg1.idle 0 (grid1.coords t) = false := by decide +kernel
theorem liveR1_1 : ∀ t : Fin cfg1.N, cfg1.idle 1 (grid1.coords t) = false := by decide +kernel
theorem idleR1_2 : ∀ t : Fin cfg1.N, ¬last1 (grid1.coords t) → cfg1.idle 2 (grid1.coords t) = true := by decide +kernel
theorem noFlushR1_2 : ∀ t : Fin cfg1.N, ¬last1 (grid1.coords t) → (cfg1.win 2).flush t = false := by decide +kernel
theorem liveR1_2 : ∀ t : Fin cfg1.N, last1 (grid1.coords t) → cfg1.idle 2 (grid1.coords t) = false := by decide +kernel

/-- Each window's current staging memref at point `t`, as the pipeline passes it, and its wholeness. -/
abbrev msR1_0 (t : Fin cfg1.N) : Memref sig .tc .vmem S1024x128 .f32 := win1_0.stage (cfg1.slots t 0)
abbrev hsR1_0 (t : Fin cfg1.N) : (msR1_0 t).IsWhole := hstage1_0 ((cfg1.slots t 0).cast nbuf1_0)
abbrev msR1_1 (t : Fin cfg1.N) : Memref sig .tc .vmem S512x128 .f32 := win1_1.stage (cfg1.slots t 1)
abbrev hsR1_1 (t : Fin cfg1.N) : (msR1_1 t).IsWhole := hstage1_1 ((cfg1.slots t 1).cast nbuf1_1)
abbrev msR1_2 (t : Fin cfg1.N) : Memref sig .tc .vmem S1024x1 .f32 := win1_2.stage (cfg1.slots t 2)
abbrev hsR1_2 (t : Fin cfg1.N) : (msR1_2 t).IsWhole := hstage1_2 ((cfg1.slots t 2).cast nbuf1_2)

/-! ### The body obligation -/

def bodyPreR1 (c : Dev nD) (t : Fin cfg1.N) : sProp 𝕄 :=
  iprop((datR1 V c).Φ t.castSucc ∗ (datR1 V c).owesAt () t.castSucc
    ∗ (∃ d, owns (c : Thread nD τ) (msR1_0 t) fullShare ((datR1 V c).before 0 t d))
    ∗ (∃ d, owns (c : Thread nD τ) (msR1_1 t) fullShare ((datR1 V c).before 1 t d))
    ∗ (∃ d, owns (c : Thread nD τ) (msR1_2 t) fullShare ((datR1 V c).before 2 t d)))

def bodyPostR1 (c : Dev nD) (t : Fin cfg1.N) : sProp 𝕄 :=
  iprop((datR1 V c).Φ t.succ ∗ (datR1 V c).owesAt () t.succ
    ∗ (datR1 V c).leavesExact 0 t
    ∗ (datR1 V c).leavesExact 1 t
    ∗ (datR1 V c).leavesExact 2 t)

set_option maxHeartbeats 4000000 in
/-- The body at any point, by the case the point is in: the inputs' buffers hold their blocks; the invariant hands the
    scratch over at what the point before left (at anything before the first point) and takes it back at this point's
    running minimum; the output's buffer is handed back as found except at a last point, where it holds that minimum. -/
theorem sound_bodyR1 (c : Dev nD) (t : Fin cfg1.N) :
    bodyPreR1 V c t ⊢ wp frame (wpE (defs₀ (F := F)) Variants.none c none) Set.univ (bodyAt1 t) (fun _ => bodyPostR1 V c t) := by
  unfold bodyPreR1 bodyPostR1 bodyAt1
  simp only [beforeR1_0, beforeR1_1]
  rw [show (datR1 V c).owesAt () t.succ = (datR1 V c).owesAt () t.castSucc from rfl]
  rw [show (datR1 V c).Φ t.succ = PhiR1 V c (t.val + 1) t.isLt from rfl, PhiR1_succ]
  rw [show (datR1 V c).leavesExact 0 t = owns (c : Thread nD τ) (msR1_0 t) fullShare ((datR1 V c).after 0 t) from by
    unfold Dat.leavesExact; rw [liveR1_0 t], afterR1_0]
  rw [show (datR1 V c).leavesExact 1 t = owns (c : Thread nD τ) (msR1_1 t) fullShare ((datR1 V c).after 1 t) from by
    unfold Dat.leavesExact; rw [liveR1_1 t], afterR1_1]
  have hN : t.val < 128 := lt_of_lt_of_eq t.isLt (show cfg1.N = 128 from N_1)
  by_cases h0 : t.val % 16 = 0
  · have hl : ¬last1 (grid1.coords t) := fun h => by have := (hlast1 t).mp h; omega
    rw [Dat.leavesExact_idle (datR1 V c) 2 t (idleR1_2 t hl) (noFlushR1_2 t hl)]
    rw [accR1_first V c t h0]
    by_cases hz : t.val = 0
    · rw [PhiR1_castSucc V c t, PhiR1_zero V c _ _ hz, PhiAR1_eq]
      iintro ⟨⟨⟨⟨%s, HS⟩, Hrest⟩, Hg⟩, Ho, ⟨%d0, H0⟩, ⟨%d1, H1⟩, ⟨%d2, H2⟩⟩
      iapply (run1_first c Set.univ (grid1.coords t) _ (hsR1_0 t) _ (hsR1_1 t) _ (hsR1_2 t) scMR1 (Memref.isWhole_whole _)
        ((hfirst1 t).mpr h0) hl (xblkR1 V c t) (yblkR1 V c t) _ s _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiR1_castSucc V c t, PhiR1_pos V c _ _ hz]
      iintro ⟨⟨⟨HS, Hrest⟩, Hg⟩, Ho, ⟨%d0, H0⟩, ⟨%d1, H1⟩, ⟨%d2, H2⟩⟩
      iapply (run1_first c Set.univ (grid1.coords t) _ (hsR1_0 t) _ (hsR1_1 t) _ (hsR1_2 t) scMR1 (Memref.isWhole_whole _)
        ((hfirst1 t).mpr h0) hl (xblkR1 V c t) (yblkR1 V c t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    have hf : ¬first1 (grid1.coords t) := fun h => h0 ((hfirst1 t).mp h)
    rw [accR1_next V c t h0]
    rw [PhiR1_castSucc V c t, PhiR1_pos V c _ _ hz]
    by_cases h1 : t.val % 16 = 15
    · have hl : last1 (grid1.coords t) := (hlast1 t).mpr h1
      rw [show (datR1 V c).leavesExact 2 t = owns (c : Thread nD τ) (msR1_2 t) fullShare ((datR1 V c).after 2 t) from by
        unfold Dat.leavesExact; rw [liveR1_2 t hl], afterR1_2, accR1_next V c t h0]
      iintro ⟨⟨⟨HS, Hrest⟩, Hg⟩, Ho, ⟨%d0, H0⟩, ⟨%d1, H1⟩, ⟨%d2, H2⟩⟩
      iapply (run1_last c Set.univ (grid1.coords t) _ (hsR1_0 t) _ (hsR1_1 t) _ (hsR1_2 t) scMR1 (Memref.isWhole_whole _)
        hf hl (xblkR1 V c t) (yblkR1 V c t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · have hl : ¬last1 (grid1.coords t) := fun h => h1 ((hlast1 t).mp h)
      rw [Dat.leavesExact_idle (datR1 V c) 2 t (idleR1_2 t hl) (noFlushR1_2 t hl)]
      iintro ⟨⟨⟨HS, Hrest⟩, Hg⟩, Ho, ⟨%d0, H0⟩, ⟨%d1, H1⟩, ⟨%d2, H2⟩⟩
      iapply (run1_mid c Set.univ (grid1.coords t) _ (hsR1_0 t) _ (hsR1_1 t) _ (hsR1_2 t) scMR1 (Memref.isWhole_whole _)
        hf hl (xblkR1 V c t) (yblkR1 V c t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligationR1 (c : Dev nD) : BodyObligation (datR1 (F := F) V c) (defs₀ (F := F)) Variants.none () Set.univ := fun t => by
  rw [bigSep_W1, bigSep_W1]
  exact sound_bodyR1 V c t

/-- What the region hands the kernel is the invariant before the first point, -/
theorem hinR1 (c : Dev nD) : Pipeline.ΦA spec1 c ⊢ (datR1 V c).Φ 0 := by
  rw [show (datR1 V c).Φ 0 = PhiR1 V c 0 (Nat.zero_le _) from rfl, PhiR1_zero V c 0 _ rfl]
  try exact Idealize.SL.BI.Entails.refl _

/-- and the invariant after the last point gives it back, the scratch's contents forgotten. -/
theorem houtR1 (c : Dev nD) : (datR1 V c).Φ (Fin.last cfg1.N) ⊢ Pipeline.ΦA spec1 c := by
  rw [show (datR1 V c).Φ (Fin.last cfg1.N) = PhiR1 V c (Fin.last cfg1.N).val (Nat.le_of_lt_succ (Fin.last cfg1.N).isLt) from rfl,
    PhiR1_pos V c _ _ (by rw [Fin.val_last]; have : cfg1.N = 128 := N_1; omega), PhiAR1_eq]
  iintro ⟨⟨HS, Hrest⟩, Hg⟩
  isplitl [HS Hrest]
  · isplitl [HS]
    · iexists _; iexact HS
    iexact Hrest
  iexact Hg

end Region

end Cert.Kernel.Hand

end
-- ==== Proof.K.Run.lean ====
/-
  THE RUN of @main: two kernel regions, each followed by a stretch of host operations. The buffer contents at each
  boundary are a fold from the launch memory — a region leaves its arrays at what its write-backs leave, a host stretch
  at what its operations compute —; each region is entered from the unscoped buffers at the boundary's contents and left
  at the next boundary's; the launch theorem for a program of several regions then gives: every weakly fair execution
  terminates, nothing faulting, and every unscoped buffer ends at the last boundary's contents. The two argument arrays
  are never written, so they end as launched.
-/
import proofs.«179447_j18872086299275_1_alg».proof.Proof.Gen.Kernel.Launch
import proofs.«179447_j18872086299275_1_alg».proof.Proof.Gen.Kernel.Skeleton
import proofs.«179447_j18872086299275_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Pipeline.Value
import Idealize.ShloMosaic.Lib.Tactic
import proofs.«179447_j18872086299275_1_alg».proof.Proof.K.Dat0
import proofs.«179447_j18872086299275_1_alg».proof.Proof.K.Dat1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: the first region's entry. -/
abbrev W0 : Dev nD → Valuation τ sig (Elt F) := fun c b => m (c, b)
abbrev V0r : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (datR0 (V0r m) c).arrAt w cfg0.N
theorem W1_arr (c : Dev nD) (w : Fin cfg0.W) :
    W1 m c (Proc.devRef .tc (Pipeline.arrRef spec0 w)) = (datR0 (V0r m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1r : (c : Dev nD) → (b : Ref sig .tc) → Buf (Elt F) ((c : Thread nD τ).loc b) := fun c b => W1 m c b
theorem hF0 (c : Dev nD) (w : Fin cfg0.W) : (datR0 (V0r m) c).arrAt w cfg0.N = V1r m c (Pipeline.arrRef spec0 w) :=
  (W1_arr m c w).symm
theorem hrest0 (c : Dev nD) : ∀ b, b ∉ Finset.univ.image (Pipeline.arrRef spec0) → V1r m c b = V0r m c b :=
  fun b hb => W1_of_ne m c b fun w e => hb (Finset.mem_image.mpr ⟨w, Finset.mem_univ _, e⟩)

/-- After the first host stretch: the second region's entry. -/
abbrev W2 : Dev nD → Valuation τ sig (Elt F) := fun c => StableHlo.after hostOps1 (W1 m c)
abbrev V2r : (c : Dev nD) → (b : Ref sig .tc) → Buf (Elt F) ((c : Thread nD τ).loc b) := fun c b => W2 m c b
/-- After the second region. -/
def W3 (c : Dev nD) : Valuation τ sig (Elt F) :=
  Pipeline.withArrays spec1 c (W2 m c) fun w => (datR1 (V2r m) c).arrAt w cfg1.N
theorem W3_arr (c : Dev nD) (w : Fin cfg1.W) :
    W3 m c (Proc.devRef .tc (Pipeline.arrRef spec1 w)) = (datR1 (V2r m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3r : (c : Dev nD) → (b : Ref sig .tc) → Buf (Elt F) ((c : Thread nD τ).loc b) := fun c b => W3 m c b
theorem hF1 (c : Dev nD) (w : Fin cfg1.W) : (datR1 (V2r m) c).arrAt w cfg1.N = V3r m c (Pipeline.arrRef spec1 w) :=
  (W3_arr m c w).symm
theorem hrest1 (c : Dev nD) : ∀ b, b ∉ Finset.univ.image (Pipeline.arrRef spec1) → V3r m c b = V2r m c b :=
  fun b hb => W3_of_ne m c b fun w e => hb (Finset.mem_image.mpr ⟨w, Finset.mem_univ _, e⟩)
/-- After the second host stretch: the end. -/
abbrev W4 : Dev nD → Valuation τ sig (Elt F) := fun c => StableHlo.after hostOps2 (W3 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => datR0 (V0r m) c
  | ⟨1, _⟩ => fun c => datR1 (V2r m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

/-- The invariant after the last point, given back as the scoped rest and the generator register. -/
theorem houtR0' (V : (c : Dev nD) → (b : Ref sig .tc) → Buf (Elt F) ((c : Thread nD τ).loc b)) (c : Dev nD) :
    (datR0 V c).Φ (Fin.last cfg0.N) ⊢ (iprop(Pipeline.scopedRest (Ix := Unit) (Name := ℕ) (U := UR sig nD τ) (Lvl := ℕ) (Val := Elt F) spec0 c ∗ ∃ r, prngReg c r) : sProp 𝕄) := by
  have h := houtR0 V c; unfold Pipeline.ΦA at h; exact h
theorem houtR1' (V : (c : Dev nD) → (b : Ref sig .tc) → Buf (Elt F) ((c : Thread nD τ).loc b)) (c : Dev nD) :
    (datR1 V c).Φ (Fin.last cfg1.N) ⊢ (iprop(Pipeline.scopedRest (Ix := Unit) (Name := ℕ) (U := UR sig nD τ) (Lvl := ℕ) (Val := Elt F) spec1 c ∗ ∃ r, prngReg c r) : sProp 𝕄) := by
  have h := houtR1 V c; unfold Pipeline.ΦA at h; exact h

set_option backward.isDefEq.respectTransparency.types false in
/-- The first region: entered from every unscoped buffer at the launch contents, left at `W1`. Its arrays are split out
    of the unscoped buffers and put back at the exit contents; the generator register and the scoped rest make the
    kernel's invariant before the first point, and the invariant after the last gives them back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligationR0 (V0r m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last (Pipeline.pin (pcfgs (F := F)) adm 0).N) = (datR0 (V0r m) c).Φ (Fin.last cfg0.N) from rfl]
    iintro H
    ihave H' := (houtR0' (V0r m) c) $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0r m c) (V1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region, likewise: entered at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligationR1 (V2r m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last (Pipeline.pin (pcfgs (F := F)) adm 1).N) = (datR1 (V2r m) c).Φ (Fin.last cfg1.N) from rfl]
    iintro H
    ihave H' := (houtR1' (V2r m) c) $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2r m c) (V3r m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh' (W1 m)),
    .region (reg1 m),
    .host (hseg hostOps2 hostOps2_sub hostOps2_fresh' (W3 m)) ]
theorem main_run (c : Dev nD) : main (F := F) c = Pipeline.Seg.run (segs m) := (main_chain c).trans (by chain_rfl)

set_option backward.isDefEq.respectTransparency.types false in
/-- At the compiled mesh, from any memory with zero counters: every weakly fair execution of @main terminates, nothing
    faulting, and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => show (iprop(StableHlo.held (c : Thread nD τ) (Pipeline.ucRefs τ sig) (W4 m c) ∗ R c) : sProp 𝕄)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The arguments end as launched -/

theorem after_keeps (ops : List (HloOp τ sig (Elt F))) (W : Valuation τ sig (Elt F)) (b : Ref sig .tc)
    (h : ∀ op ∈ ops, Proc.devRef .tc b ∉ op.writes) : StableHlo.after ops W (Proc.devRef .tc b) = W (Proc.devRef .tc b) :=
  StableHlo.after_of_forall_not_mem (b := Proc.devRef .tc b) _ _ h

theorem ops1_keeps (b : Ref sig .tc) (hb : b ≠ main_v1) : ∀ op ∈ (hostOps1 : List (HloOp τ sig (Elt F))), Proc.devRef .tc b ∉ op.writes := by
  refine List.forall_iff_forall_mem.mp ?_
  simp only [hostOps1, List.Forall, StableHlo.nullary_writes, StableHlo.unary_writes, StableHlo.binary_writes, StableHlo.reshape_writes, Finset.mem_singleton]
  exact StableHlo.devRef_ne_of_ne hb

theorem ops2_keeps (b : Ref sig .tc) (hb : b ∉ ([main_v3, main_cst, main_v4, main_cst_0, main_v5, main_v6, main_cst_1, main_v7] : List (Ref sig .tc))) :
    ∀ op ∈ (hostOps2 : List (HloOp τ sig (Elt F))), Proc.devRef .tc b ∉ op.writes := by
  refine List.forall_iff_forall_mem.mp ?_
  simp only [List.mem_cons, List.mem_nil_iff, or_false, not_or] at hb
  simp only [hostOps2, List.Forall, StableHlo.nullary_writes, StableHlo.unary_writes, StableHlo.binary_writes, StableHlo.reshape_writes, Finset.mem_singleton]
  exact ⟨StableHlo.devRef_ne_of_ne hb.1, StableHlo.devRef_ne_of_ne hb.2.1, StableHlo.devRef_ne_of_ne hb.2.2.1, StableHlo.devRef_ne_of_ne hb.2.2.2.1,
    StableHlo.devRef_ne_of_ne hb.2.2.2.2.1, StableHlo.devRef_ne_of_ne hb.2.2.2.2.2.1, StableHlo.devRef_ne_of_ne hb.2.2.2.2.2.2.1, StableHlo.devRef_ne_of_ne hb.2.2.2.2.2.2.2⟩

/-- An argument array is an input window's array in both regions and no host operation writes it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := after_keeps _ _ main_arg0 (ops2_keeps main_arg0 (by decide))
    _ = W2 m c (Proc.devRef .tc main_arg0) := (W3_arr m c 1).trans (((datR1 (V2r m) c).arrAt_in 1 rfl _).trans (AR1_eq (V2r m) c 1))
    _ = W1 m c (Proc.devRef .tc main_arg0) := after_keeps _ _ main_arg0 (ops1_keeps main_arg0 (by decide))
    _ = W0 m c (Proc.devRef .tc main_arg0) := (W1_arr m c 0).trans (((datR0 (V0r m) c).arrAt_in 0 rfl _).trans (AR0_eq (V0r m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := after_keeps _ _ main_arg1 (ops2_keeps main_arg1 (by decide))
    _ = W2 m c (Proc.devRef .tc main_arg1) := (W3_arr m c 0).trans (((datR1 (V2r m) c).arrAt_in 0 rfl _).trans (AR1_eq (V2r m) c 0))
    _ = W1 m c (Proc.devRef .tc main_arg1) := after_keeps _ _ main_arg1 (ops1_keeps main_arg1 (by decide))
    _ = W0 m c (Proc.devRef .tc main_arg1) := (W1_arr m c 1).trans (((datR0 (V0r m) c).arrAt_in 1 rfl _).trans (AR0_eq (V0r m) c 1))
    _ = m ((c : Thread nD τ).loc main_arg1) := rfl

/-- THE FRAME: every weakly fair execution terminates, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c), (h c _ (mem_uc main_arg1 (by decide))).trans (W4_main_arg1 m c)⟩)
    (run_all m ρ)

end Cert.Kernel.Hand

end
-- ==== Proof.KI.Body0.lean ====
/-
  The kernel body of the first pallas_call at one grid point, run symbolically in its three cases (first point of a
  grid row, a middle point, the last point of a row): what it leaves in its scratch buffer and in the output block,
  as the skeleton's payloads of the two input blocks and of what the scratch held.
-/
import proofs.«179447_j18872086299275_1_alg».proof.Proof.Gen.KernelIdeal.Launch
import proofs.«179447_j18872086299275_1_alg».proof.Proof.Gen.KernelIdeal.Skeleton
import proofs.«179447_j18872086299275_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body of pallas_call 0 at one grid point

The body keeps a running minimum in its scratch buffer: at the first point of a row of the grid (second coordinate 0) it
resets the scratch to +∞, at every point it replaces the scratch by the elementwise minimum of the scratch and this
tile's row minima, and at the last point of the row (second coordinate 15) it copies the scratch into the output block.
Three cases by the second grid coordinate; in each the body runs from the four buffers held whole to the same buffers,
the scratch at the new running minimum (the payload `k0_pay2` of the two input blocks and of what the scratch held —
the reset value `k0_pay1` at a first point), the output block untouched except at a last point. -/

/-- The first `scf.if`'s condition (the second grid coordinate is 0), as the kernel computes it. -/
abbrev first0 (i : grid0.Coords) : Prop := (Scalar.cmpi .ne (Scalar.extui (Scalar.cmpi .eq (BitVec.ofNat 32 (i 1).val) 0#32)) 0#32) = 1#1
/-- The second's (the second grid coordinate is 15). -/
abbrev last0 (i : grid0.Coords) : Prop := k0_cond2 i = 1#1

private theorem zeros2 : (![0, 0] : Fin 2 → ℕ) = fun _ => 0 := by funext a; fin_cases a <;> rfl

set_option maxHeartbeats 2000000 in
/-- A middle point: neither reset nor copy-out. -/
theorem run0_mid (c : Dev nD) (E : Set ℕ) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .f32) (harg4 : arg4.IsWhole) (arg5 : Memref sig .tc .vmem S1024x1 .f32) (harg5 : arg5.IsWhole)
    (hc0 : ¬first0 i) (hc1 : ¬last0 i)
    (x : Vec F S1024x128 .f32) (y : Vec F S512x128 .f32) (o s : Vec F S1024x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare s
        ∗ (iprop(owns (c : Thread nD τ) arg2 fullShare x ∗ owns (c : Thread nD τ) arg3 fullShare y ∗ owns (c : Thread nD τ) arg4 fullShare o
            ∗ owns (c : Thread nD τ) arg5 fullShare (k0_pay2 x y s)) -∗ K ⟨⟩))
      ⊢ wp frame (wpE (defs₀ (F := F)) Variants.none c none) E (cc0__min_dist_kernel i arg2 harg2 arg3 harg3 arg4 harg4 arg5 harg5) K := by
  simp only [cc0__min_dist_kernel_eq_skeleton]; unfold cc0__min_dist_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  iexists _; isplitr
  swap; · iexact H5
  ipureintro
  rw [View.read_writes_eq_canon _ _ _ (fun y => ⟨_, List.mem_singleton_self _, View.mem_set_unit_zero zeros2 Facts₀.inb_S1024x1_S1024x1_0_0 y⟩),
    View.canon_unit_zero zeros2]
  simp only [View.readAt_eq_ld, harg2.read_unread, harg3.read_unread, harg5.read_unread,
    View.ld_unit_zero (S := S1024x128) zeros2, View.ld_unit_zero (S := S512x128) zeros2, View.ld_unit_zero (S := S1024x1) zeros2]

set_option maxHeartbeats 2000000 in
/-- A first point: the scratch, whatever it held, is reset and then updated. -/
theorem run0_first (c : Dev nD) (E : Set ℕ) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .f32) (harg4 : arg4.IsWhole) (arg5 : Memref sig .tc .vmem S1024x1 .f32) (harg5 : arg5.IsWhole)
    (hc0 : first0 i) (hc1 : ¬last0 i)
    (x : Vec F S1024x128 .f32) (y : Vec F S512x128 .f32) (o s : Vec F S1024x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare s
        ∗ (iprop(owns (c : Thread nD τ) arg2 fullShare x ∗ owns (c : Thread nD τ) arg3 fullShare y ∗ owns (c : Thread nD τ) arg4 fullShare o
            ∗ owns (c : Thread nD τ) arg5 fullShare (k0_pay2 x y (k0_pay1 (F := F)))) -∗ K ⟨⟩))
      ⊢ wp frame (wpE (defs₀ (F := F)) Variants.none c none) E (cc0__min_dist_kernel i arg2 harg2 arg3 harg3 arg4 harg4 arg5 harg5) K := by
  simp only [cc0__min_dist_kernel_eq_skeleton]; unfold cc0__min_dist_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  iexists _; isplitr
  swap; · iexact H5
  ipureintro
  rw [View.read_writes_eq_canon _ _ _ (fun y => ⟨_, List.mem_cons_self .., View.mem_set_unit_zero zeros2 Facts₀.inb_S1024x1_S1024x1_0_0 y⟩),
    View.canon_cons_unit_zero zeros2]
  sl_unfold_words
  simp only [View.readAt_eq_ld, harg2.read_unread, harg3.read_unread, harg5.read_unread,
    View.ld_unit_zero (S := S1024x128) zeros2, View.ld_unit_zero (S := S512x128) zeros2, View.ld_unit_zero (S := S1024x1) zeros2,
    View.readCov_unit_zero (S := S1024x1) _ zeros2]

set_option maxHeartbeats 4000000 in
/-- A last point: the scratch is updated and copied into the output block. -/
theorem run0_last (c : Dev nD) (E : Set ℕ) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .f32) (harg4 : arg4.IsWhole) (arg5 : Memref sig .tc .vmem S1024x1 .f32) (harg5 : arg5.IsWhole)
    (hc0 : ¬first0 i) (hc1 : last0 i)
    (x : Vec F S1024x128 .f32) (y : Vec F S512x128 .f32) (o s : Vec F S1024x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare s
        ∗ (iprop(owns (c : Thread nD τ) arg2 fullShare x ∗ owns (c : Thread nD τ) arg3 fullShare y ∗ owns (c : Thread nD τ) arg4 fullShare (k0_pay2 x y s)
            ∗ owns (c : Thread nD τ) arg5 fullShare (k0_pay2 x y s)) -∗ K ⟨⟩))
      ⊢ wp frame (wpE (defs₀ (F := F)) Variants.none c none) E (cc0__min_dist_kernel i arg2 harg2 arg3 harg3 arg4 harg4 arg5 harg5) K := by
  simp only [cc0__min_dist_kernel_eq_skeleton]; unfold cc0__min_dist_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr
    · ipureintro; exact hf2
    · iexact H2
  isplitl [H3]
  · iexists _; isplitr
    · ipureintro; exact hf3
    · iexact H3
  isplitl [H4]
  · iexists _; isplitr
    swap; · iexact H4
    ipureintro
    rw [View.read_writes_eq_canon _ _ _ (fun y => ⟨_, List.mem_singleton_self _, View.mem_set_unit_zero zeros2 Facts₀.inb_S1024x1_S1024x1_0_0 y⟩),
      View.canon_unit_zero zeros2]
    sl_unfold_words
    simp only [View.readAt_eq_ld, harg2.read_unread, harg3.read_unread, harg5.read_unread,
      View.ld_unit_zero (S := S1024x128) zeros2, View.ld_unit_zero (S := S512x128) zeros2, View.ld_unit_zero (S := S1024x1) zeros2,
      View.readCov_unit_zero (S := S1024x1) _ zeros2]
  iexists _; isplitr
  swap; · iexact H5
  ipureintro
  sl_unfold_words
  rw [View.read_writes_eq_canon _ _ _ (fun y => ⟨_, List.mem_singleton_self _, View.mem_set_unit_zero zeros2 Facts₀.inb_S1024x1_S1024x1_0_0 y⟩),
    View.canon_unit_zero zeros2]
  simp only [View.readAt_eq_ld, harg2.read_unread, harg3.read_unread, harg5.read_unread,
    View.ld_unit_zero (S := S1024x128) zeros2, View.ld_unit_zero (S := S512x128) zeros2, View.ld_unit_zero (S := S1024x1) zeros2]

end Cert.KernelIdeal.Hand

end
-- ==== Proof.KI.Dat0.lean ====
/-
  The first pallas_call's proof data: the windows' blocks, the running minimum its scratch buffer carries from grid point
  to grid point (reset at the first point of each grid row, written to the output block at the last), the region's
  invariant, and the body obligation at every point, from the three runs of the body.
-/
import proofs.«179447_j18872086299275_1_alg».proof.Proof.Gen.KernelIdeal.Launch
import proofs.«179447_j18872086299275_1_alg».proof.Proof.Gen.KernelIdeal.Skeleton
import proofs.«179447_j18872086299275_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Pipeline.Value
import Idealize.ShloMosaic.Lib.Tactic
import proofs.«179447_j18872086299275_1_alg».proof.Proof.KI.Body0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Pallas_call 0: the blocks, the running minimum point by point, the proof data

Everything here is stated at a PARAMETER `V`: the TensorCore's buffer contents when the region is entered. -/

section Region
variable (V : (c : Dev nD) → (b : Ref sig .tc) → Buf (Elt F) ((c : Thread nD τ).loc b))

/-- Window `w`'s block at point `t`, read off its array as the region finds it. -/
def iblkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (between two
    fetches the block index has not moved), for any proof data over these arrays whose body leaves the block in place. -/
theorem beforeR0_0_of {c : Dev nD} (dat : Dat τ (Elt F) Unit ℕ (UR sig nD τ) ℕ cfg0 c) (hA : dat.A 0 = V c (Pipeline.arrRef spec0 0))
    (hafter : ∀ t, dat.after 0 t = iblkR0 V c 0 t) (t : Fin cfg0.N) (d) : dat.before 0 t d = iblkR0 V c 0 t :=
  (dat.before_in_eq_fetched 0 rfl (fun _ => rfl) (fun _ _ _ => rfl) (fun t => by rw [hafter]; unfold Dat.blockOf iblkR0; rw [hA]; try rfl) t d).trans
    (by unfold Dat.fetched Dat.blockOf iblkR0; rw [hA]; try rfl)
theorem beforeR0_1_of {c : Dev nD} (dat : Dat τ (Elt F) Unit ℕ (UR sig nD τ) ℕ cfg0 c) (hA : dat.A 1 = V c (Pipeline.arrRef spec0 1))
    (hafter : ∀ t, dat.after 1 t = iblkR0 V c 1 t) (t : Fin cfg0.N) (d) : dat.before 1 t d = iblkR0 V c 1 t :=
  (dat.before_in_eq_fetched 1 rfl (fun _ => rfl) (fun _ _ _ => rfl) (fun t => by rw [hafter]; unfold Dat.blockOf iblkR0; rw [hA]; try rfl) t d).trans
    (by unfold Dat.fetched Dat.blockOf iblkR0; rw [hA]; try rfl)

/-- The two input blocks at a point, at their literal types. -/
abbrev xblkR0 (c : Dev nD) (t : Fin cfg0.N) : Vec F S1024x128 .f32 := iblkR0 V c 0 t
abbrev yblkR0 (c : Dev nD) (t : Fin cfg0.N) : Vec F S512x128 .f32 := iblkR0 V c 1 t

/-- THE RUNNING MINIMUM after the body at position `n`: at the first point of a grid row (`n` a multiple of 16) the
    update of the reset value, at any other the update of what the point before left. -/
def accR0 (c : Dev nD) : (n : ℕ) → n < cfg0.N → Vec F S1024x1 .f32
  | 0, hn => k0_pay2 (xblkR0 V c ⟨0, hn⟩) (yblkR0 V c ⟨0, hn⟩) (k0_pay1 (F := F))
  | n + 1, hn =>
    if (n + 1) % 16 = 0 then k0_pay2 (xblkR0 V c ⟨n + 1, hn⟩) (yblkR0 V c ⟨n + 1, hn⟩) (k0_pay1 (F := F))
    else k0_pay2 (xblkR0 V c ⟨n + 1, hn⟩) (yblkR0 V c ⟨n + 1, hn⟩) (accR0 c n (Nat.lt_of_succ_lt hn))

theorem accR0_first (c : Dev nD) (t : Fin cfg0.N) (h : t.val % 16 = 0) :
    accR0 V c t.val t.isLt = k0_pay2 (xblkR0 V c t) (yblkR0 V c t) (k0_pay1 (F := F)) := by
  obtain ⟨n, hn⟩ := t
  cases n with
  | zero => rfl
  | succ n => exact if_pos h

theorem accR0_next (c : Dev nD) (t : Fin cfg0.N) (h : ¬t.val % 16 = 0) :
    accR0 V c t.val t.isLt = k0_pay2 (xblkR0 V c t) (yblkR0 V c t)
      (accR0 V c (t.val - 1) (Nat.lt_of_le_of_lt (Nat.sub_le _ _) t.isLt)) := by
  obtain ⟨n, hn⟩ := t
  cases n with
  | zero => exact absurd (Nat.zero_mod _) h
  | succ n => exact if_neg h

/-- The kernel's scratch operand. -/
abbrev scMR0 : Memref sig .tc .vmem S1024x1 .f32 := Memref.whole cc0_scratch0

/-- The other scoped buffers (the other call's staging buffers and scratch), each at some contents. -/
abbrev restR0 (c : Dev nD) : sProp 𝕄 :=
  Pipeline.scopedRestBut (Ix := Unit) (Name := ℕ) (U := UR sig nD τ) (Lvl := ℕ) (Val := Elt F) spec0 c [cc0_scratch0]

/-- What the region's invariant `ΦA` is made of: the scratch at some contents, the other scoped buffers, the generator register. -/
theorem PhiAR0_eq (c : Dev nD) :
    (Pipeline.ΦA spec0 c : sProp 𝕄)
      = iprop(((∃ d, owns (c : Thread nD τ) scMR0 fullShare d) ∗ restR0 c) ∗ (∃ r, prngReg c r)) := by
  unfold Pipeline.ΦA
  rw [Pipeline.scopedRest_split_of_list spec0 c [cc0_scratch0] (by decide) (by decide)]
  simp only [scMR0, owns_whole, bigSepL]
  try rfl

/-- THE INVARIANT before position `n`: before the first point the region's own (the scratch at anything); afterwards the
    scratch at the running minimum the point before left, the other scoped buffers and the generator register as they were. -/
def PhiR0 (c : Dev nD) : (n : ℕ) → n ≤ cfg0.N → sProp 𝕄
  | 0, _ => Pipeline.ΦA spec0 c
  | n + 1, hn => iprop((owns (c : Thread nD τ) scMR0 fullShare (accR0 V c n hn) ∗ restR0 c) ∗ (∃ r, prngReg c r))

theorem PhiR0_zero (c : Dev nD) (n : ℕ) (h : n ≤ cfg0.N) (hz : n = 0) : PhiR0 V c n h = Pipeline.ΦA spec0 c := by
  subst hz; rfl
theorem PhiR0_succ (c : Dev nD) (n : ℕ) (hn : n < cfg0.N) :
    PhiR0 V c (n + 1) hn = iprop((owns (c : Thread nD τ) scMR0 fullShare (accR0 V c n hn) ∗ restR0 c) ∗ (∃ r, prngReg c r)) := rfl
theorem PhiR0_pos (c : Dev nD) (n : ℕ) (h : n ≤ cfg0.N) (hz : n ≠ 0) :
    PhiR0 V c n h = iprop((owns (c : Thread nD τ) scMR0 fullShare (accR0 V c (n - 1) (by omega)) ∗ restR0 c) ∗ (∃ r, prngReg c r)) := by
  cases n with
  | zero => exact absurd rfl hz
  | succ n => rfl

/-- THE PROOF DATA of the pipeline on core `c`: the arrays as the region finds them; after the body each input's buffer at
    its block and the output's at the running minimum (read only where the block is written back: the last point of
    a grid row); the invariant above; nothing owed; full shares. -/
def datR0 (c : Dev nD) : Dat τ (Elt F) Unit ℕ (UR sig nD τ) ℕ cfg0 c where
  A w := V c (Pipeline.arrRef spec0 w)
  after w t := match w with
    | ⟨0, _⟩ => iblkR0 V c 0 t
    | ⟨1, _⟩ => iblkR0 V c 1 t
    | ⟨2, _⟩ => accR0 V c t.val t.isLt
  Φ t := PhiR0 V c t.val (Nat.le_of_lt_succ t.isLt)
  q _ := fullShare
  owed _ := 0

theorem AR0_eq (c : Dev nD) (w : Fin cfg0.W) : (datR0 V c).A w = V c (Pipeline.arrRef spec0 w) := by
  dsimp only [datR0]
theorem PhiR0_castSucc (c : Dev nD) (t : Fin cfg0.N) :
    (datR0 V c).Φ t.castSucc = PhiR0 V c t.val (Nat.le_of_lt t.isLt) := by
  dsimp only [datR0]; simp only [Fin.coe_castSucc]
theorem afterR0_0 (c : Dev nD) (t : Fin cfg0.N) : (datR0 V c).after 0 t = iblkR0 V c 0 t := by dsimp only [datR0]
theorem afterR0_1 (c : Dev nD) (t : Fin cfg0.N) : (datR0 V c).after 1 t = iblkR0 V c 1 t := by dsimp only [datR0]
theorem afterR0_2 (c : Dev nD) (t : Fin cfg0.N) : (datR0 V c).after 2 t = accR0 V c t.val t.isLt := by dsimp only [datR0]

theorem beforeR0_0 (c : Dev nD) (t : Fin cfg0.N) (d) : (datR0 V c).before 0 t d = iblkR0 V c 0 t :=
  beforeR0_0_of V (datR0 V c) (AR0_eq V c 0) (afterR0_0 V c) t d
theorem beforeR0_1 (c : Dev nD) (t : Fin cfg0.N) (d) : (datR0 V c).before 1 t d = iblkR0 V c 1 t :=
  beforeR0_1_of V (datR0 V c) (AR0_eq V c 1) (afterR0_1 V c) t d

/-! ### The branch conditions and the output window's idle points, decided over the grid -/

theorem hfirst0 : ∀ t : Fin cfg0.N, first0 (grid0.coords t) ↔ t.val % 16 = 0 :=
  (by decide +kernel : ∀ t : Fin grid0.N, first0 (grid0.coords t) ↔ t.val % 16 = 0)
theorem hlast0 : ∀ t : Fin cfg0.N, last0 (grid0.coords t) ↔ t.val % 16 = 15 :=
  (by decide +kernel : ∀ t : Fin grid0.N, last0 (grid0.coords t) ↔ t.val % 16 = 15)
theorem liveR0_0 : ∀ t : Fin cfg0.N, cfg0.idle 0 (grid0.coords t) = false := by decide +kernel
theorem liveR0_1 : ∀ t : Fin cfg0.N, cfg0.idle 1 (grid0.coords t) = false := by decide +kernel
theorem idleR0_2 : ∀ t : Fin cfg0.N, ¬last0 (grid0.coords t) → cfg0.idle 2 (grid0.coords t) = true := by decide +kernel
theorem noFlushR0_2 : ∀ t : Fin cfg0.N, ¬last0 (grid0.coords t) → (cfg0.win 2).flush t = false := by decide +kernel
theorem liveR0_2 : ∀ t : Fin cfg0.N, last0 (grid0.coords t) → cfg0.idle 2 (grid0.coords t) = false := by decide +kernel

/-- Each window's current staging memref at point `t`, as the pipeline passes it, and its wholeness. -/
abbrev msR0_0 (t : Fin cfg0.N) : Memref sig .tc .vmem S1024x128 .f32 := win0_0.stage (cfg0.slots t 0)
abbrev hsR0_0 (t : Fin cfg0.N) : (msR0_0 t).IsWhole := hstage0_0 ((cfg0.slots t 0).cast nbuf0_0)
abbrev msR0_1 (t : Fin cfg0.N) : Memref sig .tc .vmem S512x128 .f32 := win0_1.stage (cfg0.slots t 1)
abbrev hsR0_1 (t : Fin cfg0.N) : (msR0_1 t).IsWhole := hstage0_1 ((cfg0.slots t 1).cast nbuf0_1)
abbrev msR0_2 (t : Fin cfg0.N) : Memref sig .tc .vmem S1024x1 .f32 := win0_2.stage (cfg0.slots t 2)
abbrev hsR0_2 (t : Fin cfg0.N) : (msR0_2 t).IsWhole := hstage0_2 ((cfg0.slots t 2).cast nbuf0_2)

/-! ### The body obligation -/

def bodyPreR0 (c : Dev nD) (t : Fin cfg0.N) : sProp 𝕄 :=
  iprop((datR0 V c).Φ t.castSucc ∗ (datR0 V c).owesAt () t.castSucc
    ∗ (∃ d, owns (c : Thread nD τ) (msR0_0 t) fullShare ((datR0 V c).before 0 t d))
    ∗ (∃ d, owns (c : Thread nD τ) (msR0_1 t) fullShare ((datR0 V c).before 1 t d))
    ∗ (∃ d, owns (c : Thread nD τ) (msR0_2 t) fullShare ((datR0 V c).before 2 t d)))

def bodyPostR0 (c : Dev nD) (t : Fin cfg0.N) : sProp 𝕄 :=
  iprop((datR0 V c).Φ t.succ ∗ (datR0 V c).owesAt () t.succ
    ∗ (datR0 V c).leavesExact 0 t
    ∗ (datR0 V c).leavesExact 1 t
    ∗ (datR0 V c).leavesExact 2 t)

set_option maxHeartbeats 4000000 in
/-- The body at any point, by the case the point is in: the inputs' buffers hold their blocks; the invariant hands the
    scratch over at what the point before left (at anything before the first point) and takes it back at this point's
    running minimum; the output's buffer is handed back as found except at a last point, where it holds that minimum. -/
theorem sound_bodyR0 (c : Dev nD) (t : Fin cfg0.N) :
    bodyPreR0 V c t ⊢ wp frame (wpE (defs₀ (F := F)) Variants.none c none) Set.univ (bodyAt0 t) (fun _ => bodyPostR0 V c t) := by
  unfold bodyPreR0 bodyPostR0 bodyAt0
  simp only [beforeR0_0, beforeR0_1]
  rw [show (datR0 V c).owesAt () t.succ = (datR0 V c).owesAt () t.castSucc from rfl]
  rw [show (datR0 V c).Φ t.succ = PhiR0 V c (t.val + 1) t.isLt from rfl, PhiR0_succ]
  rw [show (datR0 V c).leavesExact 0 t = owns (c : Thread nD τ) (msR0_0 t) fullShare ((datR0 V c).after 0 t) from by
    unfold Dat.leavesExact; rw [liveR0_0 t], afterR0_0]
  rw [show (datR0 V c).leavesExact 1 t = owns (c : Thread nD τ) (msR0_1 t) fullShare ((datR0 V c).after 1 t) from by
    unfold Dat.leavesExact; rw [liveR0_1 t], afterR0_1]
  have hN : t.val < 128 := lt_of_lt_of_eq t.isLt (show cfg0.N = 128 from N_0)
  by_cases h0 : t.val % 16 = 0
  · have hl : ¬last0 (grid0.coords t) := fun h => by have := (hlast0 t).mp h; omega
    rw [Dat.leavesExact_idle (datR0 V c) 2 t (idleR0_2 t hl) (noFlushR0_2 t hl)]
    rw [accR0_first V c t h0]
    by_cases hz : t.val = 0
    · rw [PhiR0_castSucc V c t, PhiR0_zero V c _ _ hz, PhiAR0_eq]
      iintro ⟨⟨⟨⟨%s, HS⟩, Hrest⟩, Hg⟩, Ho, ⟨%d0, H0⟩, ⟨%d1, H1⟩, ⟨%d2, H2⟩⟩
      iapply (run0_first c Set.univ (grid0.coords t) _ (hsR0_0 t) _ (hsR0_1 t) _ (hsR0_2 t) scMR0 (Memref.isWhole_whole _)
        ((hfirst0 t).mpr h0) hl (xblkR0 V c t) (yblkR0 V c t) _ s _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiR0_castSucc V c t, PhiR0_pos V c _ _ hz]
      iintro ⟨⟨⟨HS, Hrest⟩, Hg⟩, Ho, ⟨%d0, H0⟩, ⟨%d1, H1⟩, ⟨%d2, H2⟩⟩
      iapply (run0_first c Set.univ (grid0.coords t) _ (hsR0_0 t) _ (hsR0_1 t) _ (hsR0_2 t) scMR0 (Memref.isWhole_whole _)
        ((hfirst0 t).mpr h0) hl (xblkR0 V c t) (yblkR0 V c t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    have hf : ¬first0 (grid0.coords t) := fun h => h0 ((hfirst0 t).mp h)
    rw [accR0_next V c t h0]
    rw [PhiR0_castSucc V c t, PhiR0_pos V c _ _ hz]
    by_cases h1 : t.val % 16 = 15
    · have hl : last0 (grid0.coords t) := (hlast0 t).mpr h1
      rw [show (datR0 V c).leavesExact 2 t = owns (c : Thread nD τ) (msR0_2 t) fullShare ((datR0 V c).after 2 t) from by
        unfold Dat.leavesExact; rw [liveR0_2 t hl], afterR0_2, accR0_next V c t h0]
      iintro ⟨⟨⟨HS, Hrest⟩, Hg⟩, Ho, ⟨%d0, H0⟩, ⟨%d1, H1⟩, ⟨%d2, H2⟩⟩
      iapply (run0_last c Set.univ (grid0.coords t) _ (hsR0_0 t) _ (hsR0_1 t) _ (hsR0_2 t) scMR0 (Memref.isWhole_whole _)
        hf hl (xblkR0 V c t) (yblkR0 V c t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · have hl : ¬last0 (grid0.coords t) := fun h => h1 ((hlast0 t).mp h)
      rw [Dat.leavesExact_idle (datR0 V c) 2 t (idleR0_2 t hl) (noFlushR0_2 t hl)]
      iintro ⟨⟨⟨HS, Hrest⟩, Hg⟩, Ho, ⟨%d0, H0⟩, ⟨%d1, H1⟩, ⟨%d2, H2⟩⟩
      iapply (run0_mid c Set.univ (grid0.coords t) _ (hsR0_0 t) _ (hsR0_1 t) _ (hsR0_2 t) scMR0 (Memref.isWhole_whole _)
        hf hl (xblkR0 V c t) (yblkR0 V c t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligationR0 (c : Dev nD) : BodyObligation (datR0 (F := F) V c) (defs₀ (F := F)) Variants.none () Set.univ := fun t => by
  rw [bigSep_W0, bigSep_W0]
  exact sound_bodyR0 V c t

/-- What the region hands the kernel is the invariant before the first point, -/
theorem hinR0 (c : Dev nD) : Pipeline.ΦA spec0 c ⊢ (datR0 V c).Φ 0 := by
  rw [show (datR0 V c).Φ 0 = PhiR0 V c 0 (Nat.zero_le _) from rfl, PhiR0_zero V c 0 _ rfl]
  try exact Idealize.SL.BI.Entails.refl _

/-- and the invariant after the last point gives it back, the scratch's contents forgotten. -/
theorem houtR0 (c : Dev nD) : (datR0 V c).Φ (Fin.last cfg0.N) ⊢ Pipeline.ΦA spec0 c := by
  rw [show (datR0 V c).Φ (Fin.last cfg0.N) = PhiR0 V c (Fin.last cfg0.N).val (Nat.le_of_lt_succ (Fin.last cfg0.N).isLt) from rfl,
    PhiR0_pos V c _ _ (by rw [Fin.val_last]; have : cfg0.N = 128 := N_0; omega), PhiAR0_eq]
  iintro ⟨⟨HS, Hrest⟩, Hg⟩
  isplitl [HS Hrest]
  · isplitl [HS]
    · iexists _; iexact HS
    iexact Hrest
  iexact Hg

end Region

end Cert.KernelIdeal.Hand

end
-- ==== Proof.KI.Body1.lean ====
/-
  The kernel body of the second pallas_call at one grid point, run symbolically in its three cases (first point of a
  grid row, a middle point, the last point of a row): what it leaves in its scratch buffer and in the output block,
  as the skeleton's payloads of the two input blocks and of what the scratch held.
-/
import proofs.«179447_j18872086299275_1_alg».proof.Proof.Gen.KernelIdeal.Launch
import proofs.«179447_j18872086299275_1_alg».proof.Proof.Gen.KernelIdeal.Skeleton
import proofs.«179447_j18872086299275_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body of pallas_call 0 at one grid point

The body keeps a running minimum in its scratch buffer: at the first point of a row of the grid (second coordinate 0) it
resets the scratch to +∞, at every point it replaces the scratch by the elementwise minimum of the scratch and this
tile's row minima, and at the last point of the row (second coordinate 15) it copies the scratch into the output block.
Three cases by the second grid coordinate; in each the body runs from the four buffers held whole to the same buffers,
the scratch at the new running minimum (the payload `k1_pay2` of the two input blocks and of what the scratch held —
the reset value `k1_pay1` at a first point), the output block untouched except at a last point. -/

/-- The first `scf.if`'s condition (the second grid coordinate is 0), as the kernel computes it. -/
abbrev first1 (i : grid1.Coords) : Prop := (Scalar.cmpi .ne (Scalar.extui (Scalar.cmpi .eq (BitVec.ofNat 32 (i 1).val) 0#32)) 0#32) = 1#1
/-- The second's (the second grid coordinate is 15). -/
abbrev last1 (i : grid1.Coords) : Prop := k1_cond2 i = 1#1

private theorem zeros2 : (![0, 0] : Fin 2 → ℕ) = fun _ => 0 := by funext a; fin_cases a <;> rfl

set_option maxHeartbeats 2000000 in
/-- A middle point: neither reset nor copy-out. -/
theorem run1_mid (c : Dev nD) (E : Set ℕ) (i : grid1.Coords)
    (arg2 : Memref sig .tc .vmem S1024x128 .f32) (harg2 : arg2.IsWhole) (arg3 : Memref sig .tc .vmem S512x128 .f32) (harg3 : arg3.IsWhole)
    (arg4 : Memref sig .tc .vmem S1024x1 .f32) (harg4 : arg4.IsWhole) (arg5 : Memref sig .tc .vmem S1024x1 .f32) (harg5 : arg5.IsWhole)
    (hc0 : ¬first1 i) (hc1 : ¬last1 i)
    (x : Vec F S1024x128 .f32) (y : Vec F S512x128 .f32) (o s : Vec F S1024x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare s
        ∗ (iprop(owns (c : Thread nD τ) arg2 fullShare x ∗ owns (c : Thread nD τ) arg3 fullShare y ∗ owns (c : Thread nD τ) arg4 fullShare o
            ∗ owns (c : Thread nD τ) arg5 fullShare (k1_pay2 x y s)) -∗ K ⟨⟩))
      ⊢ wp frame (wpE (defs₀ (F := F)) Variants.none c none) E (cc1__min_dist_kernel i arg2 harg2 arg3 harg3 arg4 harg4 arg5 harg5) K := by
  simp only [cc1__min_dist_kernel_eq_skeleton]; unfold cc1__min_dist_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  iexists _; isplitr
  swap; · iexact H5
  ipureintro
  rw [View.read_writes_eq_canon _ _ _ (fun y => ⟨_, List.mem_singleton_self _, View.mem_set_unit_zero zeros2 Facts₀.inb_S1024x1_S1024x1_0_0 y⟩),
    View.canon_unit_zero zeros2]
  simp only [View.readAt_eq_ld, harg2.read_unread, harg3.read_unread, harg5.read_unread,
    View.ld_unit_zero (S := S1024x128) zeros2, View.ld_unit_zero (S := S512x128) zeros2, View.ld_unit_zero (S := S1024x1) zeros2]

set_option maxHeartbeats 2000000 in
/-- A first point: the scratch, whatever it held, is reset and then updated. -/
theorem run1_first (c : Dev nD) (E : Set ℕ) (i : grid1.Coords)
    (arg2 : Memref sig .tc .vmem S1024x128 .f32) (harg2 : arg2.IsWhole) (arg3 : Memref sig .tc .vmem S512x128 .f32) (harg3 : arg3.IsWhole)
    (arg4 : Memref sig .tc .vmem S1024x1 .f32) (harg4 : arg4.IsWhole) (arg5 : Memref sig .tc .vmem S1024x1 .f32) (harg5 : arg5.IsWhole)
    (hc0 : first1 i) (hc1 : ¬last1 i)
    (x : Vec F S1024x128 .f32) (y : Vec F S512x128 .f32) (o s : Vec F S1024x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare s
        ∗ (iprop(owns (c : Thread nD τ) arg2 fullShare x ∗ owns (c : Thread nD τ) arg3 fullShare y ∗ owns (c : Thread nD τ) arg4 fullShare o
            ∗ owns (c : Thread nD τ) arg5 fullShare (k1_pay2 x y (k1_pay1 (F := F)))) -∗ K ⟨⟩))
      ⊢ wp frame (wpE (defs₀ (F := F)) Variants.none c none) E (cc1__min_dist_kernel i arg2 harg2 arg3 harg3 arg4 harg4 arg5 harg5) K := by
  simp only [cc1__min_dist_kernel_eq_skeleton]; unfold cc1__min_dist_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  iexists _; isplitr
  swap; · iexact H5
  ipureintro
  rw [View.read_writes_eq_canon _ _ _ (fun y => ⟨_, List.mem_cons_self .., View.mem_set_unit_zero zeros2 Facts₀.inb_S1024x1_S1024x1_0_0 y⟩),
    View.canon_cons_unit_zero zeros2]
  sl_unfold_words
  simp only [View.readAt_eq_ld, harg2.read_unread, harg3.read_unread, harg5.read_unread,
    View.ld_unit_zero (S := S1024x128) zeros2, View.ld_unit_zero (S := S512x128) zeros2, View.ld_unit_zero (S := S1024x1) zeros2,
    View.readCov_unit_zero (S := S1024x1) _ zeros2]

set_option maxHeartbeats 4000000 in
/-- A last point: the scratch is updated and copied into the output block. -/
theorem run1_last (c : Dev nD) (E : Set ℕ) (i : grid1.Coords)
    (arg2 : Memref sig .tc .vmem S1024x128 .f32) (harg2 : arg2.IsWhole) (arg3 : Memref sig .tc .vmem S512x128 .f32) (harg3 : arg3.IsWhole)
    (arg4 : Memref sig .tc .vmem S1024x1 .f32) (harg4 : arg4.IsWhole) (arg5 : Memref sig .tc .vmem S1024x1 .f32) (harg5 : arg5.IsWhole)
    (hc0 : ¬first1 i) (hc1 : last1 i)
    (x : Vec F S1024x128 .f32) (y : Vec F S512x128 .f32) (o s : Vec F S1024x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare s
        ∗ (iprop(owns (c : Thread nD τ) arg2 fullShare x ∗ owns (c : Thread nD τ) arg3 fullShare y ∗ owns (c : Thread nD τ) arg4 fullShare (k1_pay2 x y s)
            ∗ owns (c : Thread nD τ) arg5 fullShare (k1_pay2 x y s)) -∗ K ⟨⟩))
      ⊢ wp frame (wpE (defs₀ (F := F)) Variants.none c none) E (cc1__min_dist_kernel i arg2 harg2 arg3 harg3 arg4 harg4 arg5 harg5) K := by
  simp only [cc1__min_dist_kernel_eq_skeleton]; unfold cc1__min_dist_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr
    · ipureintro; exact hf2
    · iexact H2
  isplitl [H3]
  · iexists _; isplitr
    · ipureintro; exact hf3
    · iexact H3
  isplitl [H4]
  · iexists _; isplitr
    swap; · iexact H4
    ipureintro
    rw [View.read_writes_eq_canon _ _ _ (fun y => ⟨_, List.mem_singleton_self _, View.mem_set_unit_zero zeros2 Facts₀.inb_S1024x1_S1024x1_0_0 y⟩),
      View.canon_unit_zero zeros2]
    sl_unfold_words
    simp only [View.readAt_eq_ld, harg2.read_unread, harg3.read_unread, harg5.read_unread,
      View.ld_unit_zero (S := S1024x128) zeros2, View.ld_unit_zero (S := S512x128) zeros2, View.ld_unit_zero (S := S1024x1) zeros2,
      View.readCov_unit_zero (S := S1024x1) _ zeros2]
  iexists _; isplitr
  swap; · iexact H5
  ipureintro
  sl_unfold_words
  rw [View.read_writes_eq_canon _ _ _ (fun y => ⟨_, List.mem_singleton_self _, View.mem_set_unit_zero zeros2 Facts₀.inb_S1024x1_S1024x1_0_0 y⟩),
    View.canon_unit_zero zeros2]
  simp only [View.readAt_eq_ld, harg2.read_unread, harg3.read_unread, harg5.read_unread,
    View.ld_unit_zero (S := S1024x128) zeros2, View.ld_unit_zero (S := S512x128) zeros2, View.ld_unit_zero (S := S1024x1) zeros2]

end Cert.KernelIdeal.Hand

end
-- ==== Proof.KI.Dat1.lean ====
/-
  The second pallas_call's proof data: the windows' blocks, the running minimum its scratch buffer carries from grid point
  to grid point (reset at the first point of each grid row, written to the output block at the last), the region's
  invariant, and the body obligation at every point, from the three runs of the body.
-/
import proofs.«179447_j18872086299275_1_alg».proof.Proof.Gen.KernelIdeal.Launch
import proofs.«179447_j18872086299275_1_alg».proof.Proof.Gen.KernelIdeal.Skeleton
import proofs.«179447_j18872086299275_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Pipeline.Value
import Idealize.ShloMosaic.Lib.Tactic
import proofs.«179447_j18872086299275_1_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Pallas_call 0: the blocks, the running minimum point by point, the proof data

Everything here is stated at a PARAMETER `V`: the TensorCore's buffer contents when the region is entered. -/

section Region
variable (V : (c : Dev nD) → (b : Ref sig .tc) → Buf (Elt F) ((c : Thread nD τ).loc b))

/-- Window `w`'s block at point `t`, read off its array as the region finds it. -/
def iblkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (between two
    fetches the block index has not moved), for any proof data over these arrays whose body leaves the block in place. -/
theorem beforeR1_0_of {c : Dev nD} (dat : Dat τ (Elt F) Unit ℕ (UR sig nD τ) ℕ cfg1 c) (hA : dat.A 0 = V c (Pipeline.arrRef spec1 0))
    (hafter : ∀ t, dat.after 0 t = iblkR1 V c 0 t) (t : Fin cfg1.N) (d) : dat.before 0 t d = iblkR1 V c 0 t :=
  (dat.before_in_eq_fetched 0 rfl (fun _ => rfl) (fun _ _ _ => rfl) (fun t => by rw [hafter]; unfold Dat.blockOf iblkR1; rw [hA]; try rfl) t d).trans
    (by unfold Dat.fetched Dat.blockOf iblkR1; rw [hA]; try rfl)
theorem beforeR1_1_of {c : Dev nD} (dat : Dat τ (Elt F) Unit ℕ (UR sig nD τ) ℕ cfg1 c) (hA : dat.A 1 = V c (Pipeline.arrRef spec1 1))
    (hafter : ∀ t, dat.after 1 t = iblkR1 V c 1 t) (t : Fin cfg1.N) (d) : dat.before 1 t d = iblkR1 V c 1 t :=
  (dat.before_in_eq_fetched 1 rfl (fun _ => rfl) (fun _ _ _ => rfl) (fun t => by rw [hafter]; unfold Dat.blockOf iblkR1; rw [hA]; try rfl) t d).trans
    (by unfold Dat.fetched Dat.blockOf iblkR1; rw [hA]; try rfl)

/-- The two input blocks at a point, at their literal types. -/
abbrev xblkR1 (c : Dev nD) (t : Fin cfg1.N) : Vec F S1024x128 .f32 := iblkR1 V c 0 t
abbrev yblkR1 (c : Dev nD) (t : Fin cfg1.N) : Vec F S512x128 .f32 := iblkR1 V c 1 t

/-- THE RUNNING MINIMUM after the body at position `n`: at the first point of a grid row (`n` a multiple of 16) the
    update of the reset value, at any other the update of what the point before left. -/
def accR1 (c : Dev nD) : (n : ℕ) → n < cfg1.N → Vec F S1024x1 .f32
  | 0, hn => k1_pay2 (xblkR1 V c ⟨0, hn⟩) (yblkR1 V c ⟨0, hn⟩) (k1_pay1 (F := F))
  | n + 1, hn =>
    if (n + 1) % 16 = 0 then k1_pay2 (xblkR1 V c ⟨n + 1, hn⟩) (yblkR1 V c ⟨n + 1, hn⟩) (k1_pay1 (F := F))
    else k1_pay2 (xblkR1 V c ⟨n + 1, hn⟩) (yblkR1 V c ⟨n + 1, hn⟩) (accR1 c n (Nat.lt_of_succ_lt hn))

theorem accR1_first (c : Dev nD) (t : Fin cfg1.N) (h : t.val % 16 = 0) :
    accR1 V c t.val t.isLt = k1_pay2 (xblkR1 V c t) (yblkR1 V c t) (k1_pay1 (F := F)) := by
  obtain ⟨n, hn⟩ := t
  cases n with
  | zero => rfl
  | succ n => exact if_pos h

theorem accR1_next (c : Dev nD) (t : Fin cfg1.N) (h : ¬t.val % 16 = 0) :
    accR1 V c t.val t.isLt = k1_pay2 (xblkR1 V c t) (yblkR1 V c t)
      (accR1 V c (t.val - 1) (Nat.lt_of_le_of_lt (Nat.sub_le _ _) t.isLt)) := by
  obtain ⟨n, hn⟩ := t
  cases n with
  | zero => exact absurd (Nat.zero_mod _) h
  | succ n => exact if_neg h

/-- The kernel's scratch operand. -/
abbrev scMR1 : Memref sig .tc .vmem S1024x1 .f32 := Memref.whole cc1_scratch0

/-- The other scoped buffers (the other call's staging buffers and scratch), each at some contents. -/
abbrev restR1 (c : Dev nD) : sProp 𝕄 :=
  Pipeline.scopedRestBut (Ix := Unit) (Name := ℕ) (U := UR sig nD τ) (Lvl := ℕ) (Val := Elt F) spec1 c [cc1_scratch0]

/-- What the region's invariant `ΦA` is made of: the scratch at some contents, the other scoped buffers, the generator register. -/
theorem PhiAR1_eq (c : Dev nD) :
    (Pipeline.ΦA spec1 c : sProp 𝕄)
      = iprop(((∃ d, owns (c : Thread nD τ) scMR1 fullShare d) ∗ restR1 c) ∗ (∃ r, prngReg c r)) := by
  unfold Pipeline.ΦA
  rw [Pipeline.scopedRest_split_of_list spec1 c [cc1_scratch0] (by decide) (by decide)]
  simp only [scMR1, owns_whole, bigSepL]
  try rfl

/-- THE INVARIANT before position `n`: before the first point the region's own (the scratch at anything); afterwards the
    scratch at the running minimum the point before left, the other scoped buffers and the generator register as they were. -/
def PhiR1 (c : Dev nD) : (n : ℕ) → n ≤ cfg1.N → sProp 𝕄
  | 0, _ => Pipeline.ΦA spec1 c
  | n + 1, hn => iprop((owns (c : Thread nD τ) scMR1 fullShare (accR1 V c n hn) ∗ restR1 c) ∗ (∃ r, prngReg c r))

theorem PhiR1_zero (c : Dev nD) (n : ℕ) (h : n ≤ cfg1.N) (hz : n = 0) : PhiR1 V c n h = Pipeline.ΦA spec1 c := by
  subst hz; rfl
theorem PhiR1_succ (c : Dev nD) (n : ℕ) (hn : n < cfg1.N) :
    PhiR1 V c (n + 1) hn = iprop((owns (c : Thread nD τ) scMR1 fullShare (accR1 V c n hn) ∗ restR1 c) ∗ (∃ r, prngReg c r)) := rfl
theorem PhiR1_pos (c : Dev nD) (n : ℕ) (h : n ≤ cfg1.N) (hz : n ≠ 0) :
    PhiR1 V c n h = iprop((owns (c : Thread nD τ) scMR1 fullShare (accR1 V c (n - 1) (by omega)) ∗ restR1 c) ∗ (∃ r, prngReg c r)) := by
  cases n with
  | zero => exact absurd rfl hz
  | succ n => rfl

/-- THE PROOF DATA of the pipeline on core `c`: the arrays as the region finds them; after the body each input's buffer at
    its block and the output's at the running minimum (read only where the block is written back: the last point of
    a grid row); the invariant above; nothing owed; full shares. -/
def datR1 (c : Dev nD) : Dat τ (Elt F) Unit ℕ (UR sig nD τ) ℕ cfg1 c where
  A w := V c (Pipeline.arrRef spec1 w)
  after w t := match w with
    | ⟨0, _⟩ => iblkR1 V c 0 t
    | ⟨1, _⟩ => iblkR1 V c 1 t
    | ⟨2, _⟩ => accR1 V c t.val t.isLt
  Φ t := PhiR1 V c t.val (Nat.le_of_lt_succ t.isLt)
  q _ := fullShare
  owed _ := 0

theorem AR1_eq (c : Dev nD) (w : Fin cfg1.W) : (datR1 V c).A w = V c (Pipeline.arrRef spec1 w) := by
  dsimp only [datR1]
theorem PhiR1_castSucc (c : Dev nD) (t : Fin cfg1.N) :
    (datR1 V c).Φ t.castSucc = PhiR1 V c t.val (Nat.le_of_lt t.isLt) := by
  dsimp only [datR1]; simp only [Fin.coe_castSucc]
theorem afterR1_0 (c : Dev nD) (t : Fin cfg1.N) : (datR1 V c).after 0 t = iblkR1 V c 0 t := by dsimp only [datR1]
theorem afterR1_1 (c : Dev nD) (t : Fin cfg1.N) : (datR1 V c).after 1 t = iblkR1 V c 1 t := by dsimp only [datR1]
theorem afterR1_2 (c : Dev nD) (t : Fin cfg1.N) : (datR1 V c).after 2 t = accR1 V c t.val t.isLt := by dsimp only [datR1]

theorem beforeR1_0 (c : Dev nD) (t : Fin cfg1.N) (d) : (datR1 V c).before 0 t d = iblkR1 V c 0 t :=
  beforeR1_0_of V (datR1 V c) (AR1_eq V c 0) (afterR1_0 V c) t d
theorem beforeR1_1 (c : Dev nD) (t : Fin cfg1.N) (d) : (datR1 V c).before 1 t d = iblkR1 V c 1 t :=
  beforeR1_1_of V (datR1 V c) (AR1_eq V c 1) (afterR1_1 V c) t d

/-! ### The branch conditions and the output window's idle points, decided over the grid -/

theorem hfirst1 : ∀ t : Fin cfg1.N, first1 (grid1.coords t) ↔ t.val % 16 = 0 :=
  (by decide +kernel : ∀ t : Fin grid1.N, first1 (grid1.coords t) ↔ t.val % 16 = 0)
theorem hlast1 : ∀ t : Fin cfg1.N, last1 (grid1.coords t) ↔ t.val % 16 = 15 :=
  (by decide +kernel : ∀ t : Fin grid1.N, last1 (grid1.coords t) ↔ t.val % 16 = 15)
theorem liveR1_0 : ∀ t : Fin cfg1.N, cfg1.idle 0 (grid1.coords t) = false := by decide +kernel
theorem liveR1_1 : ∀ t : Fin cfg1.N, cfg1.idle 1 (grid1.coords t) = false := by decide +kernel
theorem idleR1_2 : ∀ t : Fin cfg1.N, ¬last1 (grid1.coords t) → cfg1.idle 2 (grid1.coords t) = true := by decide +kernel
theorem noFlushR1_2 : ∀ t : Fin cfg1.N, ¬last1 (grid1.coords t) → (cfg1.win 2).flush t = false := by decide +kernel
theorem liveR1_2 : ∀ t : Fin cfg1.N, last1 (grid1.coords t) → cfg1.idle 2 (grid1.coords t) = false := by decide +kernel

/-- Each window's current staging memref at point `t`, as the pipeline passes it, and its wholeness. -/
abbrev msR1_0 (t : Fin cfg1.N) : Memref sig .tc .vmem S1024x128 .f32 := win1_0.stage (cfg1.slots t 0)
abbrev hsR1_0 (t : Fin cfg1.N) : (msR1_0 t).IsWhole := hstage1_0 ((cfg1.slots t 0).cast nbuf1_0)
abbrev msR1_1 (t : Fin cfg1.N) : Memref sig .tc .vmem S512x128 .f32 := win1_1.stage (cfg1.slots t 1)
abbrev hsR1_1 (t : Fin cfg1.N) : (msR1_1 t).IsWhole := hstage1_1 ((cfg1.slots t 1).cast nbuf1_1)
abbrev msR1_2 (t : Fin cfg1.N) : Memref sig .tc .vmem S1024x1 .f32 := win1_2.stage (cfg1.slots t 2)
abbrev hsR1_2 (t : Fin cfg1.N) : (msR1_2 t).IsWhole := hstage1_2 ((cfg1.slots t 2).cast nbuf1_2)

/-! ### The body obligation -/

def bodyPreR1 (c : Dev nD) (t : Fin cfg1.N) : sProp 𝕄 :=
  iprop((datR1 V c).Φ t.castSucc ∗ (datR1 V c).owesAt () t.castSucc
    ∗ (∃ d, owns (c : Thread nD τ) (msR1_0 t) fullShare ((datR1 V c).before 0 t d))
    ∗ (∃ d, owns (c : Thread nD τ) (msR1_1 t) fullShare ((datR1 V c).before 1 t d))
    ∗ (∃ d, owns (c : Thread nD τ) (msR1_2 t) fullShare ((datR1 V c).before 2 t d)))

def bodyPostR1 (c : Dev nD) (t : Fin cfg1.N) : sProp 𝕄 :=
  iprop((datR1 V c).Φ t.succ ∗ (datR1 V c).owesAt () t.succ
    ∗ (datR1 V c).leavesExact 0 t
    ∗ (datR1 V c).leavesExact 1 t
    ∗ (datR1 V c).leavesExact 2 t)

set_option maxHeartbeats 4000000 in
/-- The body at any point, by the case the point is in: the inputs' buffers hold their blocks; the invariant hands the
    scratch over at what the point before left (at anything before the first point) and takes it back at this point's
    running minimum; the output's buffer is handed back as found except at a last point, where it holds that minimum. -/
theorem sound_bodyR1 (c : Dev nD) (t : Fin cfg1.N) :
    bodyPreR1 V c t ⊢ wp frame (wpE (defs₀ (F := F)) Variants.none c none) Set.univ (bodyAt1 t) (fun _ => bodyPostR1 V c t) := by
  unfold bodyPreR1 bodyPostR1 bodyAt1
  simp only [beforeR1_0, beforeR1_1]
  rw [show (datR1 V c).owesAt () t.succ = (datR1 V c).owesAt () t.castSucc from rfl]
  rw [show (datR1 V c).Φ t.succ = PhiR1 V c (t.val + 1) t.isLt from rfl, PhiR1_succ]
  rw [show (datR1 V c).leavesExact 0 t = owns (c : Thread nD τ) (msR1_0 t) fullShare ((datR1 V c).after 0 t) from by
    unfold Dat.leavesExact; rw [liveR1_0 t], afterR1_0]
  rw [show (datR1 V c).leavesExact 1 t = owns (c : Thread nD τ) (msR1_1 t) fullShare ((datR1 V c).after 1 t) from by
    unfold Dat.leavesExact; rw [liveR1_1 t], afterR1_1]
  have hN : t.val < 128 := lt_of_lt_of_eq t.isLt (show cfg1.N = 128 from N_1)
  by_cases h0 : t.val % 16 = 0
  · have hl : ¬last1 (grid1.coords t) := fun h => by have := (hlast1 t).mp h; omega
    rw [Dat.leavesExact_idle (datR1 V c) 2 t (idleR1_2 t hl) (noFlushR1_2 t hl)]
    rw [accR1_first V c t h0]
    by_cases hz : t.val = 0
    · rw [PhiR1_castSucc V c t, PhiR1_zero V c _ _ hz, PhiAR1_eq]
      iintro ⟨⟨⟨⟨%s, HS⟩, Hrest⟩, Hg⟩, Ho, ⟨%d0, H0⟩, ⟨%d1, H1⟩, ⟨%d2, H2⟩⟩
      iapply (run1_first c Set.univ (grid1.coords t) _ (hsR1_0 t) _ (hsR1_1 t) _ (hsR1_2 t) scMR1 (Memref.isWhole_whole _)
        ((hfirst1 t).mpr h0) hl (xblkR1 V c t) (yblkR1 V c t) _ s _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
    · rw [PhiR1_castSucc V c t, PhiR1_pos V c _ _ hz]
      iintro ⟨⟨⟨HS, Hrest⟩, Hg⟩, Ho, ⟨%d0, H0⟩, ⟨%d1, H1⟩, ⟨%d2, H2⟩⟩
      iapply (run1_first c Set.univ (grid1.coords t) _ (hsR1_0 t) _ (hsR1_1 t) _ (hsR1_2 t) scMR1 (Memref.isWhole_whole _)
        ((hfirst1 t).mpr h0) hl (xblkR1 V c t) (yblkR1 V c t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2
  · have hz : t.val ≠ 0 := fun e => h0 (by rw [e])
    have hf : ¬first1 (grid1.coords t) := fun h => h0 ((hfirst1 t).mp h)
    rw [accR1_next V c t h0]
    rw [PhiR1_castSucc V c t, PhiR1_pos V c _ _ hz]
    by_cases h1 : t.val % 16 = 15
    · have hl : last1 (grid1.coords t) := (hlast1 t).mpr h1
      rw [show (datR1 V c).leavesExact 2 t = owns (c : Thread nD τ) (msR1_2 t) fullShare ((datR1 V c).after 2 t) from by
        unfold Dat.leavesExact; rw [liveR1_2 t hl], afterR1_2, accR1_next V c t h0]
      iintro ⟨⟨⟨HS, Hrest⟩, Hg⟩, Ho, ⟨%d0, H0⟩, ⟨%d1, H1⟩, ⟨%d2, H2⟩⟩
      iapply (run1_last c Set.univ (grid1.coords t) _ (hsR1_0 t) _ (hsR1_1 t) _ (hsR1_2 t) scMR1 (Memref.isWhole_whole _)
        hf hl (xblkR1 V c t) (yblkR1 V c t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexact H2
    · have hl : ¬last1 (grid1.coords t) := fun h => h1 ((hlast1 t).mp h)
      rw [Dat.leavesExact_idle (datR1 V c) 2 t (idleR1_2 t hl) (noFlushR1_2 t hl)]
      iintro ⟨⟨⟨HS, Hrest⟩, Hg⟩, Ho, ⟨%d0, H0⟩, ⟨%d1, H1⟩, ⟨%d2, H2⟩⟩
      iapply (run1_mid c Set.univ (grid1.coords t) _ (hsR1_0 t) _ (hsR1_1 t) _ (hsR1_2 t) scMR1 (Memref.isWhole_whole _)
        hf hl (xblkR1 V c t) (yblkR1 V c t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligationR1 (c : Dev nD) : BodyObligation (datR1 (F := F) V c) (defs₀ (F := F)) Variants.none () Set.univ := fun t => by
  rw [bigSep_W1, bigSep_W1]
  exact sound_bodyR1 V c t

/-- What the region hands the kernel is the invariant before the first point, -/
theorem hinR1 (c : Dev nD) : Pipeline.ΦA spec1 c ⊢ (datR1 V c).Φ 0 := by
  rw [show (datR1 V c).Φ 0 = PhiR1 V c 0 (Nat.zero_le _) from rfl, PhiR1_zero V c 0 _ rfl]
  try exact Idealize.SL.BI.Entails.refl _

/-- and the invariant after the last point gives it back, the scratch's contents forgotten. -/
theorem houtR1 (c : Dev nD) : (datR1 V c).Φ (Fin.last cfg1.N) ⊢ Pipeline.ΦA spec1 c := by
  rw [show (datR1 V c).Φ (Fin.last cfg1.N) = PhiR1 V c (Fin.last cfg1.N).val (Nat.le_of_lt_succ (Fin.last cfg1.N).isLt) from rfl,
    PhiR1_pos V c _ _ (by rw [Fin.val_last]; have : cfg1.N = 128 := N_1; omega), PhiAR1_eq]
  iintro ⟨⟨HS, Hrest⟩, Hg⟩
  isplitl [HS Hrest]
  · isplitl [HS]
    · iexists _; iexact HS
    iexact Hrest
  iexact Hg

end Region

end Cert.KernelIdeal.Hand

end
-- ==== Proof.KI.Run.lean ====
/-
  THE RUN of @main: two kernel regions, each followed by a stretch of host operations. The buffer contents at each
  boundary are a fold from the launch memory — a region leaves its arrays at what its write-backs leave, a host stretch
  at what its operations compute —; each region is entered from the unscoped buffers at the boundary's contents and left
  at the next boundary's; the launch theorem for a program of several regions then gives: every weakly fair execution
  terminates, nothing faulting, and every unscoped buffer ends at the last boundary's contents. The two argument arrays
  are never written, so they end as launched.
-/
import proofs.«179447_j18872086299275_1_alg».proof.Proof.Gen.KernelIdeal.Launch
import proofs.«179447_j18872086299275_1_alg».proof.Proof.Gen.KernelIdeal.Skeleton
import proofs.«179447_j18872086299275_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Pipeline.Value
import Idealize.ShloMosaic.Lib.Tactic
import proofs.«179447_j18872086299275_1_alg».proof.Proof.KI.Dat0
import proofs.«179447_j18872086299275_1_alg».proof.Proof.KI.Dat1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: the first region's entry. -/
abbrev W0 : Dev nD → Valuation τ sig (Elt F) := fun c b => m (c, b)
abbrev V0r : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (datR0 (V0r m) c).arrAt w cfg0.N
theorem W1_arr (c : Dev nD) (w : Fin cfg0.W) :
    W1 m c (Proc.devRef .tc (Pipeline.arrRef spec0 w)) = (datR0 (V0r m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1r : (c : Dev nD) → (b : Ref sig .tc) → Buf (Elt F) ((c : Thread nD τ).loc b) := fun c b => W1 m c b
theorem hF0 (c : Dev nD) (w : Fin cfg0.W) : (datR0 (V0r m) c).arrAt w cfg0.N = V1r m c (Pipeline.arrRef spec0 w) :=
  (W1_arr m c w).symm
theorem hrest0 (c : Dev nD) : ∀ b, b ∉ Finset.univ.image (Pipeline.arrRef spec0) → V1r m c b = V0r m c b :=
  fun b hb => W1_of_ne m c b fun w e => hb (Finset.mem_image.mpr ⟨w, Finset.mem_univ _, e⟩)

/-- After the first host stretch: the second region's entry. -/
abbrev W2 : Dev nD → Valuation τ sig (Elt F) := fun c => StableHlo.after hostOps1 (W1 m c)
abbrev V2r : (c : Dev nD) → (b : Ref sig .tc) → Buf (Elt F) ((c : Thread nD τ).loc b) := fun c b => W2 m c b
/-- After the second region. -/
def W3 (c : Dev nD) : Valuation τ sig (Elt F) :=
  Pipeline.withArrays spec1 c (W2 m c) fun w => (datR1 (V2r m) c).arrAt w cfg1.N
theorem W3_arr (c : Dev nD) (w : Fin cfg1.W) :
    W3 m c (Proc.devRef .tc (Pipeline.arrRef spec1 w)) = (datR1 (V2r m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3r : (c : Dev nD) → (b : Ref sig .tc) → Buf (Elt F) ((c : Thread nD τ).loc b) := fun c b => W3 m c b
theorem hF1 (c : Dev nD) (w : Fin cfg1.W) : (datR1 (V2r m) c).arrAt w cfg1.N = V3r m c (Pipeline.arrRef spec1 w) :=
  (W3_arr m c w).symm
theorem hrest1 (c : Dev nD) : ∀ b, b ∉ Finset.univ.image (Pipeline.arrRef spec1) → V3r m c b = V2r m c b :=
  fun b hb => W3_of_ne m c b fun w e => hb (Finset.mem_image.mpr ⟨w, Finset.mem_univ _, e⟩)
/-- After the second host stretch: the end. -/
abbrev W4 : Dev nD → Valuation τ sig (Elt F) := fun c => StableHlo.after hostOps2 (W3 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => datR0 (V0r m) c
  | ⟨1, _⟩ => fun c => datR1 (V2r m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

/-- The invariant after the last point, given back as the scoped rest and the generator register. -/
theorem houtR0' (V : (c : Dev nD) → (b : Ref sig .tc) → Buf (Elt F) ((c : Thread nD τ).loc b)) (c : Dev nD) :
    (datR0 V c).Φ (Fin.last cfg0.N) ⊢ (iprop(Pipeline.scopedRest (Ix := Unit) (Name := ℕ) (U := UR sig nD τ) (Lvl := ℕ) (Val := Elt F) spec0 c ∗ ∃ r, prngReg c r) : sProp 𝕄) := by
  have h := houtR0 V c; unfold Pipeline.ΦA at h; exact h
theorem houtR1' (V : (c : Dev nD) → (b : Ref sig .tc) → Buf (Elt F) ((c : Thread nD τ).loc b)) (c : Dev nD) :
    (datR1 V c).Φ (Fin.last cfg1.N) ⊢ (iprop(Pipeline.scopedRest (Ix := Unit) (Name := ℕ) (U := UR sig nD τ) (Lvl := ℕ) (Val := Elt F) spec1 c ∗ ∃ r, prngReg c r) : sProp 𝕄) := by
  have h := houtR1 V c; unfold Pipeline.ΦA at h; exact h

set_option backward.isDefEq.respectTransparency.types false in
/-- The first region: entered from every unscoped buffer at the launch contents, left at `W1`. Its arrays are split out
    of the unscoped buffers and put back at the exit contents; the generator register and the scoped rest make the
    kernel's invariant before the first point, and the invariant after the last gives them back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligationR0 (V0r m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last (Pipeline.pin (pcfgs (F := F)) adm 0).N) = (datR0 (V0r m) c).Φ (Fin.last cfg0.N) from rfl]
    iintro H
    ihave H' := (houtR0' (V0r m) c) $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0r m c) (V1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region, likewise: entered at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligationR1 (V2r m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last (Pipeline.pin (pcfgs (F := F)) adm 1).N) = (datR1 (V2r m) c).Φ (Fin.last cfg1.N) from rfl]
    iintro H
    ihave H' := (houtR1' (V2r m) c) $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2r m c) (V3r m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh' (W1 m)),
    .region (reg1 m),
    .host (hseg hostOps2 hostOps2_sub hostOps2_fresh' (W3 m)) ]
theorem main_run (c : Dev nD) : main (F := F) c = Pipeline.Seg.run (segs m) := (main_chain c).trans (by chain_rfl)

set_option backward.isDefEq.respectTransparency.types false in
/-- At the compiled mesh, from any memory with zero counters: every weakly fair execution of @main terminates, nothing
    faulting, and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => show (iprop(StableHlo.held (c : Thread nD τ) (Pipeline.ucRefs τ sig) (W4 m c) ∗ R c) : sProp 𝕄)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The arguments end as launched -/

theorem after_keeps (ops : List (HloOp τ sig (Elt F))) (W : Valuation τ sig (Elt F)) (b : Ref sig .tc)
    (h : ∀ op ∈ ops, Proc.devRef .tc b ∉ op.writes) : StableHlo.after ops W (Proc.devRef .tc b) = W (Proc.devRef .tc b) :=
  StableHlo.after_of_forall_not_mem (b := Proc.devRef .tc b) _ _ h

theorem ops1_keeps (b : Ref sig .tc) (hb : b ≠ main_v1) : ∀ op ∈ (hostOps1 : List (HloOp τ sig (Elt F))), Proc.devRef .tc b ∉ op.writes := by
  refine List.forall_iff_forall_mem.mp ?_
  simp only [hostOps1, List.Forall, StableHlo.nullary_writes, StableHlo.unary_writes, StableHlo.binary_writes, StableHlo.reshape_writes, Finset.mem_singleton]
  exact StableHlo.devRef_ne_of_ne hb

theorem ops2_keeps (b : Ref sig .tc) (hb : b ∉ ([main_v3, main_cst, main_v4, main_cst_0, main_v5, main_v6, main_cst_1, main_v7] : List (Ref sig .tc))) :
    ∀ op ∈ (hostOps2 : List (HloOp τ sig (Elt F))), Proc.devRef .tc b ∉ op.writes := by
  refine List.forall_iff_forall_mem.mp ?_
  simp only [List.mem_cons, List.mem_nil_iff, or_false, not_or] at hb
  simp only [hostOps2, List.Forall, StableHlo.nullary_writes, StableHlo.unary_writes, StableHlo.binary_writes, StableHlo.reshape_writes, Finset.mem_singleton]
  exact ⟨StableHlo.devRef_ne_of_ne hb.1, StableHlo.devRef_ne_of_ne hb.2.1, StableHlo.devRef_ne_of_ne hb.2.2.1, StableHlo.devRef_ne_of_ne hb.2.2.2.1,
    StableHlo.devRef_ne_of_ne hb.2.2.2.2.1, StableHlo.devRef_ne_of_ne hb.2.2.2.2.2.1, StableHlo.devRef_ne_of_ne hb.2.2.2.2.2.2.1, StableHlo.devRef_ne_of_ne hb.2.2.2.2.2.2.2⟩

/-- An argument array is an input window's array in both regions and no host operation writes it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := after_keeps _ _ main_arg0 (ops2_keeps main_arg0 (by decide))
    _ = W2 m c (Proc.devRef .tc main_arg0) := (W3_arr m c 1).trans (((datR1 (V2r m) c).arrAt_in 1 rfl _).trans (AR1_eq (V2r m) c 1))
    _ = W1 m c (Proc.devRef .tc main_arg0) := after_keeps _ _ main_arg0 (ops1_keeps main_arg0 (by decide))
    _ = W0 m c (Proc.devRef .tc main_arg0) := (W1_arr m c 0).trans (((datR0 (V0r m) c).arrAt_in 0 rfl _).trans (AR0_eq (V0r m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := after_keeps _ _ main_arg1 (ops2_keeps main_arg1 (by decide))
    _ = W2 m c (Proc.devRef .tc main_arg1) := (W3_arr m c 0).trans (((datR1 (V2r m) c).arrAt_in 0 rfl _).trans (AR1_eq (V2r m) c 0))
    _ = W1 m c (Proc.devRef .tc main_arg1) := after_keeps _ _ main_arg1 (ops1_keeps main_arg1 (by decide))
    _ = W0 m c (Proc.devRef .tc main_arg1) := (W1_arr m c 1).trans (((datR0 (V0r m) c).arrAt_in 1 rfl _).trans (AR0_eq (V0r m) c 1))
    _ = m ((c : Thread nD τ).loc main_arg1) := rfl

/-- THE FRAME: every weakly fair execution terminates, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c), (h c _ (mem_uc main_arg1 (by decide))).trans (W4_main_arg1 m c)⟩)
    (run_all m ρ)

end Cert.KernelIdeal.Hand

end
-- ==== Proof.Spec.lean ====
/-
  The mathematics both programs compute, stated once over the extended reals and free of either program.

  For two families of 128-vectors the "distance" of a pair is  sqrt (max ((|u|² + |v|²) - 2 (u·v)) 0)  with
  |u|² = Σ_k u_k u_k and u·v = Σ_k u_k v_k, every operation the extended reals' own; `nearest X Y i` is the
  least distance from row `i` of `X` to a row of `Y`, an infimum over the rows of `Y` (the infimum of the
  empty family being +∞, which is also the value both programs start their minimum from).
  A minimum taken tile by tile along the rows of `Y` is the same infimum: `prefInf f n` is the infimum over the
  first `n` indices, it starts at +∞, grows by one tile's infimum at a time, and at the full length is the whole infimum.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The literal 2.0 both programs scale the inner product by. -/
abbrev two : EReal := Ideal.ofBits .f32 0x40000000#32

/-- The distance of two 128-vectors as both programs compute it: the square root of the clamped
    `(|u|² + |v|²) - 2 (u·v)`. -/
def dist (u v : Fin 128 → EReal) : EReal :=
  Ideal.sqrt (max (((∑ k, u k * u k) + ∑ k, v k * v k) - two * ∑ k, u k * v k) 0)

/-- The distance is symmetric: addition and multiplication of extended reals commute. -/
theorem dist_comm (u v : Fin 128 → EReal) : dist u v = dist v u := by
  unfold dist
  rw [add_comm (∑ k, u k * u k)]
  congr 4
  exact Finset.sum_congr rfl fun k _ => mul_comm _ _

/-- Row `i` of an `[n, 128]` array. -/
abbrev row {n : Nat} (X : (⟨2, ![n, 128]⟩ : Shape).Idx → EReal) (i : Fin n) : Fin 128 → EReal := fun k => X (ix2 i k)

/-- The least distance from row `i` of `X` to a row of `Y`. -/
def nearest {n m : Nat} (X : (⟨2, ![n, 128]⟩ : Shape).Idx → EReal) (Y : (⟨2, ![m, 128]⟩ : Shape).Idx → EReal) (i : Fin n) : EReal :=
  Finset.univ.inf fun j : Fin m => dist (row X i) (row Y j)

/-- The infimum of `f` over the indices below `n`. -/
def prefInf {M : Nat} (f : Fin M → EReal) (n : Nat) : EReal :=
  (Finset.univ.filter fun j : Fin M => j.val < n).inf f

theorem prefInf_zero {M : Nat} (f : Fin M → EReal) : prefInf f 0 = ⊤ := by
  unfold prefInf
  rw [Finset.filter_false_of_mem (fun j _ => Nat.not_lt_zero _)]
  rfl

theorem prefInf_full {M : Nat} (f : Fin M → EReal) : prefInf f M = Finset.univ.inf f := by
  unfold prefInf
  rw [Finset.filter_true_of_mem (fun j _ => j.isLt)]

/-- One more tile of `B` indices: the infimum below `n + B` is the smaller of the infimum below `n` and the tile's. -/
theorem prefInf_add {M : Nat} (f : Fin M → EReal) (n B : Nat) (h : n + B ≤ M) :
    prefInf f (n + B) = min (prefInf f n) (Finset.univ.inf fun q : Fin B => f ⟨n + q.val, by have := q.isLt; omega⟩) := by
  unfold prefInf
  -- The indices below n + B are those below n together with the tile's indices n + q, q < B.
  have hsplit : (Finset.univ.filter fun j : Fin M => j.val < n + B)
      = (Finset.univ.filter fun j : Fin M => j.val < n) ∪
        (Finset.univ.image fun q : Fin B => (⟨n + q.val, by have := q.isLt; omega⟩ : Fin M)) := by
    ext j
    simp only [Finset.mem_filter, Finset.mem_univ, true_and, Finset.mem_union, Finset.mem_image]
    constructor
    · intro hj
      by_cases hn : j.val < n
      · exact Or.inl hn
      · -- an index in [n, n + B) is n + (j - n)
        refine Or.inr ⟨⟨j.val - n, by omega⟩, ?_⟩
        apply Fin.ext
        show n + (j.val - n) = j.val
        omega
    · rintro (hj | ⟨q, rfl⟩)
      · omega
      · have := q.isLt
        show n + q.val < n + B
        omega
  -- The infimum over a union is the meet of the infima; over an image it is the infimum of the composite.
  rw [hsplit, Finset.inf_union, Finset.inf_image]
  rfl

end Cert.Spec

end
-- ==== Proof.KI.Acc0.lean ====
/-
  The first pallas_call's running minimum, read: after the last point of grid row `g` the scratch buffer holds, for each
  of the block's 1024 rows, the least distance from that row of the first array to ANY row of the second, so the output
  array ends holding the row-wise nearest distance.

  Point `t` of the 8 × 16 grid has coordinates (t / 16, t % 16): it sees rows 1024 (t / 16) … of the first array and
  rows 512 (t % 16) … of the second. The running minimum after point `t` is the infimum of the distances to the first
  512 (t % 16 + 1) rows of the second array: it starts from +∞ at the first point of a grid row and each point takes
  the minimum with its own tile's infimum. At the last point of a grid row (t % 16 = 15) that is all 8192 rows.
-/
import proofs.«179447_j18872086299275_1_alg».proof.Proof.Gen.KernelIdeal.Launch
import proofs.«179447_j18872086299275_1_alg».proof.Proof.Gen.KernelIdeal.Skeleton
import proofs.«179447_j18872086299275_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Pipeline.Value
import Idealize.ShloMosaic.Lib.Tactic
import proofs.«179447_j18872086299275_1_alg».proof.Proof.KI.Body0
import proofs.«179447_j18872086299275_1_alg».proof.Proof.KI.Dat0
import proofs.«179447_j18872086299275_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section RegionValue
variable (V : (c : Dev nD) → (b : Ref sig .tc) → Buf (Elt Ideal) ((c : Thread nD τ).loc b))

/-! ## Which blocks a point sees -/

/-- Point `t` sees block `t / 16` of the first array's rows, block `t % 16` of the second's, and writes block `t / 16`
    of the output's; no window moves along the second axis. -/
theorem blockIdxR0 : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0)

/-- The two argument arrays as the region finds them, as functions of a row and a column. -/
abbrev XR0 (c : Dev nD) : (⟨2, ![8192, 128]⟩ : Shape).Idx → EReal := V c (Pipeline.arrRef spec0 0)
abbrev YR0 (c : Dev nD) : (⟨2, ![8192, 128]⟩ : Shape).Idx → EReal := V c (Pipeline.arrRef spec0 1)

/-- The distances from row `i` of the first array to the rows of the second. -/
abbrev distsR0 (c : Dev nD) (i : Fin 8192) : Fin 8192 → EReal :=
  fun j => Cert.Spec.dist (Cert.Spec.row (XR0 V c) i) (Cert.Spec.row (YR0 V c) j)

/-- Row `r` of the first array's block at point `t` is row `1024 (t / 16) + r` of the array. -/
theorem xblkR0_apply (c : Dev nD) (t : Fin cfg0.N) (r : Fin 1024) (k : Fin 128) (i : Fin 8192)
    (hi : i.val = 1024 * (t.val / 16) + r.val) :
    (xblkR0 V c t : S1024x128.Idx → EReal) (ix2 r k) = XR0 V c (ix2 i k) := by
  obtain ⟨e0, e1, -⟩ := blockIdxR0 t
  show iblkR0 V c 0 t (ix2 r k) = _
  unfold iblkR0
  rw [View.read_apply]
  show V c (Pipeline.arrRef spec0 0) (((cfg0.win 0).blk t).view.emb (ix2 r k)) = V c (Pipeline.arrRef spec0 0) (ix2 i k)
  congr 1
  funext a
  apply Fin.ext
  match a with
  | ⟨0, _⟩ => show win0_0.index t (0 : Fin 2) * 1024 + 1 * r.val = i.val; rw [e0, hi]; omega
  | ⟨1, _⟩ => show win0_0.index t (1 : Fin 2) * 128 + 1 * k.val = k.val; rw [e1]; omega

/-- Row `q` of the second array's block at point `t` is row `512 (t % 16) + q` of the array. -/
theorem yblkR0_apply (c : Dev nD) (t : Fin cfg0.N) (q : Fin 512) (k : Fin 128) (j : Fin 8192)
    (hj : j.val = 512 * (t.val % 16) + q.val) :
    (yblkR0 V c t : S512x128.Idx → EReal) (ix2 q k) = YR0 V c (ix2 j k) := by
  obtain ⟨-, -, e0, e1, -⟩ := blockIdxR0 t
  show iblkR0 V c 1 t (ix2 q k) = _
  unfold iblkR0
  rw [View.read_apply]
  show V c (Pipeline.arrRef spec0 1) (((cfg0.win 1).blk t).view.emb (ix2 q k)) = V c (Pipeline.arrRef spec0 1) (ix2 j k)
  congr 1
  funext a
  apply Fin.ext
  match a with
  | ⟨0, _⟩ => show win0_1.index t (0 : Fin 2) * 512 + 1 * q.val = j.val; rw [e0, hj]; omega
  | ⟨1, _⟩ => show win0_1.index t (1 : Fin 2) * 128 + 1 * k.val = k.val; rw [e1]; omega

/-- So the least distance from row `r` of the first block to a row of the second block is the infimum of the
    distances from row `1024 (t / 16) + r` of the first array over the tile of 512 rows of the second from `512 (t % 16)`. -/
theorem nearest_blkR0 (c : Dev nD) (t : Fin cfg0.N) (r : Fin 1024) (i : Fin 8192) (hi : i.val = 1024 * (t.val / 16) + r.val)
    (b : Nat) (hb : b = 512 * (t.val % 16)) (hle : b + 512 ≤ 8192) :
    Cert.Spec.nearest (n := 1024) (m := 512) (xblkR0 V c t) (yblkR0 V c t) r
      = Finset.univ.inf fun q : Fin 512 => distsR0 V c i ⟨b + q.val, by have := q.isLt; omega⟩ := by
  unfold Cert.Spec.nearest
  refine Finset.inf_congr rfl fun q _ => ?_
  exact congrArg₂ Cert.Spec.dist (funext fun k => xblkR0_apply V c t r k i hi)
    (funext fun k => yblkR0_apply V c t q k ⟨b + q.val, by have := q.isLt; omega⟩
      (by show b + q.val = 512 * (t.val % 16) + q.val; omega))

/-! ## The running minimum is the infimum over the rows seen so far -/

section Invariant
variable (hpay1 : ∀ j : S1024x1.Idx, k0_pay1 (F := Ideal) j = ⊤)
variable (hpay2 : ∀ (x : Vec Ideal S1024x128 .f32) (y : Vec Ideal S512x128 .f32) (s : Vec Ideal S1024x1 .f32) (r : Fin 1024),
  k0_pay2 (F := Ideal) x y s (ix2 r 0) = min (s (ix2 r 0)) (Cert.Spec.nearest (n := 1024) (m := 512) x y r))

include hpay1 hpay2 in
/-- At the first point of a grid row the running minimum restarts from +∞: it is the first tile's infimum. -/
theorem accR0_restart (c : Dev nD) (t : Fin cfg0.N) (h0 : t.val % 16 = 0) (r : Fin 1024) (i : Fin 8192)
    (hi : i.val = 1024 * (t.val / 16) + r.val) :
    (accR0 V c t.val t.isLt : S1024x1.Idx → EReal) (ix2 r 0) = Cert.Spec.prefInf (distsR0 V c i) (512 * (t.val % 16 + 1)) := by
  rw [accR0_first V c t h0]
  refine (hpay2 (xblkR0 V c t) (yblkR0 V c t) _ r).trans ?_
  rw [hpay1, nearest_blkR0 V c t r i hi (512 * (t.val % 16)) rfl (by omega),
    show 512 * (t.val % 16 + 1) = 512 * (t.val % 16) + 512 from by omega,
    Cert.Spec.prefInf_add (distsR0 V c i) (512 * (t.val % 16)) 512 (by omega)]
  have hz : Cert.Spec.prefInf (distsR0 V c i) (512 * (t.val % 16)) = ⊤ := by
    rw [show 512 * (t.val % 16) = 0 from by omega]; exact Cert.Spec.prefInf_zero _
  rw [hz]

include hpay2 in
/-- At any other point the running minimum takes in one more tile of 512 rows of the second array. -/
theorem accR0_advance (c : Dev nD) (t : Fin cfg0.N) (h0 : ¬t.val % 16 = 0) (r : Fin 1024) (i : Fin 8192)
    (hi : i.val = 1024 * (t.val / 16) + r.val)
    (ih : (accR0 V c (t.val - 1) (Nat.lt_of_le_of_lt (Nat.sub_le _ _) t.isLt) : S1024x1.Idx → EReal) (ix2 r 0)
      = Cert.Spec.prefInf (distsR0 V c i) (512 * (t.val % 16))) :
    (accR0 V c t.val t.isLt : S1024x1.Idx → EReal) (ix2 r 0) = Cert.Spec.prefInf (distsR0 V c i) (512 * (t.val % 16 + 1)) := by
  rw [accR0_next V c t h0]
  refine (hpay2 (xblkR0 V c t) (yblkR0 V c t) _ r).trans ?_
  rw [ih, nearest_blkR0 V c t r i hi (512 * (t.val % 16)) rfl (by omega),
    show 512 * (t.val % 16 + 1) = 512 * (t.val % 16) + 512 from by omega,
    Cert.Spec.prefInf_add (distsR0 V c i) (512 * (t.val % 16)) 512 (by omega)]

include hpay1 hpay2 in
/-- THE INVARIANT: after point `n` the scratch buffer's row `r` holds the infimum of the distances from row
    `1024 (n / 16) + r` of the first array to the first `512 (n % 16 + 1)` rows of the second. -/
theorem accR0_prefInf (c : Dev nD) : ∀ (n : ℕ) (hn : n < cfg0.N) (r : Fin 1024) (i : Fin 8192), i.val = 1024 * (n / 16) + r.val →
    (accR0 V c n hn : S1024x1.Idx → EReal) (ix2 r 0) = Cert.Spec.prefInf (distsR0 V c i) (512 * (n % 16 + 1))
  | 0, hn, r, i, hi => accR0_restart V hpay1 hpay2 c ⟨0, hn⟩ rfl r i hi
  | n + 1, hn, r, i, hi => by
    by_cases h0 : (n + 1) % 16 = 0
    · exact accR0_restart V hpay1 hpay2 c ⟨n + 1, hn⟩ h0 r i hi
    · refine accR0_advance V hpay2 c ⟨n + 1, hn⟩ h0 r i hi ?_
      have ih := accR0_prefInf c n (Nat.lt_of_succ_lt hn) r i (by omega)
      show (accR0 V c n _ : S1024x1.Idx → EReal) (ix2 r 0) = Cert.Spec.prefInf (distsR0 V c i) (512 * ((n + 1) % 16))
      rw [show (n + 1) % 16 = n % 16 + 1 from by omega]
      exact ih

/-! ## What is written back, and the array after the run -/

/-- What the output array ends holding: at row `i` the least distance from row `i` of the first array to a row of the second. -/
abbrev nearestR0 (c : Dev nD) : S8192x1.Idx → EReal :=
  fun j => Cert.Spec.nearest (n := 8192) (m := 8192) (XR0 V c) (YR0 V c) (j 0)

include hpay1 hpay2 in
/-- At the last point of a grid row all 16 tiles are in: the scratch's row is the infimum over every row of the second array. -/
theorem accR0_last (c : Dev nD) (t : Fin cfg0.N) (h15 : t.val % 16 = 15) (y : S1024x1.Idx) (r : Fin 1024)
    (hr : (y 0).val = r.val) (i : Fin 8192) (hi : i.val = 1024 * (t.val / 16) + r.val) :
    (accR0 V c t.val t.isLt : S1024x1.Idx → EReal) y = Cert.Spec.nearest (n := 8192) (m := 8192) (XR0 V c) (YR0 V c) i := by
  have hy : y = ix2 r (0 : Fin 1) := by
    funext a
    match a with
    | ⟨0, _⟩ => exact Fin.ext hr
    | ⟨1, _⟩ => exact Subsingleton.elim (α := Fin 1) _ _
  refine (congrArg (accR0 V c t.val t.isLt : S1024x1.Idx → EReal) hy).trans ?_
  rw [accR0_prefInf V hpay1 hpay2 c t.val t.isLt r i hi, show 512 * (t.val % 16 + 1) = 8192 from by omega,
    Cert.Spec.prefInf_full]
  rfl

include hpay1 hpay2 in
/-- WHAT A WRITING POINT WRITES BACK is its block of the row-wise nearest distance. -/
theorem flushedR0_2 (c : Dev nD) (t : Fin cfg0.N) (hf : (cfg0.win 2).flush t = true) :
    (datR0 V c).flushed 2 t = ((cfg0.win 2).blk t).view.read (Elt Ideal) (nearestR0 V c) := by
  have h15 : t.val % 16 = 15 := (flush0_2 t).mp hf
  obtain ⟨-, -, -, -, e0, -⟩ := blockIdxR0 t
  show (cfg0.win 2).cut (grid0.coords t) ((datR0 V c).after 2 t) = _
  rw [afterR0_2]
  funext y
  rw [View.read_apply]
  show (accR0 V c t.val t.isLt : S1024x1.Idx → EReal) y
    = Cert.Spec.nearest (n := 8192) (m := 8192) (XR0 V c) (YR0 V c) ((((cfg0.win 2).blk t).view.emb y) 0)
  refine accR0_last V hpay1 hpay2 c t h15 y ⟨(y 0).val, (y 0).isLt⟩ rfl _ ?_
  show win0_2.index t (0 : Fin 2) * 1024 + 1 * (y 0).val = 1024 * (t.val / 16) + (y 0).val
  rw [e0]; omega

/-- An index of the output array is in point `t`'s block iff each coordinate is in the block's range on its axis. -/
theorem mem_blkR0_2 (t : Fin cfg0.N) (i : S8192x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v0).slice (win0_2.rect t)).set ↔ _
  rw [View.set_slice_whole, Rect.mem_set_unit]
  exact Iff.rfl

/-- Every row of the output is in the block written at the last point of its grid row. -/
theorem coverR0_2 (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 128 := N_0
  refine ⟨⟨16 * ((i 0).val / 1024) + 15, by rw [hN]; omega⟩, (flush0_2 _).mpr (by show (16 * ((i 0).val / 1024) + 15) % 16 = 15; omega), ?_⟩
  rw [mem_blkR0_2]
  obtain ⟨-, -, -, -, e0, e1⟩ := blockIdxR0 ⟨16 * ((i 0).val / 1024) + 15, by rw [hN]; omega⟩
  intro a
  match a with
  | ⟨0, _⟩ =>
    show win0_2.index _ (0 : Fin 2) * 1024 ≤ (i 0).val ∧ (i 0).val < win0_2.index _ (0 : Fin 2) * 1024 + 1024
    rw [e0]; show (16 * ((i 0).val / 1024) + 15) / 16 * 1024 ≤ (i 0).val ∧ (i 0).val < (16 * ((i 0).val / 1024) + 15) / 16 * 1024 + 1024
    omega
  | ⟨1, _⟩ =>
    show win0_2.index _ (1 : Fin 2) * 1 ≤ (i 1).val ∧ (i 1).val < win0_2.index _ (1 : Fin 2) * 1 + 1
    rw [e1]; omega

end Invariant

end RegionValue

/-- THE OUTPUT ARRAY after the run: row `i` holds the least distance from row `i` of the first array to a row of the second. -/
theorem finalR0 (V : (c : Dev nD) → (b : Ref sig .tc) → Buf (Elt Ideal) ((c : Thread nD τ).loc b)) (c : Dev nD)
    (hpay1 : ∀ j : S1024x1.Idx, k0_pay1 (F := Ideal) j = ⊤)
    (hpay2 : ∀ (x : Vec Ideal S1024x128 .f32) (y : Vec Ideal S512x128 .f32) (s : Vec Ideal S1024x1 .f32) (r : Fin 1024),
      k0_pay2 (F := Ideal) x y s (ix2 r 0) = min (s (ix2 r 0)) (Cert.Spec.nearest (n := 1024) (m := 512) x y r))
    (i : Fin 8192) :
    ((datR0 (F := Ideal) V c).arrAt 2 cfg0.N : S8192x1.Idx → EReal) (ix2 i 0)
      = Cert.Spec.nearest (n := 8192) (m := 8192) (V c (Pipeline.arrRef spec0 0)) (V c (Pipeline.arrRef spec0 1)) i :=
  congrFun ((datR0 (F := Ideal) V c).arrAt_eq_of_cover 2 (nearestR0 V c) (fun t hf => flushedR0_2 V hpay1 hpay2 c t hf) coverR0_2)
    (ix2 i 0)

end Cert.KernelIdeal.Hand

end
-- ==== Proof.KI.Acc1.lean ====
/-
  The second pallas_call's running minimum, read: after the last point of grid row `g` the scratch buffer holds, for each
  of the block's 1024 rows, the least distance from that row of the first array to ANY row of the second, so the output
  array ends holding the row-wise nearest distance.

  Point `t` of the 8 × 16 grid has coordinates (t / 16, t % 16): it sees rows 1024 (t / 16) … of the first array and
  rows 512 (t % 16) … of the second. The running minimum after point `t` is the infimum of the distances to the first
  512 (t % 16 + 1) rows of the second array: it starts from +∞ at the first point of a grid row and each point takes
  the minimum with its own tile's infimum. At the last point of a grid row (t % 16 = 15) that is all 8192 rows.
-/
import proofs.«179447_j18872086299275_1_alg».proof.Proof.Gen.KernelIdeal.Launch
import proofs.«179447_j18872086299275_1_alg».proof.Proof.Gen.KernelIdeal.Skeleton
import proofs.«179447_j18872086299275_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Pipeline.Value
import Idealize.ShloMosaic.Lib.Tactic
import proofs.«179447_j18872086299275_1_alg».proof.Proof.KI.Body1
import proofs.«179447_j18872086299275_1_alg».proof.Proof.KI.Dat1
import proofs.«179447_j18872086299275_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section RegionValue
variable (V : (c : Dev nD) → (b : Ref sig .tc) → Buf (Elt Ideal) ((c : Thread nD τ).loc b))

/-! ## Which blocks a point sees -/

/-- Point `t` sees block `t / 16` of the first array's rows, block `t % 16` of the second's, and writes block `t / 16`
    of the output's; no window moves along the second axis. -/
theorem blockIdxR1 : ∀ t : Fin cfg1.N,
    win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0 :=
  (by decide +kernel : ∀ t : Fin grid1.N,
    win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0)

/-- The two argument arrays as the region finds them, as functions of a row and a column. -/
abbrev XR1 (c : Dev nD) : (⟨2, ![8192, 128]⟩ : Shape).Idx → EReal := V c (Pipeline.arrRef spec1 0)
abbrev YR1 (c : Dev nD) : (⟨2, ![8192, 128]⟩ : Shape).Idx → EReal := V c (Pipeline.arrRef spec1 1)

/-- The distances from row `i` of the first array to the rows of the second. -/
abbrev distsR1 (c : Dev nD) (i : Fin 8192) : Fin 8192 → EReal :=
  fun j => Cert.Spec.dist (Cert.Spec.row (XR1 V c) i) (Cert.Spec.row (YR1 V c) j)

/-- Row `r` of the first array's block at point `t` is row `1024 (t / 16) + r` of the array. -/
theorem xblkR1_apply (c : Dev nD) (t : Fin cfg1.N) (r : Fin 1024) (k : Fin 128) (i : Fin 8192)
    (hi : i.val = 1024 * (t.val / 16) + r.val) :
    (xblkR1 V c t : S1024x128.Idx → EReal) (ix2 r k) = XR1 V c (ix2 i k) := by
  obtain ⟨e0, e1, -⟩ := blockIdxR1 t
  show iblkR1 V c 0 t (ix2 r k) = _
  unfold iblkR1
  rw [View.read_apply]
  show V c (Pipeline.arrRef spec1 0) (((cfg1.win 0).blk t).view.emb (ix2 r k)) = V c (Pipeline.arrRef spec1 0) (ix2 i k)
  congr 1
  funext a
  apply Fin.ext
  match a with
  | ⟨0, _⟩ => show win1_0.index t (0 : Fin 2) * 1024 + 1 * r.val = i.val; rw [e0, hi]; omega
  | ⟨1, _⟩ => show win1_0.index t (1 : Fin 2) * 128 + 1 * k.val = k.val; rw [e1]; omega

/-- Row `q` of the second array's block at point `t` is row `512 (t % 16) + q` of the array. -/
theorem yblkR1_apply (c : Dev nD) (t : Fin cfg1.N) (q : Fin 512) (k : Fin 128) (j : Fin 8192)
    (hj : j.val = 512 * (t.val % 16) + q.val) :
    (yblkR1 V c t : S512x128.Idx → EReal) (ix2 q k) = YR1 V c (ix2 j k) := by
  obtain ⟨-, -, e0, e1, -⟩ := blockIdxR1 t
  show iblkR1 V c 1 t (ix2 q k) = _
  unfold iblkR1
  rw [View.read_apply]
  show V c (Pipeline.arrRef spec1 1) (((cfg1.win 1).blk t).view.emb (ix2 q k)) = V c (Pipeline.arrRef spec1 1) (ix2 j k)
  congr 1
  funext a
  apply Fin.ext
  match a with
  | ⟨0, _⟩ => show win1_1.index t (0 : Fin 2) * 512 + 1 * q.val = j.val; rw [e0, hj]; omega
  | ⟨1, _⟩ => show win1_1.index t (1 : Fin 2) * 128 + 1 * k.val = k.val; rw [e1]; omega

/-- So the least distance from row `r` of the first block to a row of the second block is the infimum of the
    distances from row `1024 (t / 16) + r` of the first array over the tile of 512 rows of the second from `512 (t % 16)`. -/
theorem nearest_blkR1 (c : Dev nD) (t : Fin cfg1.N) (r : Fin 1024) (i : Fin 8192) (hi : i.val = 1024 * (t.val / 16) + r.val)
    (b : Nat) (hb : b = 512 * (t.val % 16)) (hle : b + 512 ≤ 8192) :
    Cert.Spec.nearest (n := 1024) (m := 512) (xblkR1 V c t) (yblkR1 V c t) r
      = Finset.univ.inf fun q : Fin 512 => distsR1 V c i ⟨b + q.val, by have := q.isLt; omega⟩ := by
  unfold Cert.Spec.nearest
  refine Finset.inf_congr rfl fun q _ => ?_
  exact congrArg₂ Cert.Spec.dist (funext fun k => xblkR1_apply V c t r k i hi)
    (funext fun k => yblkR1_apply V c t q k ⟨b + q.val, by have := q.isLt; omega⟩
      (by show b + q.val = 512 * (t.val % 16) + q.val; omega))

/-! ## The running minimum is the infimum over the rows seen so far -/

section Invariant
variable (hpay1 : ∀ j : S1024x1.Idx, k1_pay1 (F := Ideal) j = ⊤)
variable (hpay2 : ∀ (x : Vec Ideal S1024x128 .f32) (y : Vec Ideal S512x128 .f32) (s : Vec Ideal S1024x1 .f32) (r : Fin 1024),
  k1_pay2 (F := Ideal) x y s (ix2 r 0) = min (s (ix2 r 0)) (Cert.Spec.nearest (n := 1024) (m := 512) x y r))

include hpay1 hpay2 in
/-- At the first point of a grid row the running minimum restarts from +∞: it is the first tile's infimum. -/
theorem accR1_restart (c : Dev nD) (t : Fin cfg1.N) (h0 : t.val % 16 = 0) (r : Fin 1024) (i : Fin 8192)
    (hi : i.val = 1024 * (t.val / 16) + r.val) :
    (accR1 V c t.val t.isLt : S1024x1.Idx → EReal) (ix2 r 0) = Cert.Spec.prefInf (distsR1 V c i) (512 * (t.val % 16 + 1)) := by
  rw [accR1_first V c t h0]
  refine (hpay2 (xblkR1 V c t) (yblkR1 V c t) _ r).trans ?_
  rw [hpay1, nearest_blkR1 V c t r i hi (512 * (t.val % 16)) rfl (by omega),
    show 512 * (t.val % 16 + 1) = 512 * (t.val % 16) + 512 from by omega,
    Cert.Spec.prefInf_add (distsR1 V c i) (512 * (t.val % 16)) 512 (by omega)]
  have hz : Cert.Spec.prefInf (distsR1 V c i) (512 * (t.val % 16)) = ⊤ := by
    rw [show 512 * (t.val % 16) = 0 from by omega]; exact Cert.Spec.prefInf_zero _
  rw [hz]

include hpay2 in
/-- At any other point the running minimum takes in one more tile of 512 rows of the second array. -/
theorem accR1_advance (c : Dev nD) (t : Fin cfg1.N) (h0 : ¬t.val % 16 = 0) (r : Fin 1024) (i : Fin 8192)
    (hi : i.val = 1024 * (t.val / 16) + r.val)
    (ih : (accR1 V c (t.val - 1) (Nat.lt_of_le_of_lt (Nat.sub_le _ _) t.isLt) : S1024x1.Idx → EReal) (ix2 r 0)
      = Cert.Spec.prefInf (distsR1 V c i) (512 * (t.val % 16))) :
    (accR1 V c t.val t.isLt : S1024x1.Idx → EReal) (ix2 r 0) = Cert.Spec.prefInf (distsR1 V c i) (512 * (t.val % 16 + 1)) := by
  rw [accR1_next V c t h0]
  refine (hpay2 (xblkR1 V c t) (yblkR1 V c t) _ r).trans ?_
  rw [ih, nearest_blkR1 V c t r i hi (512 * (t.val % 16)) rfl (by omega),
    show 512 * (t.val % 16 + 1) = 512 * (t.val % 16) + 512 from by omega,
    Cert.Spec.prefInf_add (distsR1 V c i) (512 * (t.val % 16)) 512 (by omega)]

include hpay1 hpay2 in
/-- THE INVARIANT: after point `n` the scratch buffer's row `r` holds the infimum of the distances from row
    `1024 (n / 16) + r` of the first array to the first `512 (n % 16 + 1)` rows of the second. -/
theorem accR1_prefInf (c : Dev nD) : ∀ (n : ℕ) (hn : n < cfg1.N) (r : Fin 1024) (i : Fin 8192), i.val = 1024 * (n / 16) + r.val →
    (accR1 V c n hn : S1024x1.Idx → EReal) (ix2 r 0) = Cert.Spec.prefInf (distsR1 V c i) (512 * (n % 16 + 1))
  | 0, hn, r, i, hi => accR1_restart V hpay1 hpay2 c ⟨0, hn⟩ rfl r i hi
  | n + 1, hn, r, i, hi => by
    by_cases h0 : (n + 1) % 16 = 0
    · exact accR1_restart V hpay1 hpay2 c ⟨n + 1, hn⟩ h0 r i hi
    · refine accR1_advance V hpay2 c ⟨n + 1, hn⟩ h0 r i hi ?_
      have ih := accR1_prefInf c n (Nat.lt_of_succ_lt hn) r i (by omega)
      show (accR1 V c n _ : S1024x1.Idx → EReal) (ix2 r 0) = Cert.Spec.prefInf (distsR1 V c i) (512 * ((n + 1) % 16))
      rw [show (n + 1) % 16 = n % 16 + 1 from by omega]
      exact ih

/-! ## What is written back, and the array after the run -/

/-- What the output array ends holding: at row `i` the least distance from row `i` of the first array to a row of the second. -/
abbrev nearestR1 (c : Dev nD) : S8192x1.Idx → EReal :=
  fun j => Cert.Spec.nearest (n := 8192) (m := 8192) (XR1 V c) (YR1 V c) (j 0)

include hpay1 hpay2 in
/-- At the last point of a grid row all 16 tiles are in: the scratch's row is the infimum over every row of the second array. -/
theorem accR1_last (c : Dev nD) (t : Fin cfg1.N) (h15 : t.val % 16 = 15) (y : S1024x1.Idx) (r : Fin 1024)
    (hr : (y 0).val = r.val) (i : Fin 8192) (hi : i.val = 1024 * (t.val / 16) + r.val) :
    (accR1 V c t.val t.isLt : S1024x1.Idx → EReal) y = Cert.Spec.nearest (n := 8192) (m := 8192) (XR1 V c) (YR1 V c) i := by
  have hy : y = ix2 r (0 : Fin 1) := by
    funext a
    match a with
    | ⟨0, _⟩ => exact Fin.ext hr
    | ⟨1, _⟩ => exact Subsingleton.elim (α := Fin 1) _ _
  refine (congrArg (accR1 V c t.val t.isLt : S1024x1.Idx → EReal) hy).trans ?_
  rw [accR1_prefInf V hpay1 hpay2 c t.val t.isLt r i hi, show 512 * (t.val % 16 + 1) = 8192 from by omega,
    Cert.Spec.prefInf_full]
  rfl

include hpay1 hpay2 in
/-- WHAT A WRITING POINT WRITES BACK is its block of the row-wise nearest distance. -/
theorem flushedR1_2 (c : Dev nD) (t : Fin cfg1.N) (hf : (cfg1.win 2).flush t = true) :
    (datR1 V c).flushed 2 t = ((cfg1.win 2).blk t).view.read (Elt Ideal) (nearestR1 V c) := by
  have h15 : t.val % 16 = 15 := (flush1_2 t).mp hf
  obtain ⟨-, -, -, -, e0, -⟩ := blockIdxR1 t
  show (cfg1.win 2).cut (grid1.coords t) ((datR1 V c).after 2 t) = _
  rw [afterR1_2]
  funext y
  rw [View.read_apply]
  show (accR1 V c t.val t.isLt : S1024x1.Idx → EReal) y
    = Cert.Spec.nearest (n := 8192) (m := 8192) (XR1 V c) (YR1 V c) ((((cfg1.win 2).blk t).view.emb y) 0)
  refine accR1_last V hpay1 hpay2 c t h15 y ⟨(y 0).val, (y 0).isLt⟩ rfl _ ?_
  show win1_2.index t (0 : Fin 2) * 1024 + 1 * (y 0).val = 1024 * (t.val / 16) + (y 0).val
  rw [e0]; omega

/-- An index of the output array is in point `t`'s block iff each coordinate is in the block's range on its axis. -/
theorem mem_blkR1_2 (t : Fin cfg1.N) (i : S8192x1.Idx) :
    i ∈ ((cfg1.win 2).blk t).view.set ↔ ∀ a : Fin 2, win1_2.index t a * S1024x1.size a ≤ (i a).val
      ∧ (i a).val < win1_2.index t a * S1024x1.size a + S1024x1.size a := by
  show i ∈ ((View.whole main_v2).slice (win1_2.rect t)).set ↔ _
  rw [View.set_slice_whole, Rect.mem_set_unit]
  exact Iff.rfl

/-- Every row of the output is in the block written at the last point of its grid row. -/
theorem coverR1_2 (i : S8192x1.Idx) : ∃ t : Fin cfg1.N, (cfg1.win 2).flush t = true ∧ i ∈ ((cfg1.win 2).blk t).view.set := by
  have hi0 : (i 0).val < 8192 := (i 0).isLt
  have hi1 : (i 1).val < 1 := (i 1).isLt
  have hN : cfg1.N = 128 := N_1
  refine ⟨⟨16 * ((i 0).val / 1024) + 15, by rw [hN]; omega⟩, (flush1_2 _).mpr (by show (16 * ((i 0).val / 1024) + 15) % 16 = 15; omega), ?_⟩
  rw [mem_blkR1_2]
  obtain ⟨-, -, -, -, e0, e1⟩ := blockIdxR1 ⟨16 * ((i 0).val / 1024) + 15, by rw [hN]; omega⟩
  intro a
  match a with
  | ⟨0, _⟩ =>
    show win1_2.index _ (0 : Fin 2) * 1024 ≤ (i 0).val ∧ (i 0).val < win1_2.index _ (0 : Fin 2) * 1024 + 1024
    rw [e0]; show (16 * ((i 0).val / 1024) + 15) / 16 * 1024 ≤ (i 0).val ∧ (i 0).val < (16 * ((i 0).val / 1024) + 15) / 16 * 1024 + 1024
    omega
  | ⟨1, _⟩ =>
    show win1_2.index _ (1 : Fin 2) * 1 ≤ (i 1).val ∧ (i 1).val < win1_2.index _ (1 : Fin 2) * 1 + 1
    rw [e1]; omega

end Invariant

end RegionValue

/-- THE OUTPUT ARRAY after the run: row `i` holds the least distance from row `i` of the first array to a row of the second. -/
theorem finalR1 (V : (c : Dev nD) → (b : Ref sig .tc) → Buf (Elt Ideal) ((c : Thread nD τ).loc b)) (c : Dev nD)
    (hpay1 : ∀ j : S1024x1.Idx, k1_pay1 (F := Ideal) j = ⊤)
    (hpay2 : ∀ (x : Vec Ideal S1024x128 .f32) (y : Vec Ideal S512x128 .f32) (s : Vec Ideal S1024x1 .f32) (r : Fin 1024),
      k1_pay2 (F := Ideal) x y s (ix2 r 0) = min (s (ix2 r 0)) (Cert.Spec.nearest (n := 1024) (m := 512) x y r))
    (i : Fin 8192) :
    ((datR1 (F := Ideal) V c).arrAt 2 cfg1.N : S8192x1.Idx → EReal) (ix2 i 0)
      = Cert.Spec.nearest (n := 8192) (m := 8192) (V c (Pipeline.arrRef spec1 0)) (V c (Pipeline.arrRef spec1 1)) i :=
  congrFun ((datR1 (F := Ideal) V c).arrAt_eq_of_cover 2 (nearestR1 V c) (fun t hf => flushedR1_2 V hpay1 hpay2 c t hf) coverR1_2)
    (ix2 i 0)

end Cert.KernelIdeal.Hand

end
-- ==== Proof.KI.Tail.lean ====
/-
  The last host stages, shared by both programs: from two vectors of 8192 minima, the sum of each (from the zero
  word), the two sums added, and the result multiplied by the word 0x3F000000 (one half) — a scalar.

  The kernel's @main reaches these stages through its host operations: the first list flattens an [8192, 1]
  column of minima into a vector; the second flattens the other column and then runs exactly this tail on the two
  vectors. The reference ends with the same stages applied to its own two vectors of minima, so its result is
  the same function of them.
-/
import proofs.«179447_j18872086299275_1_alg».proof.Proof.Gen.KernelIdeal.Launch
import proofs.«179447_j18872086299275_1_alg».proof.Proof.Gen.ReferenceIdeal.Read
import Idealize.ShloMosaic.Lib.StableHlo.Run

noncomputable section

namespace Cert.KernelIdeal.Hand
open Cert.KernelIdeal Cert.KernelIdeal.Gen Idealize.ShloMosaic Idealize.ShloMosaic.TcCoe Idealize.SL.Sem Idealize.ShloMosaic.StableHlo

variable {F : FTy → Type} [FloatOps F]

/-- what the host operations after the second region compute from the two vectors of minima -/
def tailFn (a b : (⟨S8192, .f32⟩ : BufTy).Contents (Elt F)) : (⟨S_, .f32⟩ : BufTy).Contents (Elt F) :=
  mulf (addf (Host.reduceAdd a (constant S_ .f32 0x00000000#32) reducesTo_S8192_S_d0 h_S_) (Host.reduceAdd b (constant S_ .f32 0x00000000#32) reducesTo_S8192_S_d0 h_S_)) (constant S_ .f32 0x3F000000#32)

/-- After the first list of host operations the vector `main_v1` is the column `main_v0` flattened: the list's one
    operation writes it, as the shape cast of what `main_v0` held. -/
theorem after_ops1_v1 (W : Valuation τ sig (Elt F)) :
    StableHlo.after hostOps1 W (Proc.devRef .tc main_v1) = shapeCast S8192 (W (Proc.devRef .tc main_v0)) shapeCasts_S8192x1_S8192 := by
  show StableHlo.after (hostOps1 (F := F)) W (Proc.devRef .tc main_v1) = _
  after_results
  rfl

/-- After the second list the scalar `main_v7` is the tail of the vector `main_v1` and the flattened column
    `main_v2`: each operation's result is read at its own buffer as its function of its operands' contents, and no
    operation of the list writes `main_v1` or `main_v2`, which keep what they held. -/
theorem after_ops2_v7 (W : Valuation τ sig (Elt F)) :
    StableHlo.after hostOps2 W (Proc.devRef .tc main_v7) = tailFn (W (Proc.devRef .tc main_v1)) (shapeCast S8192 (W (Proc.devRef .tc main_v2)) shapeCasts_S8192x1_S8192) := by
  show StableHlo.after (hostOps2 (F := F)) W (Proc.devRef .tc main_v7) = _
  after_results
  rfl

/-- the reference's last stages are the same tail of its two vectors of minima -/
theorem tailFn_ref (X Y : (⟨Cert.ReferenceIdeal.S8192x128, .f32⟩ : BufTy).Contents (Elt Ideal)) :
    tailFn (F := Ideal) (Cert.ReferenceIdeal.Read.val_main_v16 X Y) (Cert.ReferenceIdeal.Read.val_main_v18 X Y) = Cert.ReferenceIdeal.Read.val_main_v21 X Y := by
  unfold tailFn Cert.ReferenceIdeal.Read.val_main_v21 Cert.ReferenceIdeal.Read.val_main_v20 Cert.ReferenceIdeal.Read.val_main_v19 Cert.ReferenceIdeal.Read.val_main_v17 Cert.ReferenceIdeal.Read.val_main_cst_7 Cert.ReferenceIdeal.Read.val_main_cst_6 Cert.ReferenceIdeal.Read.val_main_cst_4
  rfl

end Cert.KernelIdeal.Hand

end
-- ==== Proof.Tile.lean ====
/-
  One grid point's arithmetic, read at an index, at the ideal values (every float an extended real, every
  format change the identity).

  For a block `x` of 1024 rows, a block `y` of 512 rows (128 lanes each) and the running minimum `s` (one value per
  row of `x`), the value stored at row `r` is  min (s r) (inf over the 512 rows q of y of d r q)  with
  d r q = sqrt (max ((|x_r|² + |y_q|²) - 2 (x_r · y_q)) 0): the squared norms are lane sums of squares, laid out
  as a column and as a row and broadcast over the 1024 × 512 grid; the inner products are the entries of x · yᵀ, a
  contraction of the lanes of `x` with the rows of the transposed `y`; the row minimum starts from +∞, so it is the
  infimum over the 512 columns. The reset value is +∞ in every place.
-/
import proofs.«179447_j18872086299275_1_alg».proof.Proof.Gen.KernelIdeal.Skeleton
import proofs.«179447_j18872086299275_1_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Tile
open Idealize.ShloMosaic Idealize.ShloMosaic.ValueIdx Cert.KernelIdeal Cert.KernelIdeal.Gen

variable [Cert.KernelIdeal.Facts]

/-! ## Columns: a vector laid out as one column, and a column repeated along the rows' length -/

section Layout
variable {α : Type}

/-- A vector `[a]` cast to the column `[a, 1]` reads, at `(i, u)`, the vector at `i`: both sit at row-major
    position `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`: the row coordinate is kept
    (when `a = 1` it is `0` anyway) and the unit axis reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Reductions along the lanes of a matrix -/

/-- The sum along the second axis of an `[a, b]` matrix is, at row `p`, the sum over the `b` columns of that row: the
    index over `p` with column `k` inserted is `(p, k)`. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext c
  match c with
  | ⟨0, _⟩ => rfl
  | ⟨1, _⟩ => rfl

/-- The minimum along the second axis of an `[a, b]` matrix, started from +∞, is, at row `p`, the infimum over the
    `b` columns of that row: the fold of `min` over the indices lying over `p` is the fold over the columns, its
    starting value `0x7F800000` is `⊤`, and the fold of `min` from `⊤` is the infimum. -/
theorem rowMin_apply {a b : ℕ} (src : FVec Ideal ⟨2, ![a, b]⟩ .f32) (h : Shape.Reduces ⟨2, ![a, b]⟩ [1] ⟨1, ![a]⟩)
    (hφ : FKind.Formats .f32) (hacc : (0x7F800000#32 : BitVec 32) = FKind.minimumf.neutral .f32 hφ) (p : Fin a) :
    multiReduction (F := Ideal) .minimumf [1] ⟨1, ![a]⟩ src 0x7F800000#32 h hφ hacc (ix1 p)
      = Finset.univ.inf fun q : Fin b => src (ix2 p q) := by
  rw [multiReduction_minimumf_eq_fold]
  refine (h.fold_filter_drop_single _ _ src (ix1 p)).trans ?_
  have htop : FloatOps.ofBits (F := Ideal) .f32 0x7F800000#32 = (⊤ : EReal) := by
    show Ideal.ofBits .f32 0x7F800000#32 = ⊤
    simp [Ideal.ofBits, Ideal.ieee]
  rw [htop]
  have hf : (src ∘ h.lift (ix1 p)) = fun q : Fin b => src (ix2 p q) := by
    funext q
    refine congrArg src (funext fun c => ?_)
    match c with
    | ⟨0, _⟩ => rfl
    | ⟨1, _⟩ => rfl
  rw [hf]
  rfl

/-! ## The product x · yᵀ: lanes of the left operand against rows of the right -/

/-- The left operand's row is the result's row … -/
theorem lhs_dot_0 (i : S1024x512.Idx) (q : dot_S1024x128_S128x512_S1024x512_1_0_0_1_n_n.contr.Idx) :
    (dot_S1024x128_S128x512_S1024x512_1_0_0_1_n_n.lhsIdx i q 0).val = (i 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
/-- … its lane the contraction's coordinate … -/
theorem lhs_dot_1 (i : S1024x512.Idx) (q : dot_S1024x128_S128x512_S1024x512_1_0_0_1_n_n.contr.Idx) :
    (dot_S1024x128_S128x512_S1024x512_1_0_0_1_n_n.lhsIdx i q 1).val = (q ⟨0, by decide⟩).val :=
  dot_S1024x128_S128x512_S1024x512_1_0_0_1_n_n.lhsIdx_val_of_single rfl i q
/-- … the right operand's row the contraction's coordinate … -/
theorem rhs_dot_0 (i : S1024x512.Idx) (q : dot_S1024x128_S128x512_S1024x512_1_0_0_1_n_n.contr.Idx) :
    (dot_S1024x128_S128x512_S1024x512_1_0_0_1_n_n.rhsIdx i q 0).val = (q ⟨0, by decide⟩).val :=
  dot_S1024x128_S128x512_S1024x512_1_0_0_1_n_n.rhsIdx_val_of_single rfl i q
/-- … and its column the result's column. -/
theorem rhs_dot_1 (i : S1024x512.Idx) (q : dot_S1024x128_S128x512_S1024x512_1_0_0_1_n_n.contr.Idx) :
    (dot_S1024x128_S128x512_S1024x512_1_0_0_1_n_n.rhsIdx i q 1).val = (i 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl

/-- Into the zero accumulator the product at `(p, q)` is the sum over the 128 lanes `k` of the left operand at
    `(p, k)` times the right operand at `(k, q)`. -/
theorem matmul_ix (A : FVec Ideal S1024x128 .bf16) (B : FVec Ideal S128x512 .bf16) (p : Fin 1024) (q : Fin 512) :
    matmul (F := Ideal) dot_S1024x128_S128x512_S1024x512_1_0_0_1_n_n none A B (constant (F := Ideal) S1024x512 .f32 0x00000000#32) (ix2 p q)
      = ∑ k : Fin 128, A (ix2 p k) * B (ix2 k q) := by
  simp only [matmul]
  rw [Ideal.matmul_constant_zero_apply, ← Equiv.sum_comp (ValueIdx.contrEquiv1 dot_S1024x128_S128x512_S1024x512_1_0_0_1_n_n 128 rfl rfl).symm]
  refine Finset.sum_congr rfl fun k _ => ?_
  have hk := ValueIdx.contrEquiv1_symm_val dot_S1024x128_S128x512_S1024x512_1_0_0_1_n_n 128 rfl rfl k
  have el : dot_S1024x128_S128x512_S1024x512_1_0_0_1_n_n.lhsIdx (ix2 p q) ((ValueIdx.contrEquiv1 dot_S1024x128_S128x512_S1024x512_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S1024x128_S128x512_S1024x512_1_0_0_1_n_n.rhsIdx (ix2 p q) ((ValueIdx.contrEquiv1 dot_S1024x128_S128x512_S1024x512_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The two stored values -/

/-- the reset value is +∞ everywhere -/
theorem pay1_apply (j : S1024x1.Idx) : k0_pay1 (F := Ideal) j = ⊤ := by
  unfold k0_pay1
  refine (congrFun (shapeCast_self _ _) j).trans ?_
  show Ideal.ofBits .f32 0x7F800000#32 = ⊤
  simp [Ideal.ofBits, Ideal.ieee]

/-- after one grid point, row r of the running minimum is the smaller of what it held and the least distance from row r of x to a row of y -/
theorem pay2_apply (x : Vec Ideal S1024x128 .f32) (y : Vec Ideal S512x128 .f32) (s : Vec Ideal S1024x1 .f32) (r : Fin 1024) :
    k0_pay2 (F := Ideal) x y s (ix2 r 0) = min (s (ix2 r 0)) (Cert.Spec.nearest (n := 1024) (m := 512) x y r) := by
  unfold k0_pay2
  -- the stored column is min (s, the column of row minima); the row minimum at r is the infimum over the columns q
  refine (congrFun (shapeCast_self _ _) _).trans ?_
  refine (minimumf_apply _ _ _).trans ?_
  refine congrArg (min (s (ix2 r 0))) ?_
  refine (shapeCast_a_a1_apply _ _ r 0).trans ?_
  refine (rowMin_apply _ _ _ _ r).trans ?_
  unfold Cert.Spec.nearest
  refine Finset.inf_congr rfl fun q _ => ?_
  -- the entry at (r, q) is the distance of row r of x and row q of y, term by term
  unfold Cert.Spec.dist
  refine congrArg Ideal.sqrt ?_
  refine (maximumf_apply _ _ _).trans ?_
  refine congrArg₂ (fun a b : EReal => max a b) ?_ ?_
  · refine (subf_apply _ _ _).trans ?_
    refine congrArg₂ (fun a b : EReal => a - b) ?_ ?_
    · refine (addf_apply _ _ _).trans ?_
      refine congrArg₂ (fun a b : EReal => a + b) ?_ ?_
      · -- |x_r|²: the column of x's squared norms, at row r
        refine (broadcastTo_a1_ab_apply _ _ r q).trans ?_
        refine (shapeCast_a_a1_apply _ _ r 0).trans ?_
        refine (rowSum_apply _ _ _ _ r).trans ?_
        rfl
      · -- |y_q|²: the column of y's squared norms turned into a row, at column q
        refine (broadcastTo_1b_ab_apply _ _ r q).trans ?_
        refine (transpose_ix2_apply _ _ (0 : Fin 1) q).trans ?_
        refine (shapeCast_a_a1_apply _ _ q 0).trans ?_
        refine (rowSum_apply _ _ _ _ q).trans ?_
        rfl
    · -- 2 (x_r · y_q): the entry of x · yᵀ, the transposed y read back at (q, k)
      refine (mulf_apply _ _ _).trans ?_
      refine congrArg₂ (fun a b : EReal => a * b) rfl ?_
      refine (matmul_ix _ _ r q).trans ?_
      refine Finset.sum_congr rfl fun k _ => ?_
      refine congrArg₂ (fun a b : EReal => a * b) rfl ?_
      refine (transpose_ix2_apply _ _ k q).trans ?_
      rfl
  · exact Ideal.ofBits_zero_f32

/-- the second kernel's payloads are the first's -/
theorem k1_pay1_eq : k1_pay1 (F := Ideal) = k0_pay1 (F := Ideal) := rfl
theorem k1_pay2_eq : k1_pay2 (F := Ideal) = k0_pay2 (F := Ideal) := rfl

end Cert.KernelIdeal.Tile

end
-- ==== Proof.Ref.lean ====
/-
  The reference program's two minimum stages, read at an index over the extended reals.

  Stage 15 of the reference holds, at (i, j), the distance of row i of the first array to row j of the second:
  the row sums of squares are broadcast along the two axes and added, twice the inner product is subtracted,
  the difference is clamped at 0 and its square root taken. Stage 16 takes, for each i, the minimum over j from
  +∞, which is the infimum over j; stage 18 takes, for each j, the minimum over i, which by the symmetry of the
  distance is the infimum of the distances from row j of the second array to the rows of the first.
-/
import proofs.«179447_j18872086299275_1_alg».proof.Proof.Gen.ReferenceIdeal.Read
import proofs.«179447_j18872086299275_1_alg».proof.Proof.Spec
import Idealize.ShloMosaic.PureOps.Reduce
import Idealize.ShloMosaic.PureOps.Ideal.Laws
import Idealize.ShloMosaic.Lib.ValueIdx
import Mathlib.Order.Lattice
import Mathlib.Data.Finset.Lattice.Fold

noncomputable section

open scoped BigOperators

namespace Cert.RefValue

open Idealize.ShloMosaic Idealize.ShloMosaic.ValueIdx Cert.ReferenceIdeal Cert.ReferenceIdeal.Gen Cert.ReferenceIdeal.Read

/-! ## The indices the stages read at -/

/-- Row sums of the first array are read along row i, whatever the column j of the pair. -/
theorem idx_sq_left (i j : Fin 8192) (k : Fin 128) :
    idx_main_v1 (idx_main_v5 (idx_main_v7 (ix2 i j))) k = ix2 i k :=
  funext fun a => Fin.ext (by match a with | ⟨0, _⟩ => rfl | ⟨1, _⟩ => rfl)

/-- Row sums of the second array are read along row j, whatever the row i of the pair. -/
theorem idx_sq_right (i j : Fin 8192) (k : Fin 128) :
    idx_main_v3 (idx_main_v6 (idx_main_v8 (ix2 i j))) k = ix2 j k :=
  funext fun a => Fin.ext (by match a with | ⟨0, _⟩ => rfl | ⟨1, _⟩ => rfl)

/-- The inner product's left factor runs along row i of the first array. -/
theorem idx_dot_left (i j : Fin 8192) (k : Fin 128) : lidx_main_v4 (ix2 i j) k = ix2 i k :=
  funext fun a => Fin.ext (by match a with | ⟨0, _⟩ => rfl | ⟨1, _⟩ => rfl)

/-- The inner product's right factor runs along row j of the second array. -/
theorem idx_dot_right (i j : Fin 8192) (k : Fin 128) : ridx_main_v4 (ix2 i j) k = ix2 j k :=
  funext fun a => Fin.ext (by match a with | ⟨0, _⟩ => rfl | ⟨1, _⟩ => rfl)

/-! ## Stage 15 is the distance -/

/-- At (i, j) the reference's stage 15 is the distance of row i of X and row j of Y. -/
theorem dist_at (X Y : (⟨S8192x128, .f32⟩ : BufTy).Contents (Elt Ideal)) (i j : Fin 8192) :
    val_main_v15 (F := Ideal) X Y (ix2 i j) = Cert.Spec.dist (Cert.Spec.row X i) (Cert.Spec.row Y j) := by
  rw [val_main_v15_apply, val_main_v14_apply, val_main_v13_apply, val_main_cst_2_apply, val_main_v12_apply,
    val_main_v11_apply, val_main_v10_apply, val_main_cst_1_apply, val_main_v9_apply, val_main_v8_apply,
    val_main_v7_apply, val_main_v6_apply, val_main_v5_apply, val_main_v4_apply, val_main_v3_apply,
    val_main_v1_apply, val_main_cst_apply, val_main_cst_0_apply]
  simp only [val_main_v0_apply, val_main_v2_apply, idx_sq_left, idx_sq_right, idx_dot_left, idx_dot_right,
    Ideal.ofBits_def, Ideal.mulf_def, Ideal.addf_def, Ideal.subf_def, Ideal.maximumf_def, Ideal.hostUnary_sqrt_def,
    Ideal.ofBits_zero_f32, zero_add]
  rfl

/-! ## The minimum over one axis is the infimum over it -/

/-- The +∞ pattern both minimum stages start from is the top of the extended reals. -/
theorem inf_pattern : Ideal.ofBits .f32 0x7F800000#32 = (⊤ : EReal) := by simp [Ideal.ofBits, Ideal.ieee]

/-- A row index with the column k put back on axis 1 is (i, k). -/
theorem lift_col (h : S8192x8192.Reduces [1] S8192) (i : Fin 8192) (k : Fin 8192) :
    h.lift (ix1 i) k = ix2 i k :=
  funext fun a => Fin.ext (by match a with | ⟨0, _⟩ => rfl | ⟨1, _⟩ => rfl)

/-- A column index with the row k put back on axis 0 is (k, j). -/
theorem lift_row (h : S8192x8192.Reduces [0] S8192) (j : Fin 8192) (k : Fin 8192) :
    h.lift (ix1 j) k = ix2 k j :=
  funext fun a => Fin.ext (by match a with | ⟨0, _⟩ => rfl | ⟨1, _⟩ => rfl)

/-- Folding the binary minimum from +∞ over all indices is the infimum: the infimum of a finite family is by
    definition that fold of the lattice meet from the top, and on a linear order the meet is the minimum. -/
theorem fold_min_top {n : Nat} (f : Fin n → EReal) :
    (Finset.univ : Finset (Fin n)).fold (FloatOps.minimumf (F := Ideal) (φ := .f32)) (⊤ : EReal) f = Finset.univ.inf f := rfl

/-- the reference's row minimum is the least distance from row i of X to a row of Y -/
theorem ref_rows (X Y : (⟨S8192x128, .f32⟩ : BufTy).Contents (Elt Ideal)) (i : Fin 8192) :
    val_main_v16 (F := Ideal) X Y (ix1 i) = Cert.Spec.nearest (n := 8192) (m := 8192) X Y i := by
  have h : S8192x8192.Reduces [1] S8192 := by decide
  unfold val_main_v16
  rw [Host.reduce_eq_fold_single FloatOps.minimumf _ _ reducesTo_S8192x8192_S8192_d1 h h_S_,
    val_main_cst_3_apply, Ideal.ofBits_def, inf_pattern]
  have hf : (val_main_v15 (F := Ideal) X Y ∘ h.lift (ix1 i))
      = fun k : Fin 8192 => Cert.Spec.dist (Cert.Spec.row X i) (Cert.Spec.row Y k) :=
    funext fun k => (congrArg (val_main_v15 (F := Ideal) X Y) (lift_col h i k)).trans (dist_at X Y i k)
  rw [hf]
  exact fold_min_top _

/-- the reference's column minimum is the least distance from row j of Y to a row of X -/
theorem ref_cols (X Y : (⟨S8192x128, .f32⟩ : BufTy).Contents (Elt Ideal)) (j : Fin 8192) :
    val_main_v18 (F := Ideal) X Y (ix1 j) = Cert.Spec.nearest (n := 8192) (m := 8192) Y X j := by
  have h : S8192x8192.Reduces [0] S8192 := by decide
  unfold val_main_v18
  rw [Host.reduce_eq_fold_single FloatOps.minimumf _ _ reducesTo_S8192x8192_S8192_d0 h h_S_,
    val_main_cst_5_apply, Ideal.ofBits_def, inf_pattern]
  have hf : (val_main_v15 (F := Ideal) X Y ∘ h.lift (ix1 j))
      = fun k : Fin 8192 => Cert.Spec.dist (Cert.Spec.row Y j) (Cert.Spec.row X k) :=
    funext fun k => ((congrArg (val_main_v15 (F := Ideal) X Y) (lift_row h j k)).trans (dist_at X Y k j)).trans
      (Cert.Spec.dist_comm _ _)
  rw [hf]
  exact fold_min_top _

end Cert.RefValue

end
-- ==== Proof.Reshape.lean ====
/-
  Reading a column as a vector: an `[8192, 1]` array recast to shape `[8192]` keeps each entry at its row,
  because a row-major position in `[8192, 1]` is `i * 1 + 0 = i`, the position of `i` in `[8192]`.
-/
import proofs.«179447_j18872086299275_1_alg».proof.Proof.Spec
import Idealize.ShloMosaic.Lib.Pipeline.Value

namespace Cert.Spec

open Idealize.ShloMosaic Idealize.ShloMosaic.ValueIdx

/-- Dropping the unit axis of an `[8192, 1]` array: entry `i` of the `[8192]` vector is the array's entry `(i, 0)`,
    the two indices having the same row-major position. -/
theorem reshape_col {α : Type} (v : (⟨2, ![8192, 1]⟩ : Shape).Idx → α)
    (h : (⟨2, ![8192, 1]⟩ : Shape).ShapeCasts ⟨1, ![8192]⟩) (i : Fin 8192) :
    shapeCast ⟨1, ![8192]⟩ v h (ix1 i) = v (ix2 i 0) := by
  refine shapeCast_apply v h (ix1 i) (ix2 i 0) ?_
  -- position of (i, 0) in [8192, 1] is i * 1 + 0; position of i in [8192] is i
  rw [Shape.rowMajor_val_two, Shape.rowMajor_val_one]
  show i.val * 1 + 0 = i.val
  omega

end Cert.Spec
-- ==== Proof.KI.Value.lean ====
/-
  THE VALUE at the ideal instance. The first region leaves in its output array, row by row, the least distance from
  that row of the first argument to a row of the second; the second region, run on the swapped operands, the least
  distance from each row of the second argument to a row of the first. The host tail sums both vectors, adds the sums and
  halves. The reference computes the full matrix of distances, its row minima and its column minima, and applies the
  same tail; a column minimum of the matrix is a row minimum with the operands swapped because the distance is symmetric.
  So both results are one function of the two argument arrays.
-/
import proofs.«179447_j18872086299275_1_alg».proof.Proof.KI.Run
import proofs.«179447_j18872086299275_1_alg».proof.Proof.KI.Acc0
import proofs.«179447_j18872086299275_1_alg».proof.Proof.KI.Acc1
import proofs.«179447_j18872086299275_1_alg».proof.Proof.KI.Tail
import proofs.«179447_j18872086299275_1_alg».proof.Proof.Tile
import proofs.«179447_j18872086299275_1_alg».proof.Proof.Ref
import proofs.«179447_j18872086299275_1_alg».proof.Proof.Reshape
import proofs.«179447_j18872086299275_1_alg».proof.Defs

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The first argument as the second region finds it: as launched. -/
theorem V2r_arg0 (c : Dev nD) : V2r m c main_arg0 = m ((c : Thread nD τ).loc main_arg0) :=
  (after_keeps _ _ main_arg0 (ops1_keeps main_arg0 (by decide))).trans
    ((W1_arr m c 0).trans (((datR0 (V0r m) c).arrAt_in 0 rfl _).trans (AR0_eq (V0r m) c 0)))
theorem V2r_arg1 (c : Dev nD) : V2r m c main_arg1 = m ((c : Thread nD τ).loc main_arg1) :=
  (after_keeps _ _ main_arg1 (ops1_keeps main_arg1 (by decide))).trans
    ((W1_arr m c 1).trans (((datR0 (V0r m) c).arrAt_in 1 rfl _).trans (AR0_eq (V0r m) c 1)))

/-- The first region's output, flattened, is the reference's vector of row minima. -/
theorem rows_eq (c : Dev nD) :
    shapeCast S8192 ((datR0 (F := Ideal) (V0r m) c).arrAt 2 cfg0.N) shapeCasts_S8192x1_S8192
      = Cert.ReferenceIdeal.Read.val_main_v16 (F := Ideal) (m ((c : Thread nD τ).loc main_arg0)) (m ((c : Thread nD τ).loc main_arg1)) := by
  funext j
  obtain ⟨i, rfl⟩ : ∃ i : Fin 8192, j = ix1 i := ⟨j 0, eq_ix1 j⟩
  refine (Cert.Spec.reshape_col _ _ i).trans ?_
  rw [Cert.RefValue.ref_rows]
  exact finalR0 (V0r m) c Cert.KernelIdeal.Tile.pay1_apply Cert.KernelIdeal.Tile.pay2_apply i

/-- The second region's output, flattened, is the reference's vector of column minima. -/
theorem cols_eq (c : Dev nD) :
    shapeCast S8192 ((datR1 (F := Ideal) (V2r m) c).arrAt 2 cfg1.N) shapeCasts_S8192x1_S8192
      = Cert.ReferenceIdeal.Read.val_main_v18 (F := Ideal) (m ((c : Thread nD τ).loc main_arg0)) (m ((c : Thread nD τ).loc main_arg1)) := by
  funext j
  obtain ⟨i, rfl⟩ : ∃ i : Fin 8192, j = ix1 i := ⟨j 0, eq_ix1 j⟩
  refine (Cert.Spec.reshape_col _ _ i).trans ?_
  rw [Cert.RefValue.ref_cols]
  refine (finalR1 (V2r m) c (fun i => by rw [Cert.KernelIdeal.Tile.k1_pay1_eq]; exact Cert.KernelIdeal.Tile.pay1_apply i)
    (fun x y s r => by rw [Cert.KernelIdeal.Tile.k1_pay2_eq]; exact Cert.KernelIdeal.Tile.pay2_apply x y s r) i).trans ?_
  rw [show V2r m c (Pipeline.arrRef spec1 0) = V2r m c main_arg1 from rfl, show V2r m c (Pipeline.arrRef spec1 1) = V2r m c main_arg0 from rfl,
    V2r_arg0, V2r_arg1]

/-- The kernel's result buffer at the end of the run is the reference's last stage of the launch arguments. -/
theorem W4_main_v7 (c : Dev nD) :
    W4 m c (Proc.devRef .tc main_v7)
      = Cert.ReferenceIdeal.Read.val_main_v21 (F := Ideal) (m ((c : Thread nD τ).loc main_arg0)) (m ((c : Thread nD τ).loc main_arg1)) := by
  rw [← tailFn_ref]
  refine (after_ops2_v7 (W3 m c)).trans ?_
  have h1 : W3 m c (Proc.devRef .tc main_v1) = shapeCast S8192 ((datR0 (F := Ideal) (V0r m) c).arrAt 2 cfg0.N) shapeCasts_S8192x1_S8192 :=
    (W3_of_ne m c main_v1 (by decide)).trans ((after_ops1_v1 (W1 m c)).trans (congrArg (fun v => shapeCast S8192 v shapeCasts_S8192x1_S8192) (W1_arr m c 2)))
  have h2 : W3 m c (Proc.devRef .tc main_v2) = (datR1 (F := Ideal) (V2r m) c).arrAt 2 cfg1.N := W3_arr m c 2
  rw [h1, h2, rows_eq, cols_eq]

end Cert.KernelIdeal.Hand

end
-- ==== Proof.lean ====
/-
  The certificate's claims assembled. Both kernel programs (the word-level one and its idealization have the same
  text) run as two pipelined regions and two stretches of host operations; the frames are that run read at the argument
  arrays. The idealization applied no rewrite, so `preserves` has nothing to state. At the ideal instance the kernel's
  result and the reference's are the same function of the two argument arrays: the mean of the two sums of nearest
  distances (KI/Value.lean), the reference's run being its generated operation-by-operation term.
-/
import proofs.«179447_j18872086299275_1_alg».proof.Defs
import proofs.«179447_j18872086299275_1_alg».proof.Proof.Gen.Kernel
import proofs.«179447_j18872086299275_1_alg».proof.Proof.Gen.KernelIdeal
import proofs.«179447_j18872086299275_1_alg».proof.Proof.Gen.ReferenceIdeal
import proofs.«179447_j18872086299275_1_alg».proof.Proof.Gen.Pre_finite_inputs
import proofs.«179447_j18872086299275_1_alg».proof.Proof.Gen.ReferenceIdeal.Run
import proofs.«179447_j18872086299275_1_alg».proof.Proof.Gen.ReferenceIdeal.Read
import proofs.«179447_j18872086299275_1_alg».proof.Proof.K.Run
import proofs.«179447_j18872086299275_1_alg».proof.Proof.KI.Run
import proofs.«179447_j18872086299275_1_alg».proof.Proof.KI.Value
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference has no kernel: its frame is its generated run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the reference's last stage of the launch arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v21 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono (fun _ h c =>
      ⟨(h c _ (Cert.KernelIdeal.Hand.mem_uc Cert.KernelIdeal.main_v7 (by decide))).trans (Cert.KernelIdeal.Hand.W4_main_v7 m c),
       (h c _ (Cert.KernelIdeal.Hand.mem_uc Cert.KernelIdeal.main_arg0 (by decide))).trans (Cert.KernelIdeal.Hand.W4_main_arg0 m c),
       (h c _ (Cert.KernelIdeal.Hand.mem_uc Cert.KernelIdeal.main_arg1 (by decide))).trans (Cert.KernelIdeal.Hand.W4_main_arg1 m c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v21_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
